-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 512]⟩ ⟨2, ![2048, 512]⟩ (Layout.meshBlock [2, 4, 4] ![[1], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x512 : Shape := ⟨2, ![512, 512]⟩
abbrev S_ : Shape := ⟨0, ![]⟩

class Facts : Prop where
  bcast_S_S512x512 : S_.BroadcastsInDim S512x512 (![] : Fin 0 → Fin S512x512.rank)
  reducesTo_S512x512_S_d0_1 : S512x512.ReducesTo [0, 1] S_
  h_S_ : 0 < S_.numel

variable [Facts]

def fn {F : FTy → Type} [FloatOps F] (main_arg0 : FVec F S512x512 .f32) : IVec S_ 1 :=
  let main_v0 : FVec F S512x512 .f32 := Host.absf main_arg0
  let main_cst : FVec F S_ .f32 := constant S_ .f32 0x7F800000#32
  let main_v1 : FVec F S512x512 .f32 := broadcastInDim S512x512 ![] bcast_S_S512x512 main_cst
  let main_v2 : IVec S512x512 1 := cmpf .olt main_v0 main_v1
  let main_c : IVec S_ 1 := constantI S_ 1 1#1
  let main_v3 : IVec S_ 1 := (fun x v => Host.reduce IntOp.andi x v reducesTo_S512x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S512x512 : Shape := ⟨2, ![512, 512]⟩
abbrev S4x512x512 : Shape := ⟨3, ![4, 512, 512]⟩
abbrev S4 : Shape := ⟨1, ![4]⟩
abbrev S_ : Shape := ⟨0, ![]⟩
abbrev S1x512x512 : Shape := ⟨3, ![1, 512, 512]⟩
abbrev S1 : Shape := ⟨1, ![1]⟩

abbrev nBuf : Space → Nat
  | .hbm => 2
  | .vmem => 3
  | .smem => 0
  | _ => 0

abbrev bufTy : (tb : Table) → Fin (tcTables nBuf tb) → BufTy
  | .hbm, ⟨0, _⟩ => ⟨S512x512, .f32⟩
  | .hbm, ⟨1, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S4x512x512, .bf16⟩
  | _, _ => ⟨S512x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  (ofTc nBuf bufTy 1 10 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_17 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_16 : BitVec 32 := 16#32
  let v32 : BitVec 32 := Scalar.muli v2 c16_i32_16
  let v33 : BitVec 32 := Scalar.addi c0_i32_17 v32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_2 : BitVec 32 := 1#32
  let v9 : BitVec 32 := Scalar.subi v5 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c4_i32_18 : BitVec 32 := 4#32
  let v34 : BitVec 32 := Scalar.muli v19 c4_i32_18
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_19 : BitVec 32 := 1#32
  let v36 : BitVec 32 := Scalar.muli v8 c1_i32_19
  let v37 : BitVec 32 := Scalar.addi v35 v36
  v37.toNat
def k0_dev2 (d0 : Dev nD) : Nat :=
  let c0_i32_22 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_21 : BitVec 32 := 16#32
  let v38 : BitVec 32 := Scalar.muli v2 c16_i32_21
  let v39 : BitVec 32 := Scalar.addi c0_i32_22 v38
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_23 : BitVec 32 := 4#32
  let v40 : BitVec 32 := Scalar.muli v30 c4_i32_23
  let v41 : BitVec 32 := Scalar.addi v39 v40
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_24 : BitVec 32 := 1#32
  let v42 : BitVec 32 := Scalar.muli v8 c1_i32_24
  let v43 : BitVec 32 := Scalar.addi v41 v42
  v43.toNat
def k0_dev3 (d0 : Dev nD) : Nat :=
  let c0_i32_39 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_38 : BitVec 32 := 16#32
  let v53 : BitVec 32 := Scalar.muli v2 c16_i32_38
  let v54 : BitVec 32 := Scalar.addi c0_i32_39 v53
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_40 : BitVec 32 := 4#32
  let v55 : BitVec 32 := Scalar.muli v30 c4_i32_40
  let v56 : BitVec 32 := Scalar.addi v54 v55
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_41 : BitVec 32 := 1#32
  let v57 : BitVec 32 := Scalar.muli v8 c1_i32_41
  let v58 : BitVec 32 := Scalar.addi v56 v57
  v58.toNat
def k0_dev4 (d0 : Dev nD) : Nat :=
  let c0_i32_78 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_77 : BitVec 32 := 16#32
  let v92 : BitVec 32 := Scalar.muli v2 c16_i32_77
  let v93 : BitVec 32 := Scalar.addi c0_i32_78 v92
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_79 : BitVec 32 := 4#32
  let v94 : BitVec 32 := Scalar.muli v30 c4_i32_79
  let v95 : BitVec 32 := Scalar.addi v93 v94
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v96 : BitVec 32 := Scalar.muli v8 c1_i32_80
  let v97 : BitVec 32 := Scalar.addi v95 v96
  v97.toNat
def k0_dev5 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v131 : BitVec 32 := Scalar.muli v2 c16_i32_115
  let v132 : BitVec 32 := Scalar.addi c0_i32_116 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_8 : BitVec 32 := 1#32
  let v20 : BitVec 32 := Scalar.addi v5 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_117 : BitVec 32 := 4#32
  let v133 : BitVec 32 := Scalar.muli v30 c4_i32_117
  let v134 : BitVec 32 := Scalar.addi v132 v133
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_118 : BitVec 32 := 1#32
  let v135 : BitVec 32 := Scalar.muli v8 c1_i32_118
  let v136 : BitVec 32 := Scalar.addi v134 v135
  v136.toNat
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S4x512x512_S1x512x512_0_0_0 : ∀ a, (![0, 0, 0] : Fin 3 → Nat) a + S1x512x512.size a ≤ S4x512x512.size a
  h_S1x512x512 : 0 < S1x512x512.numel
  shapeCasts_S1x512x512_S512x512 : S1x512x512.ShapeCasts S512x512
  shapeCasts_S512x512_S1x512x512 : S512x512.ShapeCasts S1x512x512
  packedbf16_S4x512x512_S1x512x512_0_0_0 : (Rect.unit (s := S4x512x512) ![0, 0, 0] S1x512x512.size inb_S4x512x512_S1x512x512_0_0_0).PackedRows (EltTy.packing .bf16)
  inb_S4_S1_0 : ∀ a, (![0] : Fin 1 → Nat) a + S1.size a ≤ S4.size a
  squeezes_S1_S_ : S1.Squeezes S_
  inb_S4_S1_1 : ∀ a, (![1] : Fin 1 → Nat) a + S1.size a ≤ S4.size a
  inb_S4x512x512_S1x512x512_1_0_0 : ∀ a, (![1, 0, 0] : Fin 3 → Nat) a + S1x512x512.size a ≤ S4x512x512.size a
  squeezes_S1x512x512_S512x512 : S1x512x512.Squeezes S512x512
  wordsbf16_S4x512x512_S1x512x512_0_0_0 : (Rect.unit (s := S4x512x512) ![0, 0, 0] S1x512x512.size inb_S4x512x512_S1x512x512_0_0_0).WholeWords (EltTy.packing .bf16)
  wordsbf16_S4x512x512_S1x512x512_1_0_0 : (Rect.unit (s := S4x512x512) ![1, 0, 0] S1x512x512.size inb_S4x512x512_S1x512x512_1_0_0).WholeWords (EltTy.packing .bf16)
  inb_S4_S1_2 : ∀ a, (![2] : Fin 1 → Nat) a + S1.size a ≤ S4.size a
  inb_S4x512x512_S1x512x512_2_0_0 : ∀ a, (![2, 0, 0] : Fin 3 → Nat) a + S1x512x512.size a ≤ S4x512x512.size a
  wordsbf16_S4x512x512_S1x512x512_2_0_0 : (Rect.unit (s := S4x512x512) ![2, 0, 0] S1x512x512.size inb_S4x512x512_S1x512x512_2_0_0).WholeWords (EltTy.packing .bf16)
  inb_S4_S1_3 : ∀ a, (![3] : Fin 1 → Nat) a + S1.size a ≤ S4.size a
  inb_S4x512x512_S1x512x512_3_0_0 : ∀ a, (![3, 0, 0] : Fin 3 → Nat) a + S1x512x512.size a ≤ S4x512x512.size a
  wordsbf16_S4x512x512_S1x512x512_3_0_0 : (Rect.unit (s := S4x512x512) ![3, 0, 0] S1x512x512.size inb_S4x512x512_S1x512x512_3_0_0).WholeWords (EltTy.packing .bf16)
  hcc0_scratch1 : 2 + S4.numel ≤ 10
  hcc0_scratch2 : 6 + S4.numel ≤ 10
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  hstage0_0 : ∀ j, (stage0_0 j).IsWhole
  hstage0_1 : ∀ j, (stage0_1 j).IsWhole

variable [Facts₀]

abbrev cc0_scratch1 : DmaSems sig S4 := SemArray.consecutive 2 S4 hcc0_scratch1
abbrev cc0_scratch2 : DmaSems sig S4 := SemArray.consecutive 6 S4 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2048x512 : Shape := ⟨2, ![2048, 512]⟩
abbrev S4x512x512 : Shape := ⟨3, ![4, 512, 512]⟩
abbrev S_ : Shape := ⟨0, ![]⟩
abbrev S512x512 : Shape := ⟨2, ![512, 512]⟩

abbrev nBuf : Space → Nat
  | .hbm => 4
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S4x512x512, .f32⟩
  | .hbm, ⟨2, _⟩ => ⟨S_, .f32⟩
  | .hbm, ⟨3, _⟩ => ⟨S512x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  shapeCasts_S2048x512_S4x512x512 : S2048x512.ShapeCasts S4x512x512
  reducesTo_S4x512x512_S512x512_d0 : S4x512x512.ReducesTo [0] S512x512
  h_S_ : 0 < S_.numel

variable [Facts₀]

class Facts : Prop extends Facts₀ where

variable [Facts]
-- ==== Proof.Mesh.lean ====
/-
  The ring on the mesh's second axis. Device `c` of the 2×4×4 mesh sits at coordinates (c / 16, c / 4 % 4, c % 4);
  its right neighbour `nxt c` has the second coordinate one higher modulo 4, its left neighbour `prv c` one lower,
  the other two coordinates the same. The kernel's five device-id chains name `prv c` (the first signal) and `nxt c`
  (the second signal and the three transfers): decided over the 32 devices.
-/
import proofs.«900729_g7700000000000730_dist_ar_v7x_xyz2x4x4_y_m512_n512_bf16_1_alg».proof.Proof.Gen.KernelIdeal

noncomputable section

namespace Cert.KernelIdeal.Ring

open Cert.KernelIdeal Cert.KernelIdeal.Gen
open Idealize.ShloMosaic

/-- The right neighbour on the second mesh axis. -/
def nxt (c : Dev nD) : Dev nD := ⟨c.val / 16 * 16 + (c.val / 4 % 4 + 1) % 4 * 4 + c.val % 4, by have h : c.val < 32 := c.isLt; show _ < 32; omega⟩
/-- The left neighbour on the second mesh axis. -/
def prv (c : Dev nD) : Dev nD := ⟨c.val / 16 * 16 + (c.val / 4 % 4 + 3) % 4 * 4 + c.val % 4, by have h : c.val < 32 := c.isLt; show _ < 32; omega⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
/-- Four steps to the left come back: the ring has four places. -/
theorem prv4 (c : Dev nD) : prv (prv (prv (prv c))) = c := by revert c; decide

theorem dev1_eq (c : Dev nD) : (⟨k0_dev1 c, Facts₀.k0_dev1_lt c⟩ : Dev nD) = prv c := by revert c; decide +kernel
theorem dev2_eq (c : Dev nD) : (⟨k0_dev2 c, Facts₀.k0_dev2_lt c⟩ : Dev nD) = nxt c := by revert c; decide +kernel
theorem dev3_eq (c : Dev nD) : (⟨k0_dev3 c, Facts₀.k0_dev3_lt c⟩ : Dev nD) = nxt c := by revert c; decide +kernel
theorem dev4_eq (c : Dev nD) : (⟨k0_dev4 c, Facts₀.k0_dev4_lt c⟩ : Dev nD) = nxt c := by revert c; decide +kernel
theorem dev5_eq (c : Dev nD) : (⟨k0_dev5 c, Facts₀.k0_dev5_lt c⟩ : Dev nD) = nxt c := by revert c; decide +kernel

def ring : Dev nD ≃ Dev nD := ⟨nxt, prv, prv_nxt, nxt_prv⟩

end Cert.KernelIdeal.Ring

end
-- ==== Proof.Spec.lean ====
/-
  The value every device ends with, as a term over the four blocks it adds. Device `c` keeps its own block,
  then three times adds what its left neighbour sent: the left neighbour's block, then the block of the device
  two places to the left, then three places. Each sent block goes through the narrow format and comes back; the
  term is stated for any float instance.
-/
import proofs.«900729_g7700000000000730_dist_ar_v7x_xyz2x4x4_y_m512_n512_bf16_1_alg».proof.Proof.Gen.KernelIdeal.Skeleton
import proofs.«900729_g7700000000000730_dist_ar_v7x_xyz2x4x4_y_m512_n512_bf16_1_alg».proof.Proof.Mesh

noncomputable section

namespace Cert.KernelIdeal.RingValue

open Cert.KernelIdeal Cert.KernelIdeal.Gen
open Idealize.ShloMosaic Idealize.SL.Sem
open Idealize.ShloMosaic.TcCoe

variable {F : FTy → Type} [FloatOps F]

/-- The result from the device's own block `x0` and the blocks `x1`, `x2`, `x3` of the devices one, two and
    three places to its left: `((x0 + x1) + x2) + x3`, each of `x1`, `x2`, `x3` narrowed and widened on the way. -/
def outTerm (x0 x1 x2 x3 : Vec F S512x512 .f32) : FVec F S512x512 .f32 :=
  k0_pay1 (k0_pay5 (k0_pay4 (k0_pay3 x0) (k0_pay2 x1)) (k0_pay2 x2)) (k0_pay2 x3)

/-- The result of device `c` from the initial memory `m`: `outTerm` of the argument blocks of `c` and of the
    three devices to its left on the ring. -/
def resultOf (m : (ℓ : Loc nD τ sig) → Buf (Elt F) ℓ) (c : Dev nD) :
    Buf (Elt F) ((c.tc : Thread nD τ).loc main_v1) :=
  outTerm (m ((c.tc : Thread nD τ).loc main_arg0))
    (m (((Ring.prv c).tc : Thread nD τ).loc main_arg0))
    (m (((Ring.prv (Ring.prv c)).tc : Thread nD τ).loc main_arg0))
    (m (((Ring.prv (Ring.prv (Ring.prv c))).tc : Thread nD τ).loc main_arg0))

end Cert.KernelIdeal.RingValue

end
-- ==== Proof.Proto.lean ====
/-
  The ring all-reduce on the second mesh axis, as a protocol over semaphore cells.

  Each device first tells both ring neighbours that it is inside the kernel (one unit on each neighbour's barrier
  semaphore) and waits for the two units it is sent. Its communication buffer has four slots. Slot 0 receives the
  device's own block in the narrow format; in step h = 0, 1, 2 the device copies slot h into slot h + 1 of its right
  neighbour, waits for the copy to have left (send cell h) and for the left neighbour's copy to have arrived
  (receive cell h + 1), and adds slot h + 1 to its result. So slot k of device c ends holding the block of the device
  k places to the left of c.

  The cells of one device: its barrier cell, two duties of one unit (false: paid by the left neighbour, hands over
  nothing; true: paid by the right neighbour, hands over that neighbour's three landing slots); its send cells 0, 1, 2,
  one duty each, handing the source slot back unchanged; its receive cells 1, 2, 3, one duty each, handing over the
  landing slot at the sender's contents. Everything happens in round 0.
-/
import proofs.«900729_g7700000000000730_dist_ar_v7x_xyz2x4x4_y_m512_n512_bf16_1_alg».proof.Proof.Spec
import proofs.«900729_g7700000000000730_dist_ar_v7x_xyz2x4x4_y_m512_n512_bf16_1_alg».proof.Proof.Gen.KernelIdeal.Launch
import proofs.«900729_g7700000000000730_dist_ar_v7x_xyz2x4x4_y_m512_n512_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs, the slots of the communication buffer, the semaphores and the cells -/

abbrev xM : Memref sig .tc .vmem S512x512 .f32 := Memref.whole cc0_stg0_0
abbrev oM : Memref sig .tc .vmem S512x512 .f32 := Memref.whole cc0_stg1_0
abbrev cM : Memref sig .tc .vmem S4x512x512 .bf16 := Memref.whole cc0_scratch0

/-- Slot 0 of the communication buffer: rows [0, 0 + 1) of its first axis, as a rectangle, -/
abbrev rk0 : Rect S4x512x512 := Rect.unit (s := S4x512x512) ![0, 0, 0] S1x512x512.size inb_S4x512x512_S1x512x512_0_0_0
/-- as the view a load or a store goes through, -/
abbrev sv0 : View sig .tc .vmem S1x512x512 .bf16 := (View.whole cc0_scratch0).slice rk0
/-- and as the memref a transfer names (the slot with its unit axis dropped). -/
abbrev dM0 : Memref sig .tc .vmem S512x512 .bf16 := (cM.slice rk0 (fun _ => rfl)).squeeze S512x512 squeezes_S1x512x512_S512x512
/-- Slot 1 of the communication buffer: rows [1, 1 + 1) of its first axis, as a rectangle, -/
abbrev rk1 : Rect S4x512x512 := Rect.unit (s := S4x512x512) ![1, 0, 0] S1x512x512.size inb_S4x512x512_S1x512x512_1_0_0
/-- as the view a load or a store goes through, -/
abbrev sv1 : View sig .tc .vmem S1x512x512 .bf16 := (View.whole cc0_scratch0).slice rk1
/-- and as the memref a transfer names (the slot with its unit axis dropped). -/
abbrev dM1 : Memref sig .tc .vmem S512x512 .bf16 := (cM.slice rk1 (fun _ => rfl)).squeeze S512x512 squeezes_S1x512x512_S512x512
/-- Slot 2 of the communication buffer: rows [2, 2 + 1) of its first axis, as a rectangle, -/
abbrev rk2 : Rect S4x512x512 := Rect.unit (s := S4x512x512) ![2, 0, 0] S1x512x512.size inb_S4x512x512_S1x512x512_2_0_0
/-- as the view a load or a store goes through, -/
abbrev sv2 : View sig .tc .vmem S1x512x512 .bf16 := (View.whole cc0_scratch0).slice rk2
/-- and as the memref a transfer names (the slot with its unit axis dropped). -/
abbrev dM2 : Memref sig .tc .vmem S512x512 .bf16 := (cM.slice rk2 (fun _ => rfl)).squeeze S512x512 squeezes_S1x512x512_S512x512
/-- Slot 3 of the communication buffer: rows [3, 3 + 1) of its first axis, as a rectangle, -/
abbrev rk3 : Rect S4x512x512 := Rect.unit (s := S4x512x512) ![3, 0, 0] S1x512x512.size inb_S4x512x512_S1x512x512_3_0_0
/-- as the view a load or a store goes through, -/
abbrev sv3 : View sig .tc .vmem S1x512x512 .bf16 := (View.whole cc0_scratch0).slice rk3
/-- and as the memref a transfer names (the slot with its unit axis dropped). -/
abbrev dM3 : Memref sig .tc .vmem S512x512 .bf16 := (cM.slice rk3 (fun _ => rfl)).squeeze S512x512 squeezes_S1x512x512_S512x512

/-- The communication buffer of device `c`. -/
abbrev cLoc (c : Dev nD) : Loc nD τ sig := (c : Thread nD τ).loc cc0_scratch0

/-- The runtime's barrier semaphore of collective id 0 (unscoped); the send semaphores 0, 1, 2 and the receive
    semaphores 1, 2, 3 (scoped scratch). -/
abbrev barS : Sem sig := (SemArray.scalar (sig.barrier 0 rfl) : Sems sig S_).sem
abbrev snd0 : DmaSem sig := 2
abbrev snd1 : DmaSem sig := 3
abbrev snd2 : DmaSem sig := 4
abbrev rcv1 : DmaSem sig := 7
abbrev rcv2 : DmaSem sig := 8
abbrev rcv3 : DmaSem sig := 9

abbrev barCell (c : Dev nD) : GSem nD τ sig := ((c : Thread nD τ), .reg barS)
abbrev dCell (c : Dev nD) (q : DmaSem sig) : GSem nD τ sig := ((c : Thread nD τ), .dma q)

/-- The kernel's OWN (scoped) semaphores the protocol uses, as the launch theorem indexes them; -/
abbrev osem : Fin 6 → SemLoc sig := fun | 0 => .dma snd0 | 1 => .dma snd1 | 2 => .dma snd2 | 3 => .dma rcv1 | 4 => .dma rcv2 | 5 => .dma rcv3
/-- all seven of the ring's, as this proof indexes them: the barrier first. -/
abbrev csem : Fin 7 → SemLoc sig := fun | 0 => .reg barS | 1 => .dma snd0 | 2 => .dma snd1 | 3 => .dma snd2 | 4 => .dma rcv1 | 5 => .dma rcv2 | 6 => .dma rcv3
abbrev kcell (ck : Dev nD × Fin 7) : GSem nD τ sig := ((ck.1 : Thread nD τ), csem ck.2)

/-- The credit of one slot's transfer. -/
abbrev N : ℕ := (dM0 : Memref sig .tc .vmem S512x512 .bf16).view.dmaCredit
theorem N_pos : 0 < N := View.dmaCredit_pos _ (by decide)

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` puts into slot 0: its block in the narrow format. -/
def cm (c : Dev nD) : S1x512x512.Idx → Elt F .bf16 := k0_pay2 (xstg m ρ c)

/-- The running result of device `c` after 0, 1, 2 and 3 additions. -/
def acc0 (c : Dev nD) : (cc0_stg1_0 : Ref sig .tc).ty.Contents (Elt F) := k0_pay3 (xstg m ρ c)
def acc1 (c : Dev nD) : (cc0_stg1_0 : Ref sig .tc).ty.Contents (Elt F) := k0_pay4 (acc0 m ρ c) (cm m ρ (prv c))
def acc2 (c : Dev nD) : (cc0_stg1_0 : Ref sig .tc).ty.Contents (Elt F) := k0_pay5 (acc1 m ρ c) (cm m ρ (prv (prv c)))
def acc3 (c : Dev nD) : (cc0_stg1_0 : Ref sig .tc).ty.Contents (Elt F) := k0_pay1 (acc2 m ρ c) (cm m ρ (prv (prv (prv c))))

theorem acc3_eq (c : Dev nD) : acc3 m ρ c = outTerm (xstg m ρ c) (xstg m ρ (prv c)) (xstg m ρ (prv (prv c))) (xstg m ρ (prv (prv (prv c)))) := rfl

/-- Slot 0 of device `c` held outright, reading `w`; -/
def slot0 (c : Dev nD) (w : S1x512x512.Idx → Elt F .bf16) : sProp 𝕄 :=
  iprop(∃ f : Buf (Elt F) (cLoc c), ⌜sv0.read (Elt F) f = w⌝ ∗ (cLoc c ↦[sv0.set]{fullShare} f))
/-- at whatever contents. -/
def any0 (c : Dev nD) : sProp 𝕄 := iprop(∃ f : Buf (Elt F) (cLoc c), (cLoc c ↦[sv0.set]{fullShare} f))
omit [FloatOps F] in
instance slot0_storable (c : Dev nD) (w) : BI.Storable (upEmb : UEmb _ 𝕄) (slot0 (F := F) c w) := by unfold slot0; infer_instance
omit [FloatOps F] in
instance any0_storable (c : Dev nD) : BI.Storable (upEmb : UEmb _ 𝕄) (any0 (F := F) c) := by unfold any0; infer_instance
/-- Slot 1 of device `c` held outright, reading `w`; -/
def slot1 (c : Dev nD) (w : S1x512x512.Idx → Elt F .bf16) : sProp 𝕄 :=
  iprop(∃ f : Buf (Elt F) (cLoc c), ⌜sv1.read (Elt F) f = w⌝ ∗ (cLoc c ↦[sv1.set]{fullShare} f))
/-- at whatever contents. -/
def any1 (c : Dev nD) : sProp 𝕄 := iprop(∃ f : Buf (Elt F) (cLoc c), (cLoc c ↦[sv1.set]{fullShare} f))
omit [FloatOps F] in
instance slot1_storable (c : Dev nD) (w) : BI.Storable (upEmb : UEmb _ 𝕄) (slot1 (F := F) c w) := by unfold slot1; infer_instance
omit [FloatOps F] in
instance any1_storable (c : Dev nD) : BI.Storable (upEmb : UEmb _ 𝕄) (any1 (F := F) c) := by unfold any1; infer_instance
/-- Slot 2 of device `c` held outright, reading `w`; -/
def slot2 (c : Dev nD) (w : S1x512x512.Idx → Elt F .bf16) : sProp 𝕄 :=
  iprop(∃ f : Buf (Elt F) (cLoc c), ⌜sv2.read (Elt F) f = w⌝ ∗ (cLoc c ↦[sv2.set]{fullShare} f))
/-- at whatever contents. -/
def any2 (c : Dev nD) : sProp 𝕄 := iprop(∃ f : Buf (Elt F) (cLoc c), (cLoc c ↦[sv2.set]{fullShare} f))
omit [FloatOps F] in
instance slot2_storable (c : Dev nD) (w) : BI.Storable (upEmb : UEmb _ 𝕄) (slot2 (F := F) c w) := by unfold slot2; infer_instance
omit [FloatOps F] in
instance any2_storable (c : Dev nD) : BI.Storable (upEmb : UEmb _ 𝕄) (any2 (F := F) c) := by unfold any2; infer_instance
/-- Slot 3 of device `c` held outright, reading `w`; -/
def slot3 (c : Dev nD) (w : S1x512x512.Idx → Elt F .bf16) : sProp 𝕄 :=
  iprop(∃ f : Buf (Elt F) (cLoc c), ⌜sv3.read (Elt F) f = w⌝ ∗ (cLoc c ↦[sv3.set]{fullShare} f))
/-- at whatever contents. -/
def any3 (c : Dev nD) : sProp 𝕄 := iprop(∃ f : Buf (Elt F) (cLoc c), (cLoc c ↦[sv3.set]{fullShare} f))
omit [FloatOps F] in
instance slot3_storable (c : Dev nD) (w) : BI.Storable (upEmb : UEmb _ 𝕄) (slot3 (F := F) c w) := by unfold slot3; infer_instance
omit [FloatOps F] in
instance any3_storable (c : Dev nD) : BI.Storable (upEmb : UEmb _ 𝕄) (any3 (F := F) c) := by unfold any3; infer_instance

def xPts (c : Dev nD) : sProp 𝕄 :=
  (xM : Memref sig .tc .vmem S512x512 .f32).view.loc (c : Thread nD τ) ↦[(xM : Memref sig .tc .vmem S512x512 .f32).view.set]{fullShare} xstg m ρ c

/-! ## The schedule -/

/-- What the right neighbour's signal (duty `true` of `c`'s barrier cell) hands `c`: that neighbour's three landing slots. -/
def barPay (c : Dev nD) : sProp 𝕄 := iprop(any1 (nxt c) ∗ any2 (nxt c) ∗ any3 (nxt c))

/-- What a landing on a transfer cell of `c` hands its owner: the source slot back (send cells), the landing slot at
    the block of the device that many places to the left (receive cells). -/
def xferPay (c : Dev nD) (q : DmaSem sig) : sProp 𝕄 :=
  if q = snd0 then slot0 c (cm m ρ c)
  else if q = snd1 then slot1 c (cm m ρ (prv c))
  else if q = snd2 then slot2 c (cm m ρ (prv (prv c)))
  else if q = rcv1 then slot1 c (cm m ρ (prv c))
  else if q = rcv2 then slot2 c (cm m ρ (prv (prv c)))
  else if q = rcv3 then slot3 c (cm m ρ (prv (prv (prv c))))
  else iprop(emp)

/-- The transfer semaphores the protocol uses. -/
def used (q : DmaSem sig) : Prop := q = snd0 ∨ q = snd1 ∨ q = snd2 ∨ q = rcv1 ∨ q = rcv2 ∨ q = rcv3
instance (q : DmaSem sig) : Decidable (used q) := by unfold used; infer_instance

/-- One round, round 0: a barrier cell has the two duties of one unit each; a used transfer cell the duty `false`
    of the slot's credit. -/
def ringRd : Rounds.Schedule (GSem nD τ sig) Bool 𝕄 where
  duties g r := if r = 0 ∧ g.1.2 = .tc then (match g.2 with | .reg _ => Finset.univ | .dma q => if used q then {false} else ∅) else ∅
  unitless _ := False
  amount g _ _ := match g.2 with | .reg _ => 1 | .dma _ => N
  payload g _ d := match g.2 with
    | .reg _ => if d then barPay g.1.1 else iprop(emp)
    | .dma q => xferPay m ρ g.1.1 q
  amount_pos g _ _ _ := by
    rcases g with ⟨t, sm⟩
    cases sm with
    | reg _ => exact Nat.one_pos
    | dma _ => exact N_pos

omit [FloatOps F] in
instance ringRd_payload_storable (g : GSem nD τ sig) (r : ℕ) (d : Bool) :
    BI.Storable (upEmb : UEmb _ 𝕄) ((ringRd (F := F) m ρ).payload g r d) := by
  rcases g with ⟨t, sm⟩
  cases sm with
  | reg _ =>
    show BI.Storable upEmb (if d then barPay t.1 else iprop(emp))
    unfold barPay; split <;> infer_instance
  | dma q =>
    show BI.Storable upEmb (xferPay m ρ t.1 q)
    unfold xferPay; (repeat' split) <;> infer_instance

/-! ## The schedule's table, cell by cell -/

section Sched
variable (c : Dev nD)

theorem used_snd0 : used snd0 := .inl rfl
theorem used_snd1 : used snd1 := .inr (.inl rfl)
theorem used_snd2 : used snd2 := .inr (.inr (.inl rfl))
theorem used_rcv1 : used rcv1 := .inr (.inr (.inr (.inl rfl)))
theorem used_rcv2 : used rcv2 := .inr (.inr (.inr (.inr (.inl rfl))))
theorem used_rcv3 : used rcv3 := .inr (.inr (.inr (.inr (.inr rfl))))

theorem duties_bar : (ringRd (F := F) m ρ).duties (barCell c) 0 = Finset.univ := by dsimp only [ringRd]; rw [if_pos ⟨rfl, rfl⟩]
theorem duties_used (q : DmaSem sig) (hq : used q) : (ringRd (F := F) m ρ).duties (dCell c q) 0 = {false} := by
  dsimp only [ringRd]; rw [if_pos ⟨rfl, rfl⟩, if_pos hq]
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := rfl
theorem amount_dma (q : DmaSem sig) (d : Bool) : (ringRd (F := F) m ρ).amount (dCell c q) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_used (q : DmaSem sig) (hq : used q) : (ringRd (F := F) m ρ).expect (dCell c q) 0 = N := by
  unfold Schedule.expect Schedule.amountOf; rw [duties_used m ρ c q hq, Finset.sum_singleton, amount_dma]

theorem payload_bar_true : (ringRd (F := F) m ρ).payload (barCell c) 0 true = barPay c := rfl
theorem payload_bar_false : (ringRd (F := F) m ρ).payload (barCell c) 0 false = iprop(emp) := rfl
theorem payload_dma (q : DmaSem sig) (d : Bool) : (ringRd (F := F) m ρ).payload (dCell c q) 0 d = xferPay m ρ c q := rfl
theorem xferPay_snd0 : xferPay (F := F) m ρ c snd0 = slot0 c (cm m ρ c) := by
  unfold xferPay; rw [if_pos rfl]
theorem xferPay_snd1 : xferPay (F := F) m ρ c snd1 = slot1 c (cm m ρ (prv c)) := by
  unfold xferPay; rw [if_neg (by decide), if_pos rfl]
theorem xferPay_snd2 : xferPay (F := F) m ρ c snd2 = slot2 c (cm m ρ (prv (prv c))) := by
  unfold xferPay; rw [if_neg (by decide), if_neg (by decide), if_pos rfl]
theorem xferPay_rcv1 : xferPay (F := F) m ρ c rcv1 = slot1 c (cm m ρ (prv c)) := by
  unfold xferPay; rw [if_neg (by decide), if_neg (by decide), if_neg (by decide), if_pos rfl]
theorem xferPay_rcv2 : xferPay (F := F) m ρ c rcv2 = slot2 c (cm m ρ (prv (prv c))) := by
  unfold xferPay; rw [if_neg (by decide), if_neg (by decide), if_neg (by decide), if_neg (by decide), if_pos rfl]
theorem xferPay_rcv3 : xferPay (F := F) m ρ c rcv3 = slot3 c (cm m ρ (prv (prv (prv c)))) := by
  unfold xferPay; rw [if_neg (by decide), if_neg (by decide), if_neg (by decide), if_neg (by decide), if_neg (by decide), if_pos rfl]

/-- The rest of the barrier cell's round, no duty taken: nothing and the right neighbour's payload. -/
theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
/-- The rest of a used transfer cell's round: its one payload. -/
theorem rest_used (q : DmaSem sig) (hq : used q) :
    bigSep ((ringRd (F := F) m ρ).duties (dCell c q) 0 \ ∅) (fun d => (ringRd (F := F) m ρ).payload (dCell c q) 0 d) = xferPay m ρ c q := by
  rw [Finset.sdiff_empty, duties_used m ρ c q hq, bigSep_singleton, payload_dma]

end Sched

/-! ## What each core owes at launch; the levels -/

/-- Device `c` owes its right neighbour's receive cells 3, 2, 1 a slot's credit each (its three transfers), then that
    neighbour's barrier cell a unit (its second signal), then its left neighbour's barrier cell a unit (its first). The
    sums are written so that each payment peels the last summand. -/
def O₃ (c : Dev nD) : CellTallies nD τ sig Unit := tallyAt (dCell (nxt c) rcv3) () N
def O₂ (c : Dev nD) : CellTallies nD τ sig Unit := O₃ c + tallyAt (dCell (nxt c) rcv2) () N
def O₁ (c : Dev nD) : CellTallies nD τ sig Unit := O₂ c + tallyAt (dCell (nxt c) rcv1) () N
def Ob (c : Dev nD) : CellTallies nD τ sig Unit := O₁ c + tallyAt (barCell (nxt c)) () 1
def O₀ (c : Dev nD) : CellTallies nD τ sig Unit := Ob c + tallyAt (barCell (prv c)) () 1

def L (g : GSem nD τ sig) : Finset Unit := if g.1.2 = .tc then {()} else ∅
/-- Barrier cells at 1, receive cells 1, 2, 3 at 2, 3, 4, everything else (staging, send) at 0: a device waits on its
    barrier owing receive credits only, and on receive cell k owing only receive cells above k. -/
def lv (g : GSem nD τ sig) (_ : Unit) : ℕ := match g.2 with
  | .reg _ => 1
  | .dma q => if q = rcv1 then 2 else if q = rcv2 then 3 else if q = rcv3 then 4 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) : () ∈ L ((c : Thread nD τ), sm) := by rw [L_tc]; exact Finset.mem_singleton_self _

theorem tally_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem O₃_pos {c : Dev nD} {g : GSem nD τ sig} {u : Unit} (h : 0 < O₃ c g u) : g = dCell (nxt c) rcv3 := tally_pos h
theorem O₂_pos {c : Dev nD} {g : GSem nD τ sig} {u : Unit} (h : 0 < O₂ c g u) : g = dCell (nxt c) rcv3 ∨ g = dCell (nxt c) rcv2 :=
  (Pipeline.add_pos_cases h).imp O₃_pos tally_pos
theorem O₁_pos {c : Dev nD} {g : GSem nD τ sig} {u : Unit} (h : 0 < O₁ c g u) :
    g = dCell (nxt c) rcv3 ∨ g = dCell (nxt c) rcv2 ∨ g = dCell (nxt c) rcv1 := by
  rcases Pipeline.add_pos_cases h with h | h
  · exact (O₂_pos h).imp id Or.inl
  · exact .inr (.inr (tally_pos h))
theorem O₀_pos {c : Dev nD} {g : GSem nD τ sig} {u : Unit} (h : 0 < O₀ c g u) :
    g = dCell (nxt c) rcv3 ∨ g = dCell (nxt c) rcv2 ∨ g = dCell (nxt c) rcv1 ∨ g = barCell (nxt c) ∨ g = barCell (prv c) := by
  rcases Pipeline.add_pos_cases h with h | h
  · rcases Pipeline.add_pos_cases h with h | h
    · rcases O₁_pos h with h | h | h
      · exact .inl h
      · exact .inr (.inl h)
      · exact .inr (.inr (.inl h))
    · exact .inr (.inr (.inr (.inl (tally_pos h))))
  · exact .inr (.inr (.inr (.inr (tally_pos h))))

/-- A staging cell or a send cell (level 0) may be waited on whatever of `O₀` is still owed. -/
theorem mayWait_low (c : Dev nD) (q : DmaSem sig) (hq : q ≠ rcv1 ∧ q ≠ rcv2 ∧ q ≠ rcv3) (O : CellTallies nD τ sig Unit)
    (hO : ∀ g u, 0 < O g u → 0 < O₀ c g u) :
    (levAts L lv : sProp 𝕄) ⊢ MayWait (c : Thread nD τ) (.dma q) () O :=
  Pipeline.mayWait_of_levAts (mem_L_tc c _) fun g u hg => by
    have h0 : lv ((c : Thread nD τ), .dma q) () = 0 := by dsimp only [lv]; rw [if_neg hq.1, if_neg hq.2.1, if_neg hq.2.2]
    rw [h0]
    rcases O₀_pos (hO g u hg) with rfl | rfl | rfl | rfl | rfl <;> exact ⟨mem_L_tc _ _, by simp [lv] <;> decide⟩

theorem mayWait_stage (c : Dev nD) (q : DmaSem sig) (hq : q ≠ rcv1 ∧ q ≠ rcv2 ∧ q ≠ rcv3) (O : CellTallies nD τ sig Unit) (hO : O = O₀ c ∨ O = 0) :
    (levAts L lv : sProp 𝕄) ⊢ MayWait (c : Thread nD τ) (.dma q) () O := by
  rcases hO with rfl | rfl
  · exact mayWait_low c q hq _ fun _ _ h => h
  · rw [MayWait_zero]; iintro -; iempintro

theorem O₁_le_O₀ {c : Dev nD} {g : GSem nD τ sig} {u : Unit} (h : 0 < O₁ c g u) : 0 < O₀ c g u := by
  unfold O₀ Ob; rw [Pi.add_apply, Finsupp.add_apply, Pi.add_apply, Finsupp.add_apply]; omega
theorem O₂_le_O₁ {c : Dev nD} {g : GSem nD τ sig} {u : Unit} (h : 0 < O₂ c g u) : 0 < O₁ c g u := by
  unfold O₁; rw [Pi.add_apply, Finsupp.add_apply]; omega
theorem O₃_le_O₂ {c : Dev nD} {g : GSem nD τ sig} {u : Unit} (h : 0 < O₃ c g u) : 0 < O₂ c g u := by
  unfold O₂; rw [Pi.add_apply, Finsupp.add_apply]; omega

/-- At its barrier wait a device owes its right neighbour's three receive credits: all above a barrier cell. -/
theorem mayWait_bar (c : Dev nD) : (levAts L lv : sProp 𝕄) ⊢ MayWait (c : Thread nD τ) (.reg barS) () (O₁ c) :=
  Pipeline.mayWait_of_levAts (mem_L_tc c _) fun g u hg => by
    rcases O₁_pos hg with rfl | rfl | rfl <;> exact ⟨mem_L_tc _ _, by simp [lv] <;> decide⟩
/-- Waiting for the first landing it owes receive credits 3 and 2, -/
theorem mayWait_rcv1 (c : Dev nD) : (levAts L lv : sProp 𝕄) ⊢ MayWait (c : Thread nD τ) (.dma rcv1) () (O₂ c) :=
  Pipeline.mayWait_of_levAts (mem_L_tc c _) fun g u hg => by
    rcases O₂_pos hg with rfl | rfl <;> exact ⟨mem_L_tc _ _, by simp [lv] <;> decide⟩
/-- for the second receive credit 3. -/
theorem mayWait_rcv2 (c : Dev nD) : (levAts L lv : sProp 𝕄) ⊢ MayWait (c : Thread nD τ) (.dma rcv2) () (O₃ c) :=
  Pipeline.mayWait_of_levAts (mem_L_tc c _) fun g u hg => by
    rw [O₃_pos hg]; exact ⟨mem_L_tc _ _, by simp [lv] <;> decide⟩
theorem mayWait_snd0 (c : Dev nD) : (levAts L lv : sProp 𝕄) ⊢ MayWait (c : Thread nD τ) (.dma snd0) () (O₂ c) :=
  mayWait_low c snd0 (by decide) _ fun _ _ h => O₁_le_O₀ (O₂_le_O₁ h)
theorem mayWait_snd1 (c : Dev nD) : (levAts L lv : sProp 𝕄) ⊢ MayWait (c : Thread nD τ) (.dma snd1) () (O₃ c) :=
  mayWait_low c snd1 (by decide) _ fun _ _ h => O₁_le_O₀ (O₂_le_O₁ (O₃_le_O₂ h))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its block plus the blocks of the three devices to its left, added in that order. -/
def outAt (c : Dev nD) : (cc0_stg1_0 : Ref sig .tc).ty.Contents (Elt F) := acc3 m ρ c

/-- The cells' invariants device `c`'s body opens, under the names `K` the launch allocated them at: its own seven, both
    neighbours' barrier cells (its signals), its right neighbour's three receive cells (its transfers). -/
def invs (K : Dev nD × Fin 7 → ℕ) (c : Dev nD) : sProp 𝕄 :=
  iprop(cellInv ER (ringRd m ρ) (K (c, 0)) (barCell c)
    ∗ cellInv ER (ringRd m ρ) (K (c, 1)) (dCell c snd0) ∗ cellInv ER (ringRd m ρ) (K (c, 2)) (dCell c snd1) ∗ cellInv ER (ringRd m ρ) (K (c, 3)) (dCell c snd2)
    ∗ cellInv ER (ringRd m ρ) (K (c, 4)) (dCell c rcv1) ∗ cellInv ER (ringRd m ρ) (K (c, 5)) (dCell c rcv2) ∗ cellInv ER (ringRd m ρ) (K (c, 6)) (dCell c rcv3)
    ∗ cellInv ER (ringRd m ρ) (K (nxt c, 0)) (barCell (nxt c)) ∗ cellInv ER (ringRd m ρ) (K (prv c, 0)) (barCell (prv c))
    ∗ cellInv ER (ringRd m ρ) (K (nxt c, 4)) (dCell (nxt c) rcv1) ∗ cellInv ER (ringRd m ρ) (K (nxt c, 5)) (dCell (nxt c) rcv2)
    ∗ cellInv ER (ringRd m ρ) (K (nxt c, 6)) (dCell (nxt c) rcv3))

instance invs_persistent (K : Dev nD × Fin 7 → ℕ) (c : Dev nD) : BI.Persistent (invs m ρ K c) := by unfold invs; infer_instance

/-- Device `c`'s positions at round 0 of its seven cells. -/
def poss (c : Dev nD) : sProp 𝕄 :=
  iprop(atPos ER (barCell c) 0 ∅ 0
    ∗ atPos ER (dCell c snd0) 0 ∅ 0 ∗ atPos ER (dCell c snd1) 0 ∅ 0 ∗ atPos ER (dCell c snd2) 0 ∅ 0
    ∗ atPos ER (dCell c rcv1) 0 ∅ 0 ∗ atPos ER (dCell c rcv2) 0 ∅ 0 ∗ atPos ER (dCell c rcv3) 0 ∅ 0)
/-- The reached-marks of the cells it pays: both neighbours' barrier cells, the right neighbour's receive cells, its own
    send cells. -/
def marks (c : Dev nD) : sProp 𝕄 :=
  iprop(reached ER (barCell (nxt c)) 0 ∗ reached ER (barCell (prv c)) 0
    ∗ reached ER (dCell (nxt c) rcv1) 0 ∗ reached ER (dCell (nxt c) rcv2) 0 ∗ reached ER (dCell (nxt c) rcv3) 0
    ∗ reached ER (dCell c snd0) 0 ∗ reached ER (dCell c snd1) 0 ∗ reached ER (dCell c snd2) 0)
instance marks_persistent (c : Dev nD) : BI.Persistent (marks (F := F) c) := by unfold marks; infer_instance
/-- The eight duty tokens it pays with. -/
def payToks (c : Dev nD) : sProp 𝕄 :=
  iprop(dutyTok ER (barCell (nxt c)) 0 false ∗ dutyTok ER (barCell (prv c)) 0 true
    ∗ dutyTok ER (dCell (nxt c) rcv1) 0 false ∗ dutyTok ER (dCell (nxt c) rcv2) 0 false ∗ dutyTok ER (dCell (nxt c) rcv3) 0 false
    ∗ dutyTok ER (dCell c snd0) 0 false ∗ dutyTok ER (dCell c snd1) 0 false ∗ dutyTok ER (dCell c snd2) 0 false)

/-- The ring's ghost state device `c` starts from. -/
def ghost (K : Dev nD × Fin 7 → ℕ) (c : Dev nD) : sProp 𝕄 :=
  iprop(invs m ρ K c ∗ poss c ∗ marks c ∗ payToks c)

/-- Its credit tokens at launch: its barrier's two units, its three receive cells' credits. -/
def creds0 (c : Dev nD) : sProp 𝕄 :=
  iprop(cred (tallyAt (barCell c) () 2) ∗ cred (tallyAt (dCell c rcv1) () N) ∗ cred (tallyAt (dCell c rcv2) () N) ∗ cred (tallyAt (dCell c rcv3) () N))

/-- What device `c`'s body starts from: the ghost state at some names, the credit tokens and the level facts. -/
def start (c : Dev nD) : sProp 𝕄 :=
  iprop((∃ K, ghost m ρ K c) ∗ creds0 c ∗ levAts L lv)

/-- The communication buffer whole, at whatever contents. -/
def commAny (c : Dev nD) : sProp 𝕄 := iprop(∃ f : Buf (Elt F) (cLoc c), (cLoc c ↦{fullShare} f))
/-- The six own cells at zero, closed. -/
def ownZero (c : Dev nD) : sProp 𝕄 :=
  iprop(semVal (dCell c snd0) 0 ∗ semVal (dCell c snd1) 0 ∗ semVal (dCell c snd2) 0
    ∗ semVal (dCell c rcv1) 0 ∗ semVal (dCell c rcv2) 0 ∗ semVal (dCell c rcv3) 0)

def Φ₀ (c : Dev nD) : sProp 𝕄 := iprop(start m ρ c ∗ commAny c)
/-- After the point: the communication buffer whole again, the six own cells at zero, closed (the barrier cell is the
    runtime's: nothing to hand back). -/
def Φ₁ (c : Dev nD) : sProp 𝕄 := iprop(commAny c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` held whole, reading `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.KernelIdeal.RingProof

end
-- ==== Proof.Slots.lean ====
/-
  The geometry of the communication buffer's four slots: slot k is the rectangle of rows [k, k + 1) of the first
  axis, so the four are pairwise disjoint and together are the whole buffer; a transfer names a slot with its unit axis
  dropped, which covers the same elements; what a transfer between two slots lands reads, through the landing slot, as
  the source slot reads.
-/
import proofs.«900729_g7700000000000730_dist_ar_v7x_xyz2x4x4_y_m512_n512_bf16_1_alg».proof.Proof.Proto

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots' element sets -/

theorem sv0_set : (sv0).set = rk0.set := View.set_slice_whole _ _
theorem dM0_set : (dM0 : Memref sig .tc .vmem S512x512 .bf16).view.set = (sv0).set :=
  View.set_reshape (v := sv0) (s' := S512x512) squeezes_S1x512x512_S512x512.numel_eq
theorem sv1_set : (sv1).set = rk1.set := View.set_slice_whole _ _
theorem dM1_set : (dM1 : Memref sig .tc .vmem S512x512 .bf16).view.set = (sv1).set :=
  View.set_reshape (v := sv1) (s' := S512x512) squeezes_S1x512x512_S512x512.numel_eq
theorem sv2_set : (sv2).set = rk2.set := View.set_slice_whole _ _
theorem dM2_set : (dM2 : Memref sig .tc .vmem S512x512 .bf16).view.set = (sv2).set :=
  View.set_reshape (v := sv2) (s' := S512x512) squeezes_S1x512x512_S512x512.numel_eq
theorem sv3_set : (sv3).set = rk3.set := View.set_slice_whole _ _
theorem dM3_set : (dM3 : Memref sig .tc .vmem S512x512 .bf16).view.set = (sv3).set :=
  View.set_reshape (v := sv3) (s' := S512x512) squeezes_S1x512x512_S512x512.numel_eq

theorem disj01 : Disjoint (sv0).set (sv1).set := by
  rw [sv0_set, sv1_set]; exact Rect.unit_disjoint 0 (Or.inl (by decide))
theorem disj02 : Disjoint (sv0).set (sv2).set := by
  rw [sv0_set, sv2_set]; exact Rect.unit_disjoint 0 (Or.inl (by decide))
theorem disj03 : Disjoint (sv0).set (sv3).set := by
  rw [sv0_set, sv3_set]; exact Rect.unit_disjoint 0 (Or.inl (by decide))
theorem disj12 : Disjoint (sv1).set (sv2).set := by
  rw [sv1_set, sv2_set]; exact Rect.unit_disjoint 0 (Or.inl (by decide))
theorem disj13 : Disjoint (sv1).set (sv3).set := by
  rw [sv1_set, sv3_set]; exact Rect.unit_disjoint 0 (Or.inl (by decide))
theorem disj23 : Disjoint (sv2).set (sv3).set := by
  rw [sv2_set, sv3_set]; exact Rect.unit_disjoint 0 (Or.inl (by decide))

/-- Every element of the buffer lies in one of the four slots: its first coordinate is 0, 1, 2 or 3. -/
theorem cover (i : S4x512x512.Idx) : i ∈ (sv0).set ∨ i ∈ (sv1).set ∨ i ∈ (sv2).set ∨ i ∈ (sv3).set := by
  rw [sv0_set, sv1_set, sv2_set, sv3_set]
  simp only [Rect.mem_set_unit]
  have h0 : (i 0 : ℕ) < 4 := (i 0).isLt
  have h1 : (i 1 : ℕ) < 512 := (i 1).isLt
  have h2 : (i 2 : ℕ) < 512 := (i 2).isLt
  have key : ∀ k : ℕ, (i 0 : ℕ) = k → ∀ a : Fin 3, (![k, 0, 0] : Fin 3 → ℕ) a ≤ i a ∧ (i a : ℕ) < (![k, 0, 0] : Fin 3 → ℕ) a + S1x512x512.size a := by
    intro k hk a
    fin_cases a
    · exact ⟨by show k ≤ (i 0 : ℕ); omega, by show (i 0 : ℕ) < k + 1; omega⟩
    · exact ⟨Nat.zero_le _, by show (i 1 : ℕ) < 0 + 512; omega⟩
    · exact ⟨Nat.zero_le _, by show (i 2 : ℕ) < 0 + 512; omega⟩
  have : (i 0 : ℕ) = 0 ∨ (i 0 : ℕ) = 1 ∨ (i 0 : ℕ) = 2 ∨ (i 0 : ℕ) = 3 := by omega
  rcases this with h | h | h | h
  · exact .inl (key 0 h)
  · exact .inr (.inl (key 1 h))
  · exact .inr (.inr (.inl (key 2 h)))
  · exact .inr (.inr (.inr (key 3 h)))

/-! ## The buffer cut into its slots, and put together again -/

abbrev slotSet : Fin 4 → Finset S4x512x512.Idx := fun | 0 => (sv0).set | 1 => (sv1).set | 2 => (sv2).set | 3 => (sv3).set

theorem slotSet_disj : ∀ t ∈ (Finset.univ : Finset (Fin 4)), ∀ t' ∈ (Finset.univ : Finset (Fin 4)), t ≠ t' → Disjoint (slotSet t) (slotSet t') := by
  intro t _ t' _ h
  fin_cases t <;> fin_cases t' <;> first
    | exact absurd rfl h
    | exact disj01 | exact disj02 | exact disj03 | exact disj12 | exact disj13 | exact disj23
    | exact disj01.symm | exact disj02.symm | exact disj03.symm | exact disj12.symm | exact disj13.symm | exact disj23.symm

theorem slotSet_cover : (Finset.univ : Finset (Fin 4)).biUnion slotSet = Finset.univ := by
  ext i
  simp only [Finset.mem_biUnion, Finset.mem_univ, true_and, iff_true]
  rcases cover i with h | h | h | h
  · exact ⟨0, h⟩
  · exact ⟨1, h⟩
  · exact ⟨2, h⟩
  · exact ⟨3, h⟩

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The whole buffer is its four slots, at the same contents. -/
theorem comm_split (c : Dev nD) (f : Buf (Elt F) (cLoc c)) :
    (cLoc c ↦{fullShare} f : sProp 𝕄)
      = iprop((cLoc c ↦[(sv0).set]{fullShare} f) ∗ (cLoc c ↦[(sv1).set]{fullShare} f) ∗ (cLoc c ↦[(sv2).set]{fullShare} f) ∗ (cLoc c ↦[(sv3).set]{fullShare} f)) := by
  have h := pointsTo_biUnion (Ix := Unit) (Val := Elt F) (Name := ℕ) (U := UU) (Lvl := ℕ) (ℓ := cLoc c) (q := fullShare) (f := f)
    (Finset.univ : Finset (Fin 4)) slotSet slotSet_disj
  rw [slotSet_cover, bigSep_fin4] at h
  exact h

omit [FloatOps F] in
/-- Four slots held at four contents are the whole buffer at some contents. -/
theorem comm_join (c : Dev nD) (f0 f1 f2 f3 : Buf (Elt F) (cLoc c)) :
    iprop((cLoc c ↦[(sv0).set]{fullShare} f0) ∗ (cLoc c ↦[(sv1).set]{fullShare} f1) ∗ (cLoc c ↦[(sv2).set]{fullShare} f2) ∗ (cLoc c ↦[(sv3).set]{fullShare} f3))
      ⊢ (commAny c : sProp 𝕄) := by
  have h := pointsTo_biUnion_join (Ix := Unit) (Val := Elt F) (Name := ℕ) (U := UU) (Lvl := ℕ) (ℓ := cLoc c) (q := fullShare)
    (Finset.univ : Finset (Fin 4)) slotSet (fun | 0 => f0 | 1 => f1 | 2 => f2 | 3 => f3) f0 slotSet_disj
  rw [slotSet_cover, bigSep_fin4] at h
  refine h.trans ?_
  unfold commAny
  iintro ⟨%g, -, H⟩
  iexists g
  iexact H

/-! ## Reading and writing through a slot -/

omit [FloatOps F] in
/-- A view with its axes regrouped reads the regrouped index. -/
theorem read_reshape {s s' : Shape} {e : EltTy} (v : View sig .tc .vmem s e) (h : s'.numel = s.numel) (f : v.ty.Contents (Elt F)) (y : s'.Idx) :
    (v.reshape s' h).read (Elt F) f y = v.read (Elt F) f (Shape.reshapeEquiv h y) := by
  rw [View.read_apply, View.read_apply]; simp

omit [FloatOps F] in
/-- What a transfer from one slot to another lands reads, through the landing slot, as the source slot reads:
    both ends drop the unit axis the same way. -/
theorem landed_read {s s' : Shape} {e : EltTy} (v v' : View sig .tc .vmem s e) (h : s'.numel = s.numel)
    (fs : v.ty.Contents (Elt F)) (fd : v'.ty.Contents (Elt F)) :
    v'.read (Elt F) ((v'.reshape s' h).write (Elt F) fd ((v.reshape s' h).read (Elt F) fs) Finset.univ) = v.read (Elt F) fs := by
  rw [View.write_reshape_univ, View.read_write_univ]
  funext x
  rw [read_reshape, Equiv.apply_symm_apply]

end Cert.KernelIdeal.RingProof

end
-- ==== Proof.Steps.lean ====
/-
  The protocol's steps, each as one rule over the slots' assertions: the transfer of slot h into the right neighbour's
  slot h + 1 (the source slot and the landing slot handed to the two cells' invariants, a slot's credit taken off what
  the device owes and the send cell's credit received); the wait on a used transfer cell (the cell's payload comes with
  it: the source slot back unchanged, or the landing slot holding the block of the device that many places to the left);
  the loads and stores of the staging buffers and of the slots.
-/
import proofs.«900729_g7700000000000730_dist_ar_v7x_xyz2x4x4_y_m512_n512_bf16_1_alg».proof.Proof.Slots

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-! ## The semaphores the body names, and the slots' credit -/

theorem sndSem0 : ((cc0_scratch1.slice (Rect.unit (s := S4) ![0] S1.size inb_S4_S1_0)).squeeze S_ squeezes_S1_S_).sem = snd0 := rfl
theorem sndSem1 : ((cc0_scratch1.slice (Rect.unit (s := S4) ![1] S1.size inb_S4_S1_1)).squeeze S_ squeezes_S1_S_).sem = snd1 := rfl
theorem sndSem2 : ((cc0_scratch1.slice (Rect.unit (s := S4) ![2] S1.size inb_S4_S1_2)).squeeze S_ squeezes_S1_S_).sem = snd2 := rfl
theorem rcvSem1 : ((cc0_scratch2.slice (Rect.unit (s := S4) ![1] S1.size inb_S4_S1_1)).squeeze S_ squeezes_S1_S_).sem = rcv1 := rfl
theorem rcvSem2 : ((cc0_scratch2.slice (Rect.unit (s := S4) ![2] S1.size inb_S4_S1_2)).squeeze S_ squeezes_S1_S_).sem = rcv2 := rfl
theorem rcvSem3 : ((cc0_scratch2.slice (Rect.unit (s := S4) ![3] S1.size inb_S4_S1_3)).squeeze S_ squeezes_S1_S_).sem = rcv3 := rfl
theorem credit0 : (dM0 : Memref sig .tc .vmem S512x512 .bf16).view.dmaCredit = N := rfl
theorem credit1 : (dM1 : Memref sig .tc .vmem S512x512 .bf16).view.dmaCredit = N := rfl
theorem credit2 : (dM2 : Memref sig .tc .vmem S512x512 .bf16).view.dmaCredit = N := rfl
theorem credit3 : (dM3 : Memref sig .tc .vmem S512x512 .bf16).view.dmaCredit = N := rfl

/-! ## The transfers -/

/-- The source slot of step 0, as a transfer reads it, is the send cell's payload. -/
theorem src_pay0 (c : Dev nD) (fs : Buf (Elt F) (cLoc c)) (hfs : (sv0).read (Elt F) fs = cm m ρ c) :
    ((dM0 : Memref sig .tc .vmem S512x512 .bf16).view.loc (c : Thread nD τ) ↦[(dM0 : Memref sig .tc .vmem S512x512 .bf16).view.set]{fullShare} fs : sProp 𝕄)
      ⊢ (ringRd m ρ).payload (dCell c snd0) 0 false := by
  rw [payload_dma, xferPay_snd0, dM0_set]; unfold slot0
  iintro H; iexists fs
  isplitr; · ipureintro; exact hfs
  iexact H

/-- What step 0's transfer lands in the right neighbour's slot 1 is that neighbour's receive cell's payload. -/
theorem dst_pay0 (c : Dev nD) (fs : Buf (Elt F) (cLoc c)) (fd : Buf (Elt F) (cLoc (nxt c))) (hfs : (sv0).read (Elt F) fs = cm m ρ c) :
    ((dM1 : Memref sig .tc .vmem S512x512 .bf16).view.loc (nxt c : Thread nD τ) ↦[(dM1 : Memref sig .tc .vmem S512x512 .bf16).view.set]{fullShare}
        ((dM1 : Memref sig .tc .vmem S512x512 .bf16).view.write (Elt F) fd ((dM0 : Memref sig .tc .vmem S512x512 .bf16).view.read (Elt F) fs) Finset.univ) : sProp 𝕄)
      ⊢ (ringRd m ρ).payload (dCell (nxt c) rcv1) 0 false := by
  rw [payload_dma, xferPay_rcv1, prv_nxt, dM1_set]; unfold slot1
  iintro H; iexists _
  isplitr; · ipureintro; exact (landed_read sv0 sv1 squeezes_S1x512x512_S512x512.numel_eq fs fd).trans hfs
  iexact H

/-- The transfer of step 0: slot 0 of `c`, holding the block of the device 0 places to its left, into slot 1 of its right neighbour. -/
theorem wp_xfer0 (c n : Dev nD) (hn : n = nxt c)
    {hsc : (dM1 : Memref sig (Dev.tc n : Thread nD τ).2.kind .vmem S512x512 .bf16).view.ref.isScScratch = false}
    {hsrc : (dM0 : Memref sig .tc .vmem S512x512 .bf16).view.WordExact} {hdst : (dM1 : Memref sig .tc .vmem S512x512 .bf16).view.WordExact}
    {hsem : DmaTarget.Typed .vmem (.dma rcv1) (.remote (Dev.tc n : Thread nD τ) (dM1 : Memref sig .tc .vmem S512x512 .bf16) (.dma snd0) hsc)}
    {α : Type} {Q : α → sProp 𝕄} {k : PUnit → Prog (TpuEff nD τ sig (Elt F) Λ₀ .tc) α}
    (O : CellTallies nD τ sig Unit) (W : Waits sig Unit) :
    iprop(cellInv ER (ringRd m ρ) (K (c, 1)) (dCell c snd0) ∗ cellInv ER (ringRd m ρ) (K (nxt c, 4)) (dCell (nxt c) rcv1)
        ∗ slot0 c (cm m ρ c) ∗ any1 (nxt c)
        ∗ owes (c : Thread nD τ) (O + tallyAt (dCell (nxt c) rcv1) () N) W
        ∗ dutyTok ER (dCell c snd0) 0 false ∗ reached ER (dCell c snd0) 0
        ∗ dutyTok ER (dCell (nxt c) rcv1) 0 false ∗ reached ER (dCell (nxt c) rcv1) 0)
      ⊢ iprop(((cred (tallyAt (dCell c snd0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dM0 (.remote (Dev.tc n : Thread nD τ) dM1 (.dma snd0) hsc) (.dma rcv1) hsrc hdst hsem) k) Q) := by
  subst hn
  unfold slot0 any1
  iintro ⟨#HI1, #HI2, ⟨%fs, %hfs, Hs⟩, ⟨%fd, Hd⟩, HO, Ht1, #Hr1, Ht2, #Hr2⟩
  have key := Rounds.wp_send_pointsTo (Ix := Unit) (Name := ℕ) (U := UU) (Lvl := ℕ) (defs := defs₀ (F := F)) 𝒱₀ ER (ringRd m ρ) (c : Thread nD τ) none
      (Γ := PendingWaitsCtx.empty)
      (c' := (nxt c : Thread nD τ)) (src := dM0) (dst := dM1) (hsc := hsc) (sS := .dma snd0) (sem := .dma rcv1) (hsrc := hsrc) (hdst := hdst) (hsem := hsem)
      (k := k) (q := fullShare) (Q := Q) (Es := Set.univ)
      (κ₁ := K (c, 1)) (κ₂ := K (nxt c, 4))
      (r₁ := 0) (r₂ := 0) (d₁ := false) (d₂ := false) (fs := fs) (fd := fd)
      (by rw [duties_used m ρ c snd0 used_snd0]; exact Finset.mem_singleton_self _)
      (by rw [duties_used m ρ (nxt c) rcv1 used_rcv1]; exact Finset.mem_singleton_self _)
      () () N credit1 (amount_dma m ρ c snd0 false) (amount_dma m ρ (nxt c) rcv1 false) O rfl (W := W)
      (src_pay0 m ρ c fs hfs) (dst_pay0 m ρ c fs fd hfs)
  rw [dM0_set, dM1_set] at key
  iapply key
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- The source slot of step 1, as a transfer reads it, is the send cell's payload. -/
theorem src_pay1 (c : Dev nD) (fs : Buf (Elt F) (cLoc c)) (hfs : (sv1).read (Elt F) fs = cm m ρ (prv c)) :
    ((dM1 : Memref sig .tc .vmem S512x512 .bf16).view.loc (c : Thread nD τ) ↦[(dM1 : Memref sig .tc .vmem S512x512 .bf16).view.set]{fullShare} fs : sProp 𝕄)
      ⊢ (ringRd m ρ).payload (dCell c snd1) 0 false := by
  rw [payload_dma, xferPay_snd1, dM1_set]; unfold slot1
  iintro H; iexists fs
  isplitr; · ipureintro; exact hfs
  iexact H

/-- What step 1's transfer lands in the right neighbour's slot 2 is that neighbour's receive cell's payload. -/
theorem dst_pay1 (c : Dev nD) (fs : Buf (Elt F) (cLoc c)) (fd : Buf (Elt F) (cLoc (nxt c))) (hfs : (sv1).read (Elt F) fs = cm m ρ (prv c)) :
    ((dM2 : Memref sig .tc .vmem S512x512 .bf16).view.loc (nxt c : Thread nD τ) ↦[(dM2 : Memref sig .tc .vmem S512x512 .bf16).view.set]{fullShare}
        ((dM2 : Memref sig .tc .vmem S512x512 .bf16).view.write (Elt F) fd ((dM1 : Memref sig .tc .vmem S512x512 .bf16).view.read (Elt F) fs) Finset.univ) : sProp 𝕄)
      ⊢ (ringRd m ρ).payload (dCell (nxt c) rcv2) 0 false := by
  rw [payload_dma, xferPay_rcv2, prv_nxt, dM2_set]; unfold slot2
  iintro H; iexists _
  isplitr; · ipureintro; exact (landed_read sv1 sv2 squeezes_S1x512x512_S512x512.numel_eq fs fd).trans hfs
  iexact H

/-- The transfer of step 1: slot 1 of `c`, holding the block of the device 1 places to its left, into slot 2 of its right neighbour. -/
theorem wp_xfer1 (c n : Dev nD) (hn : n = nxt c)
    {hsc : (dM2 : Memref sig (Dev.tc n : Thread nD τ).2.kind .vmem S512x512 .bf16).view.ref.isScScratch = false}
    {hsrc : (dM1 : Memref sig .tc .vmem S512x512 .bf16).view.WordExact} {hdst : (dM2 : Memref sig .tc .vmem S512x512 .bf16).view.WordExact}
    {hsem : DmaTarget.Typed .vmem (.dma rcv2) (.remote (Dev.tc n : Thread nD τ) (dM2 : Memref sig .tc .vmem S512x512 .bf16) (.dma snd1) hsc)}
    {α : Type} {Q : α → sProp 𝕄} {k : PUnit → Prog (TpuEff nD τ sig (Elt F) Λ₀ .tc) α}
    (O : CellTallies nD τ sig Unit) (W : Waits sig Unit) :
    iprop(cellInv ER (ringRd m ρ) (K (c, 2)) (dCell c snd1) ∗ cellInv ER (ringRd m ρ) (K (nxt c, 5)) (dCell (nxt c) rcv2)
        ∗ slot1 c (cm m ρ (prv c)) ∗ any2 (nxt c)
        ∗ owes (c : Thread nD τ) (O + tallyAt (dCell (nxt c) rcv2) () N) W
        ∗ dutyTok ER (dCell c snd1) 0 false ∗ reached ER (dCell c snd1) 0
        ∗ dutyTok ER (dCell (nxt c) rcv2) 0 false ∗ reached ER (dCell (nxt c) rcv2) 0)
      ⊢ iprop(((cred (tallyAt (dCell c snd1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dM1 (.remote (Dev.tc n : Thread nD τ) dM2 (.dma snd1) hsc) (.dma rcv2) hsrc hdst hsem) k) Q) := by
  subst hn
  unfold slot1 any2
  iintro ⟨#HI1, #HI2, ⟨%fs, %hfs, Hs⟩, ⟨%fd, Hd⟩, HO, Ht1, #Hr1, Ht2, #Hr2⟩
  have key := Rounds.wp_send_pointsTo (Ix := Unit) (Name := ℕ) (U := UU) (Lvl := ℕ) (defs := defs₀ (F := F)) 𝒱₀ ER (ringRd m ρ) (c : Thread nD τ) none
      (Γ := PendingWaitsCtx.empty)
      (c' := (nxt c : Thread nD τ)) (src := dM1) (dst := dM2) (hsc := hsc) (sS := .dma snd1) (sem := .dma rcv2) (hsrc := hsrc) (hdst := hdst) (hsem := hsem)
      (k := k) (q := fullShare) (Q := Q) (Es := Set.univ)
      (κ₁ := K (c, 2)) (κ₂ := K (nxt c, 5))
      (r₁ := 0) (r₂ := 0) (d₁ := false) (d₂ := false) (fs := fs) (fd := fd)
      (by rw [duties_used m ρ c snd1 used_snd1]; exact Finset.mem_singleton_self _)
      (by rw [duties_used m ρ (nxt c) rcv2 used_rcv2]; exact Finset.mem_singleton_self _)
      () () N credit2 (amount_dma m ρ c snd1 false) (amount_dma m ρ (nxt c) rcv2 false) O rfl (W := W)
      (src_pay1 m ρ c fs hfs) (dst_pay1 m ρ c fs fd hfs)
  rw [dM1_set, dM2_set] at key
  iapply key
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- The source slot of step 2, as a transfer reads it, is the send cell's payload. -/
theorem src_pay2 (c : Dev nD) (fs : Buf (Elt F) (cLoc c)) (hfs : (sv2).read (Elt F) fs = cm m ρ (prv (prv c))) :
    ((dM2 : Memref sig .tc .vmem S512x512 .bf16).view.loc (c : Thread nD τ) ↦[(dM2 : Memref sig .tc .vmem S512x512 .bf16).view.set]{fullShare} fs : sProp 𝕄)
      ⊢ (ringRd m ρ).payload (dCell c snd2) 0 false := by
  rw [payload_dma, xferPay_snd2, dM2_set]; unfold slot2
  iintro H; iexists fs
  isplitr; · ipureintro; exact hfs
  iexact H

/-- What step 2's transfer lands in the right neighbour's slot 3 is that neighbour's receive cell's payload. -/
theorem dst_pay2 (c : Dev nD) (fs : Buf (Elt F) (cLoc c)) (fd : Buf (Elt F) (cLoc (nxt c))) (hfs : (sv2).read (Elt F) fs = cm m ρ (prv (prv c))) :
    ((dM3 : Memref sig .tc .vmem S512x512 .bf16).view.loc (nxt c : Thread nD τ) ↦[(dM3 : Memref sig .tc .vmem S512x512 .bf16).view.set]{fullShare}
        ((dM3 : Memref sig .tc .vmem S512x512 .bf16).view.write (Elt F) fd ((dM2 : Memref sig .tc .vmem S512x512 .bf16).view.read (Elt F) fs) Finset.univ) : sProp 𝕄)
      ⊢ (ringRd m ρ).payload (dCell (nxt c) rcv3) 0 false := by
  rw [payload_dma, xferPay_rcv3, prv_nxt, dM3_set]; unfold slot3
  iintro H; iexists _
  isplitr; · ipureintro; exact (landed_read sv2 sv3 squeezes_S1x512x512_S512x512.numel_eq fs fd).trans hfs
  iexact H

/-- The transfer of step 2: slot 2 of `c`, holding the block of the device 2 places to its left, into slot 3 of its right neighbour. -/
theorem wp_xfer2 (c n : Dev nD) (hn : n = nxt c)
    {hsc : (dM3 : Memref sig (Dev.tc n : Thread nD τ).2.kind .vmem S512x512 .bf16).view.ref.isScScratch = false}
    {hsrc : (dM2 : Memref sig .tc .vmem S512x512 .bf16).view.WordExact} {hdst : (dM3 : Memref sig .tc .vmem S512x512 .bf16).view.WordExact}
    {hsem : DmaTarget.Typed .vmem (.dma rcv3) (.remote (Dev.tc n : Thread nD τ) (dM3 : Memref sig .tc .vmem S512x512 .bf16) (.dma snd2) hsc)}
    {α : Type} {Q : α → sProp 𝕄} {k : PUnit → Prog (TpuEff nD τ sig (Elt F) Λ₀ .tc) α}
    (O : CellTallies nD τ sig Unit) (W : Waits sig Unit) :
    iprop(cellInv ER (ringRd m ρ) (K (c, 3)) (dCell c snd2) ∗ cellInv ER (ringRd m ρ) (K (nxt c, 6)) (dCell (nxt c) rcv3)
        ∗ slot2 c (cm m ρ (prv (prv c))) ∗ any3 (nxt c)
        ∗ owes (c : Thread nD τ) (O + tallyAt (dCell (nxt c) rcv3) () N) W
        ∗ dutyTok ER (dCell c snd2) 0 false ∗ reached ER (dCell c snd2) 0
        ∗ dutyTok ER (dCell (nxt c) rcv3) 0 false ∗ reached ER (dCell (nxt c) rcv3) 0)
      ⊢ iprop(((cred (tallyAt (dCell c snd2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dM2 (.remote (Dev.tc n : Thread nD τ) dM3 (.dma snd2) hsc) (.dma rcv3) hsrc hdst hsem) k) Q) := by
  subst hn
  unfold slot2 any3
  iintro ⟨#HI1, #HI2, ⟨%fs, %hfs, Hs⟩, ⟨%fd, Hd⟩, HO, Ht1, #Hr1, Ht2, #Hr2⟩
  have key := Rounds.wp_send_pointsTo (Ix := Unit) (Name := ℕ) (U := UU) (Lvl := ℕ) (defs := defs₀ (F := F)) 𝒱₀ ER (ringRd m ρ) (c : Thread nD τ) none
      (Γ := PendingWaitsCtx.empty)
      (c' := (nxt c : Thread nD τ)) (src := dM2) (dst := dM3) (hsc := hsc) (sS := .dma snd2) (sem := .dma rcv3) (hsrc := hsrc) (hdst := hdst) (hsem := hsem)
      (k := k) (q := fullShare) (Q := Q) (Es := Set.univ)
      (κ₁ := K (c, 3)) (κ₂ := K (nxt c, 6))
      (r₁ := 0) (r₂ := 0) (d₁ := false) (d₂ := false) (fs := fs) (fd := fd)
      (by rw [duties_used m ρ c snd2 used_snd2]; exact Finset.mem_singleton_self _)
      (by rw [duties_used m ρ (nxt c) rcv3 used_rcv3]; exact Finset.mem_singleton_self _)
      () () N credit3 (amount_dma m ρ c snd2 false) (amount_dma m ρ (nxt c) rcv3 false) O rfl (W := W)
      (src_pay2 m ρ c fs hfs) (dst_pay2 m ρ c fs fd hfs)
  rw [dM2_set, dM3_set] at key
  iapply key
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-! ## The waits -/

/-- The wait on a used transfer cell of `c`, from round 0, for the slot's credit: the cell's payload comes with it. -/
theorem wp_wait_xfer (c : Dev nD) (q : DmaSem sig) (hq : used q) (κ : ℕ)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α}
    (O : CellTallies nD τ sig Unit) (W : Waits sig Unit) {P : sProp 𝕄} (hP : xferPay m ρ c q = P) :
    iprop(cellInv ER (ringRd m ρ) κ (dCell c q) ∗ cred (tallyAt (dCell c q) () N) ∗ owes (c : Thread nD τ) O W
        ∗ MayWait (c : Thread nD τ) (.dma q) () O ∗ atPos ER (dCell c q) 0 ∅ 0)
      ⊢ iprop(((owes (c : Thread nD τ) O (insert (SemLoc.dma q, ()) W) ∗ atPos ER (dCell c q) 1 ∅ 0 ∗ P)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, HM, Hat⟩ Hk
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, expect_used m ρ c q hq]; exact hN)) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  ihave Hp := (Entails.of_eq ((rest_used m ρ c q hq).trans hP)) $$ Hpay
  iapply Hk
  isplitl [HO]; · iexact HO
  isplitl [Hat]; · iexact Hat
  iexact Hp

/-! ## The loads and the stores -/

abbrev r0 : Rect S512x512 := Rect.unit (s := S512x512) ![0, 0] S512x512.size inb_S512x512_S512x512_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x512 .f32).view.readAt (Elt F) r0.toLoadRect f = f :=
  Memref.readAt_unit_zero (Elt F) cc0_stg0_0 hz2 _ f
omit [FloatOps F] in
theorem read_o (f : (cc0_stg1_0 : Ref sig .tc).ty.Contents (Elt F)) : (oM : Memref sig .tc .vmem S512x512 .f32).view.readAt (Elt F) r0.toLoadRect f = f :=
  Memref.readAt_unit_zero (Elt F) cc0_stg1_0 hz2 _ f
omit [FloatOps F] in
theorem write_o (f w : (cc0_stg1_0 : Ref sig .tc).ty.Contents (Elt F)) :
    ((oM : Memref sig .tc .vmem S512x512 .f32).access r0 : View sig .tc _ _ _).write (Elt F) f w Finset.univ = w :=
  Memref.write_access_unit_zero_univ (Elt F) cc0_stg1_0 hz2 _ f w

/-- A load of the whole argument staging buffer reads its contents. -/
theorem wp_load_x (c : Dev nD) (X : (cc0_stg0_0 : Ref sig .tc).ty.Contents (Elt F)) {hl : (xM : Memref sig .tc .vmem S512x512 .f32).view.LoadsAt r0.toLoadRect}
    {α : Type} {Q : α → sProp 𝕄} {k : (S512x512.Idx → Elt F .f32) → Prog (TpuEff nD τ sig (Elt F) Λ₀ .tc) α} :
    (stg c cc0_stg0_0 X : sProp 𝕄)
      ⊢ iprop((stg c cc0_stg0_0 X -∗ wp frame (wpE (defs₀ (F := F)) 𝒱₀ (c : Thread nD τ) none) Set.univ (k X) Q)
          -∗ wp frame (wpE (defs₀ (F := F)) 𝒱₀ (c : Thread nD τ) none) Set.univ (.op (.load xM r0.toLoadRect hl) k) Q) := by
  iintro ⟨%f, %hf, H⟩ Hk
  subst hf
  iapply (wp_load 𝒱₀ (c : Thread nD τ) none Set.univ (m := xM) (Finset.subset_univ _)) $$ H
  iintro H
  rw [read_x]
  iapply Hk
  iexists f
  isplitr; · ipureintro; rfl
  iexact H

/-- A load of the whole result staging buffer reads its contents. -/
theorem wp_load_o (c : Dev nD) (X : (cc0_stg1_0 : Ref sig .tc).ty.Contents (Elt F)) {hl : (oM : Memref sig .tc .vmem S512x512 .f32).view.LoadsAt r0.toLoadRect}
    {α : Type} {Q : α → sProp 𝕄} {k : (S512x512.Idx → Elt F .f32) → Prog (TpuEff nD τ sig (Elt F) Λ₀ .tc) α} :
    (stg c cc0_stg1_0 X : sProp 𝕄)
      ⊢ iprop((stg c cc0_stg1_0 X -∗ wp frame (wpE (defs₀ (F := F)) 𝒱₀ (c : Thread nD τ) none) Set.univ (k X) Q)
          -∗ wp frame (wpE (defs₀ (F := F)) 𝒱₀ (c : Thread nD τ) none) Set.univ (.op (.load oM r0.toLoadRect hl) k) Q) := by
  iintro ⟨%f, %hf, H⟩ Hk
  subst hf
  iapply (wp_load 𝒱₀ (c : Thread nD τ) none Set.univ (m := oM) (Finset.subset_univ _)) $$ H
  iintro H
  rw [read_o]
  iapply Hk
  iexists f
  isplitr; · ipureintro; rfl
  iexact H

/-- An unmasked store of the whole result staging buffer leaves the payload. -/
theorem wp_store_o (c : Dev nD) (X w : (cc0_stg1_0 : Ref sig .tc).ty.Contents (Elt F))
    {hx : ((oM : Memref sig .tc .vmem S512x512 .f32).access r0).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} :
    (stg c cc0_stg1_0 X : sProp 𝕄)
      ⊢ iprop((stg c cc0_stg1_0 w -∗ wp frame (wpE (defs₀ (F := F)) 𝒱₀ (c : Thread nD τ) none) Set.univ (k ⟨⟩) Q)
          -∗ wp frame (wpE (defs₀ (F := F)) 𝒱₀ (c : Thread nD τ) none) Set.univ (.op (.store oM r0 w Finset.univ hx hm) k) Q) := by
  iintro ⟨%f, %hf, H⟩ Hk
  iapply (wp_store 𝒱₀ (c : Thread nD τ) none Set.univ (m := oM) (r := r0) (Mk := Finset.univ) (Finset.subset_univ _)) $$ H
  iintro H
  rw [write_o]
  iapply Hk
  iexists w
  isplitr; · ipureintro; rfl
  iexact H

omit [FloatOps F] in
theorem load_sub0 : (cM : Memref sig .tc .vmem S4x512x512 .bf16).view.setOn (rk0.toLoadRect).set ⊆ (sv0).set := by
  rw [View.set_slice]; exact subset_rfl

/-- A load of slot 0 reads its contents. -/
theorem wp_load_slot0 (c : Dev nD) (w : S1x512x512.Idx → Elt F .bf16) {hl : (cM : Memref sig .tc .vmem S4x512x512 .bf16).view.LoadsAt rk0.toLoadRect}
    {α : Type} {Q : α → sProp 𝕄} {k : (S1x512x512.Idx → Elt F .bf16) → Prog (TpuEff nD τ sig (Elt F) Λ₀ .tc) α} :
    (slot0 c w : sProp 𝕄)
      ⊢ iprop((slot0 c w -∗ wp frame (wpE (defs₀ (F := F)) 𝒱₀ (c : Thread nD τ) none) Set.univ (k w) Q)
          -∗ wp frame (wpE (defs₀ (F := F)) 𝒱₀ (c : Thread nD τ) none) Set.univ (.op (.load cM rk0.toLoadRect hl) k) Q) := by
  unfold slot0
  iintro ⟨%f, %hf, H⟩ Hk
  subst hf
  iapply (wp_load 𝒱₀ (c : Thread nD τ) none Set.univ (m := cM) load_sub0) $$ H
  iintro H
  iapply Hk
  iexists f
  isplitr; · ipureintro; rfl
  iexact H

omit [FloatOps F] in
theorem load_sub1 : (cM : Memref sig .tc .vmem S4x512x512 .bf16).view.setOn (rk1.toLoadRect).set ⊆ (sv1).set := by
  rw [View.set_slice]; exact subset_rfl

/-- A load of slot 1 reads its contents. -/
theorem wp_load_slot1 (c : Dev nD) (w : S1x512x512.Idx → Elt F .bf16) {hl : (cM : Memref sig .tc .vmem S4x512x512 .bf16).view.LoadsAt rk1.toLoadRect}
    {α : Type} {Q : α → sProp 𝕄} {k : (S1x512x512.Idx → Elt F .bf16) → Prog (TpuEff nD τ sig (Elt F) Λ₀ .tc) α} :
    (slot1 c w : sProp 𝕄)
      ⊢ iprop((slot1 c w -∗ wp frame (wpE (defs₀ (F := F)) 𝒱₀ (c : Thread nD τ) none) Set.univ (k w) Q)
          -∗ wp frame (wpE (defs₀ (F := F)) 𝒱₀ (c : Thread nD τ) none) Set.univ (.op (.load cM rk1.toLoadRect hl) k) Q) := by
  unfold slot1
  iintro ⟨%f, %hf, H⟩ Hk
  subst hf
  iapply (wp_load 𝒱₀ (c : Thread nD τ) none Set.univ (m := cM) load_sub1) $$ H
  iintro H
  iapply Hk
  iexists f
  isplitr; · ipureintro; rfl
  iexact H

omit [FloatOps F] in
theorem load_sub2 : (cM : Memref sig .tc .vmem S4x512x512 .bf16).view.setOn (rk2.toLoadRect).set ⊆ (sv2).set := by
  rw [View.set_slice]; exact subset_rfl

/-- A load of slot 2 reads its contents. -/
theorem wp_load_slot2 (c : Dev nD) (w : S1x512x512.Idx → Elt F .bf16) {hl : (cM : Memref sig .tc .vmem S4x512x512 .bf16).view.LoadsAt rk2.toLoadRect}
    {α : Type} {Q : α → sProp 𝕄} {k : (S1x512x512.Idx → Elt F .bf16) → Prog (TpuEff nD τ sig (Elt F) Λ₀ .tc) α} :
    (slot2 c w : sProp 𝕄)
      ⊢ iprop((slot2 c w -∗ wp frame (wpE (defs₀ (F := F)) 𝒱₀ (c : Thread nD τ) none) Set.univ (k w) Q)
          -∗ wp frame (wpE (defs₀ (F := F)) 𝒱₀ (c : Thread nD τ) none) Set.univ (.op (.load cM rk2.toLoadRect hl) k) Q) := by
  unfold slot2
  iintro ⟨%f, %hf, H⟩ Hk
  subst hf
  iapply (wp_load 𝒱₀ (c : Thread nD τ) none Set.univ (m := cM) load_sub2) $$ H
  iintro H
  iapply Hk
  iexists f
  isplitr; · ipureintro; rfl
  iexact H

omit [FloatOps F] in
theorem load_sub3 : (cM : Memref sig .tc .vmem S4x512x512 .bf16).view.setOn (rk3.toLoadRect).set ⊆ (sv3).set := by
  rw [View.set_slice]; exact subset_rfl

/-- A load of slot 3 reads its contents. -/
theorem wp_load_slot3 (c : Dev nD) (w : S1x512x512.Idx → Elt F .bf16) {hl : (cM : Memref sig .tc .vmem S4x512x512 .bf16).view.LoadsAt rk3.toLoadRect}
    {α : Type} {Q : α → sProp 𝕄} {k : (S1x512x512.Idx → Elt F .bf16) → Prog (TpuEff nD τ sig (Elt F) Λ₀ .tc) α} :
    (slot3 c w : sProp 𝕄)
      ⊢ iprop((slot3 c w -∗ wp frame (wpE (defs₀ (F := F)) 𝒱₀ (c : Thread nD τ) none) Set.univ (k w) Q)
          -∗ wp frame (wpE (defs₀ (F := F)) 𝒱₀ (c : Thread nD τ) none) Set.univ (.op (.load cM rk3.toLoadRect hl) k) Q) := by
  unfold slot3
  iintro ⟨%f, %hf, H⟩ Hk
  subst hf
  iapply (wp_load 𝒱₀ (c : Thread nD τ) none Set.univ (m := cM) load_sub3) $$ H
  iintro H
  iapply Hk
  iexists f
  isplitr; · ipureintro; rfl
  iexact H

/-- An unmasked store of slot 0 leaves the payload there. -/
theorem wp_store_slot0 (c : Dev nD) (w : S1x512x512.Idx → Elt F .bf16)
    {hx : ((cM : Memref sig .tc .vmem S4x512x512 .bf16).access rk0).Stores Finset.univ} {hm : (Finset.univ : Finset rk0.shape.Idx) = Finset.univ ∨ ∀ a, rk0.stride a = 1}
    {α : Type} {Q : α → sProp 𝕄} {k : PUnit → Prog (TpuEff nD τ sig (Elt F) Λ₀ .tc) α} :
    (any0 c : sProp 𝕄)
      ⊢ iprop((slot0 c w -∗ wp frame (wpE (defs₀ (F := F)) 𝒱₀ (c : Thread nD τ) none) Set.univ (k ⟨⟩) Q)
          -∗ wp frame (wpE (defs₀ (F := F)) 𝒱₀ (c : Thread nD τ) none) Set.univ (.op (.store cM rk0 w Finset.univ hx hm) k) Q) := by
  unfold any0 slot0
  iintro ⟨%f, H⟩ Hk
  iapply (wp_store 𝒱₀ (c : Thread nD τ) none Set.univ (m := cM) (r := rk0) (Mk := Finset.univ) (S := (sv0).set) (by rw [View.setOn_univ])) $$ H
  iintro H
  iapply Hk
  iexists ((sv0).write (Elt F) f w Finset.univ)
  isplitr; · ipureintro; exact View.read_write_univ (v := sv0) f w
  iexact H

end Cert.KernelIdeal.RingProof

end
-- ==== Proof.BodyDefs.lean ====
/-
  What device `c` holds between the stretches of its body: before the first signal; after the handshake and the first
  store (slot 0 filled, the right neighbour's three landing slots in hand); after each of the three steps (the slots
  received so far, the running sum); and what the body hands back.
-/
import proofs.«900729_g7700000000000730_dist_ar_v7x_xyz2x4x4_y_m512_n512_bf16_1_alg».proof.Proof.Steps

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-- What never changes: the cells' invariants, the reached-marks, the level facts. -/
def ctx (c : Dev nD) : sProp 𝕄 := iprop(invs m ρ K c ∗ marks c ∗ levAts L lv)
instance ctx_persistent (c : Dev nD) : BI.Persistent (ctx m ρ K c) := by unfold ctx; infer_instance

/-- The device's positions on its six transfer cells, by round. -/
def pos6 (c : Dev nD) (s0 s1 s2 r1 r2 r3 : ℕ) : sProp 𝕄 :=
  iprop(atPos ER (dCell c snd0) s0 ∅ 0 ∗ atPos ER (dCell c snd1) s1 ∅ 0 ∗ atPos ER (dCell c snd2) s2 ∅ 0
    ∗ atPos ER (dCell c rcv1) r1 ∅ 0 ∗ atPos ER (dCell c rcv2) r2 ∅ 0 ∗ atPos ER (dCell c rcv3) r3 ∅ 0)

/-- Before the first signal. -/
def A1 (c : Dev nD) (W : Waits sig Unit) : sProp 𝕄 :=
  iprop(ctx m ρ K c ∗ poss c ∗ payToks c ∗ creds0 c ∗ commAny c ∗ owes (c : Thread nD τ) (O₀ c) W
    ∗ stg c cc0_stg0_0 (xstg m ρ c) ∗ (∃ g, stg c cc0_stg1_0 g))

/-- After the handshake, slot 0 filled and the result set to the own block. -/
def A2 (c : Dev nD) : sProp 𝕄 :=
  iprop(ctx m ρ K c ∗ pos6 c 0 0 0 0 0 0
    ∗ (dutyTok ER (dCell (nxt c) rcv1) 0 false ∗ dutyTok ER (dCell (nxt c) rcv2) 0 false ∗ dutyTok ER (dCell (nxt c) rcv3) 0 false
        ∗ dutyTok ER (dCell c snd0) 0 false ∗ dutyTok ER (dCell c snd1) 0 false ∗ dutyTok ER (dCell c snd2) 0 false)
    ∗ (cred (tallyAt (dCell c rcv1) () N) ∗ cred (tallyAt (dCell c rcv2) () N) ∗ cred (tallyAt (dCell c rcv3) () N))
    ∗ slot0 c (cm m ρ c) ∗ any1 (nxt c) ∗ any2 (nxt c) ∗ any3 (nxt c)
    ∗ (∃ W, owes (c : Thread nD τ) (O₁ c) W)
    ∗ stg c cc0_stg0_0 (xstg m ρ c) ∗ stg c cc0_stg1_0 (acc0 m ρ c))

/-- After step 0's transfer and both its waits: slot 1 holds the left neighbour's block. -/
def A3 (c : Dev nD) : sProp 𝕄 :=
  iprop(ctx m ρ K c ∗ pos6 c 1 0 0 1 0 0
    ∗ (dutyTok ER (dCell (nxt c) rcv2) 0 false ∗ dutyTok ER (dCell (nxt c) rcv3) 0 false
        ∗ dutyTok ER (dCell c snd1) 0 false ∗ dutyTok ER (dCell c snd2) 0 false)
    ∗ (cred (tallyAt (dCell c rcv2) () N) ∗ cred (tallyAt (dCell c rcv3) () N))
    ∗ slot0 c (cm m ρ c) ∗ slot1 c (cm m ρ (prv c)) ∗ any2 (nxt c) ∗ any3 (nxt c)
    ∗ (∃ W, owes (c : Thread nD τ) (O₂ c) W)
    ∗ stg c cc0_stg0_0 (xstg m ρ c) ∗ stg c cc0_stg1_0 (acc0 m ρ c))

/-- After the first addition is stored, step 1's transfer sent and its send cell waited. -/
def A4 (c : Dev nD) : sProp 𝕄 :=
  iprop(ctx m ρ K c ∗ pos6 c 1 1 0 1 0 0
    ∗ (dutyTok ER (dCell (nxt c) rcv3) 0 false ∗ dutyTok ER (dCell c snd2) 0 false)
    ∗ (cred (tallyAt (dCell c rcv2) () N) ∗ cred (tallyAt (dCell c rcv3) () N))
    ∗ slot0 c (cm m ρ c) ∗ slot1 c (cm m ρ (prv c)) ∗ any3 (nxt c)
    ∗ (∃ W, owes (c : Thread nD τ) (O₃ c) W)
    ∗ stg c cc0_stg0_0 (xstg m ρ c) ∗ stg c cc0_stg1_0 (acc1 m ρ c))

/-- After step 1's landing is added and step 2's transfer is on its way (slot 2 is with it). -/
def A5 (c : Dev nD) : sProp 𝕄 :=
  iprop(ctx m ρ K c ∗ pos6 c 1 1 0 1 1 0
    ∗ (cred (tallyAt (dCell c rcv3) () N) ∗ cred (tallyAt (dCell c snd2) () N))
    ∗ slot0 c (cm m ρ c) ∗ slot1 c (cm m ρ (prv c))
    ∗ (∃ W, owes (c : Thread nD τ) 0 W)
    ∗ stg c cc0_stg0_0 (xstg m ρ c) ∗ stg c cc0_stg1_0 (acc2 m ρ c))

/-- What the body hands back. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.KernelIdeal.RingProof

end
-- ==== Proof.Body2.lean ====
/-
  The first stretch of the body: the two entry signals, the wait for the neighbours' two, slot 0 filled with the own
  block in the narrow format, the result set to the own block.
-/
import proofs.«900729_g7700000000000730_dist_ar_v7x_xyz2x4x4_y_m512_n512_bf16_1_alg».proof.Proof.BodyDefs

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
/-- From before the first signal to after the first stores. -/
theorem part2_spec (c : Dev nD) (W : Waits sig Unit) (v2 v8 v30 v33 v34 : BitVec 32) (Kt : PUnit → sProp 𝕄) :
    iprop(A1 m ρ K c W ∗ (A2 m ρ K c -∗ Kt ⟨⟩))
      ⊢ wp frame (wpE (defs₀ (F := F)) 𝒱₀ (c : Thread nD τ) none) Set.univ
          (k0_part2 xM (Memref.isWhole_whole _) oM (Memref.isWhole_whole _) cM (Memref.isWhole_whole _) cc0_scratch1 cc0_scratch2 c v2 v8 v30 (SemArray.scalar (sig.barrier 0 rfl)) v33 v34) Kt := by
  rw [k0_part2_eq_skeleton]; unfold k0_part2_skel
  simp only [semSignalWord, semWaitWord, Prog.lift, Prog.bind_op, Prog.bind_ret, Prog.pure_eq_ret]
  unfold A1 ctx invs marks poss payToks creds0 commAny
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaB, HaS0, HaS1, HaS2, HaR1, HaR2, HaR3⟩, ⟨HtBN, HtBP, HtR1N, HtR2N, HtR3N, HtS0, HtS1, HtS2⟩,
      ⟨HcB, HcR1, HcR2, HcR3⟩, ⟨%f0, Hcomm⟩, HO, Hx, ⟨%g1, Hout⟩⟩, Hk⟩
  simp only [dev1_eq c, dev2_eq c]
  -- the communication buffer cut into its four slots
  ihave Hcut := (Entails.of_eq (comm_split c f0)) $$ Hcomm
  icases Hcut with ⟨Hs0, Hs1, Hs2, Hs3⟩
  -- the first signal, to the left neighbour's barrier: its duty `true`, with this device's three landing slots
  iapply (Rounds.wp_signal 𝒱₀ ER (ringRd m ρ) (c : Thread nD τ) none (dst := (prv c : Thread nD τ)) (κ := K (prv c, 0))
      (d := true) (by rw [duties_bar]; exact Finset.mem_univ _) ((amount_bar m ρ (prv c) true).trans (by decide)) () (Ob c) rfl)
    $$ [HO HtBP Hs1 Hs2 Hs3]
  · isplitr; · iexact HIbarP
    isplitl [HO]; · iexact HO
    isplitl [HtBP]; · iexact HtBP
    isplitl [Hs1 Hs2 Hs3]
    · rw [payload_bar_true]; unfold barPay any1 any2 any3; rw [nxt_prv]
      isplitl [Hs1]; · iexists f0; iexact Hs1
      isplitl [Hs2]; · iexists f0; iexact Hs2
      iexists f0; iexact Hs3
    · iexact HrBP
  iintro HO
  -- the second, to the right neighbour's barrier: its duty `false`, nothing to hand over
  iapply (Rounds.wp_signal 𝒱₀ ER (ringRd m ρ) (c : Thread nD τ) none (dst := (nxt c : Thread nD τ)) (κ := K (nxt c, 0))
      (d := false) (by rw [duties_bar]; exact Finset.mem_univ _) ((amount_bar m ρ (nxt c) false).trans (by decide)) () (O₁ c) rfl)
    $$ [HO HtBN]
  · isplitr; · iexact HIbarN
    isplitl [HO]; · iexact HO
    isplitl [HtBN]; · iexact HtBN
    isplitr; · rw [payload_bar_false]; iempintro
    iexact HrBN
  iintro HO
  -- the wait for the two units on its own barrier: the right neighbour's landing slots come with them
  iapply (Rounds.wp_wait_rest_token 𝒱₀ ER (ringRd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iexact HIbar
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨-, Hn1, Hn2, Hn3⟩
  -- the own block read, narrowed, and stored into slot 0
  iapply (wp_load_x c (xstg m ρ c)) $$ Hx; iintro Hx
  iapply (wp_load_slot0 c ((sv0).read (Elt F) f0)) $$ [Hs0]
  · unfold slot0; iexists f0
    isplitr; · ipureintro; rfl
    iexact Hs0
  iintro Hs0
  iapply (wp_store_slot0 c (k0_pay2 (xstg m ρ c))) $$ [Hs0]
  · unfold slot0 any0
    icases Hs0 with ⟨%f, -, H⟩
    iexists f; iexact H
  iintro Hs0
  -- the result set to the own block
  iapply (wp_load_x c (xstg m ρ c)) $$ Hx; iintro Hx
  iapply (wp_load_o c g1) $$ Hout; iintro Hout
  iapply (wp_store_o c g1 (k0_pay3 (xstg m ρ c))) $$ Hout; iintro Hout
  rw [wp_ret]; imodintro
  iapply Hk
  unfold A2 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HtR1N HtR2N HtR3N HtS0 HtS1 HtS2]
  · isplitl [HtR1N]; · iexact HtR1N
    isplitl [HtR2N]; · iexact HtR2N
    isplitl [HtR3N]; · iexact HtR3N
    isplitl [HtS0]; · iexact HtS0
    isplitl [HtS1]; · iexact HtS1
    iexact HtS2
  isplitl [HcR1 HcR2 HcR3]
  · isplitl [HcR1]; · iexact HcR1
    isplitl [HcR2]; · iexact HcR2
    iexact HcR3
  isplitl [Hs0]; · iexact Hs0
  isplitl [Hn1]; · iexact Hn1
  isplitl [Hn2]; · iexact Hn2
  isplitl [Hn3]; · iexact Hn3
  isplitl [HO]; · iexists _; iexact HO
  isplitl [Hx]; · iexact Hx
  iexact Hout

end Cert.KernelIdeal.RingProof

end
-- ==== Proof.Body3.lean ====
/-
  Step 0 of the ring: slot 0 sent to the right neighbour's slot 1; the send cell waited (slot 0 back); the receive cell
  waited (slot 1 holds the left neighbour's block); the running sum and slot 1 read, their sum returned.
-/
import proofs.«900729_g7700000000000730_dist_ar_v7x_xyz2x4x4_y_m512_n512_bf16_1_alg».proof.Proof.BodyDefs

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
theorem part3_spec (c : Dev nD) (v2 v8 v30 : BitVec 32) (Kt : FVec F S512x512 .f32 → sProp 𝕄) :
    iprop(A2 m ρ K c ∗ (A3 m ρ K c -∗ Kt (acc1 m ρ c)))
      ⊢ wp frame (wpE (defs₀ (F := F)) 𝒱₀ (c : Thread nD τ) none) Set.univ
          (k0_part3 xM (Memref.isWhole_whole _) oM (Memref.isWhole_whole _) cM (Memref.isWhole_whole _) cc0_scratch1 cc0_scratch2 c v2 v8 v30) Kt := by
  rw [k0_part3_eq_skeleton]; unfold k0_part3_skel
  simp only [Prog.lift, Prog.bind_op, Prog.bind_ret, Prog.pure_eq_ret]
  unfold A2 ctx invs marks pos6
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaS0, HaS1, HaS2, HaR1, HaR2, HaR3⟩, ⟨HtR1N, HtR2N, HtR3N, HtS0, HtS1, HtS2⟩,
      ⟨HcR1, HcR2, HcR3⟩, Hs0, Hn1, Hn2, Hn3, ⟨%W, HO⟩, Hx, Hout⟩, Hk⟩
  unfold O₁
  -- the transfer of slot 0 to the right neighbour's slot 1
  iapply (wp_xfer0 m ρ K c _ (dev3_eq c) (O₂ c) W) $$ [Hs0 Hn1 HO HtS0 HtR1N]
  · isplitr; · iexact HIs0
    isplitr; · iexact HIr1N
    isplitl [Hs0]; · iexact Hs0
    isplitl [Hn1]; · iexact Hn1
    isplitl [HO]; · iexact HO
    isplitl [HtS0]; · iexact HtS0
    isplitr; · iexact HrS0
    isplitl [HtR1N]; · iexact HtR1N
    iexact HrR1N
  iintro ⟨HcS0, HO⟩
  -- the wait on send cell 0: slot 0 back
  iapply (wp_wait_xfer m ρ c snd0 used_snd0 (K (c, 1)) credit0 (O₂ c) W (xferPay_snd0 m ρ c)) $$ [HcS0 HO HaS0]
  · isplitr; · iexact HIs0
    isplitl [HcS0]; · iexact HcS0
    isplitl [HO]; · iexact HO
    isplitr; · iapply (mayWait_snd0 c); iexact Hlev
    iexact HaS0
  iintro ⟨HO, HaS0, Hs0⟩
  -- the wait on receive cell 1: slot 1, holding the left neighbour's block
  iapply (wp_wait_xfer m ρ c rcv1 used_rcv1 (K (c, 4)) credit1 (O₂ c) (insert (SemLoc.dma snd0, ()) W) (xferPay_rcv1 m ρ c)) $$ [HcR1 HO HaR1]
  · isplitr; · iexact HIr1
    isplitl [HcR1]; · iexact HcR1
    isplitl [HO]; · iexact HO
    isplitr; · iapply (mayWait_rcv1 c); iexact Hlev
    iexact HaR1
  iintro ⟨HO, HaR1, Hs1⟩
  -- the running sum and slot 1 read
  iapply (wp_load_o c (acc0 m ρ c)) $$ Hout; iintro Hout
  iapply (wp_load_slot1 c (cm m ρ (prv c))) $$ Hs1; iintro Hs1
  rw [wp_ret]; imodintro
  unfold acc1
  iapply Hk
  unfold A3 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HtR2N HtR3N HtS1 HtS2]
  · isplitl [HtR2N]; · iexact HtR2N
    isplitl [HtR3N]; · iexact HtR3N
    isplitl [HtS1]; · iexact HtS1
    iexact HtS2
  isplitl [HcR2 HcR3]
  · isplitl [HcR2]; · iexact HcR2
    iexact HcR3
  isplitl [Hs0]; · iexact Hs0
  isplitl [Hs1]; · iexact Hs1
  isplitl [Hn2]; · iexact Hn2
  isplitl [Hn3]; · iexact Hn3
  isplitl [HO]; · iexists _; iexact HO
  isplitl [Hx]; · iexact Hx
  iexact Hout

end Cert.KernelIdeal.RingProof

end
-- ==== Proof.Body4.lean ====
/-
  The first addition stored; step 1 of the ring begun: slot 1 sent to the right neighbour's slot 2 and the send cell
  waited (slot 1 back).
-/
import proofs.«900729_g7700000000000730_dist_ar_v7x_xyz2x4x4_y_m512_n512_bf16_1_alg».proof.Proof.BodyDefs

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
theorem part4_spec (c : Dev nD) (v2 v8 v30 : BitVec 32) (Kt : PUnit → sProp 𝕄) :
    iprop(A3 m ρ K c ∗ (A4 m ρ K c -∗ Kt ⟨⟩))
      ⊢ wp frame (wpE (defs₀ (F := F)) 𝒱₀ (c : Thread nD τ) none) Set.univ
          (k0_part4 xM (Memref.isWhole_whole _) oM (Memref.isWhole_whole _) cM (Memref.isWhole_whole _) cc0_scratch1 cc0_scratch2 c v2 v8 v30 (acc1 m ρ c)) Kt := by
  rw [k0_part4_eq_skeleton]; unfold k0_part4_skel
  simp only [Prog.lift, Prog.bind_op, Prog.bind_ret, Prog.pure_eq_ret]
  unfold A3 ctx invs marks pos6
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaS0, HaS1, HaS2, HaR1, HaR2, HaR3⟩, ⟨HtR2N, HtR3N, HtS1, HtS2⟩,
      ⟨HcR2, HcR3⟩, Hs0, Hs1, Hn2, Hn3, ⟨%W, HO⟩, Hx, Hout⟩, Hk⟩
  unfold O₂
  -- the first addition stored
  iapply (wp_load_o c (acc0 m ρ c)) $$ Hout; iintro Hout
  iapply (wp_store_o c (acc0 m ρ c) (acc1 m ρ c)) $$ Hout; iintro Hout
  -- the transfer of slot 1 to the right neighbour's slot 2
  iapply (wp_xfer1 m ρ K c _ (dev4_eq c) (O₃ c) W) $$ [Hs1 Hn2 HO HtS1 HtR2N]
  · isplitr; · iexact HIs1
    isplitr; · iexact HIr2N
    isplitl [Hs1]; · iexact Hs1
    isplitl [Hn2]; · iexact Hn2
    isplitl [HO]; · iexact HO
    isplitl [HtS1]; · iexact HtS1
    isplitr; · iexact HrS1
    isplitl [HtR2N]; · iexact HtR2N
    iexact HrR2N
  iintro ⟨HcS1, HO⟩
  -- the wait on send cell 1: slot 1 back
  iapply (wp_wait_xfer m ρ c snd1 used_snd1 (K (c, 2)) credit1 (O₃ c) W (xferPay_snd1 m ρ c)) $$ [HcS1 HO HaS1]
  · isplitr; · iexact HIs1
    isplitl [HcS1]; · iexact HcS1
    isplitl [HO]; · iexact HO
    isplitr; · iapply (mayWait_snd1 c); iexact Hlev
    iexact HaS1
  iintro ⟨HO, HaS1, Hs1⟩
  rw [wp_ret]; imodintro
  iapply Hk
  unfold A4 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HtR3N HtS2]
  · isplitl [HtR3N]; · iexact HtR3N
    iexact HtS2
  isplitl [HcR2 HcR3]
  · isplitl [HcR2]; · iexact HcR2
    iexact HcR3
  isplitl [Hs0]; · iexact Hs0
  isplitl [Hs1]; · iexact Hs1
  isplitl [Hn3]; · iexact Hn3
  isplitl [HO]; · iexists _; iexact HO
  isplitl [Hx]; · iexact Hx
  iexact Hout

end Cert.KernelIdeal.RingProof

end
-- ==== Proof.Body5.lean ====
/-
  Step 1 of the ring finished and step 2 begun: the receive cell 2 waited (slot 2 holds the block of the device two
  places to the left), the second addition stored, slot 2 sent to the right neighbour's slot 3.
-/
import proofs.«900729_g7700000000000730_dist_ar_v7x_xyz2x4x4_y_m512_n512_bf16_1_alg».proof.Proof.BodyDefs

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
theorem part5_spec (c : Dev nD) (v2 v8 v30 : BitVec 32) (Kt : PUnit → sProp 𝕄) :
    iprop(A4 m ρ K c ∗ (A5 m ρ K c -∗ Kt ⟨⟩))
      ⊢ wp frame (wpE (defs₀ (F := F)) 𝒱₀ (c : Thread nD τ) none) Set.univ
          (k0_part5 xM (Memref.isWhole_whole _) oM (Memref.isWhole_whole _) cM (Memref.isWhole_whole _) cc0_scratch1 cc0_scratch2 c v2 v8 v30) Kt := by
  rw [k0_part5_eq_skeleton]; unfold k0_part5_skel
  simp only [Prog.lift, Prog.bind_op, Prog.bind_ret, Prog.pure_eq_ret]
  unfold A4 ctx invs marks pos6
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaS0, HaS1, HaS2, HaR1, HaR2, HaR3⟩, ⟨HtR3N, HtS2⟩,
      ⟨HcR2, HcR3⟩, Hs0, Hs1, Hn3, ⟨%W, HO⟩, Hx, Hout⟩, Hk⟩
  -- the wait on receive cell 2: slot 2, holding the block of the device two places to the left
  iapply (wp_wait_xfer m ρ c rcv2 used_rcv2 (K (c, 5)) credit2 (O₃ c) W (xferPay_rcv2 m ρ c)) $$ [HcR2 HO HaR2]
  · isplitr; · iexact HIr2
    isplitl [HcR2]; · iexact HcR2
    isplitl [HO]; · iexact HO
    isplitr; · iapply (mayWait_rcv2 c); iexact Hlev
    iexact HaR2
  iintro ⟨HO, HaR2, Hs2⟩
  -- the second addition
  iapply (wp_load_o c (acc1 m ρ c)) $$ Hout; iintro Hout
  iapply (wp_load_slot2 c (cm m ρ (prv (prv c)))) $$ Hs2; iintro Hs2
  iapply (wp_load_o c (acc1 m ρ c)) $$ Hout; iintro Hout
  iapply (wp_store_o c (acc1 m ρ c) (acc2 m ρ c)) $$ Hout; iintro Hout
  -- the transfer of slot 2 to the right neighbour's slot 3
  unfold O₃
  iapply (wp_xfer2 m ρ K c _ (dev5_eq c) 0 (insert (SemLoc.dma rcv2, ()) W)) $$ [Hs2 Hn3 HO HtS2 HtR3N]
  · isplitr; · iexact HIs2
    isplitr; · iexact HIr3N
    isplitl [Hs2]; · iexact Hs2
    isplitl [Hn3]; · iexact Hn3
    isplitl [HO]; · rw [zero_add]; iexact HO
    isplitl [HtS2]; · iexact HtS2
    isplitr; · iexact HrS2
    isplitl [HtR3N]; · iexact HtR3N
    iexact HrR3N
  iintro ⟨HcS2, HO⟩
  rw [wp_ret]; imodintro
  iapply Hk
  unfold A5 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HcR3 HcS2]
  · isplitl [HcR3]; · iexact HcR3
    iexact HcS2
  isplitl [Hs0]; · iexact Hs0
  isplitl [Hs1]; · iexact Hs1
  isplitl [HO]; · iexists _; iexact HO
  isplitl [Hx]; · iexact Hx
  iexact Hout

end Cert.KernelIdeal.RingProof

end
-- ==== Proof.Body.lean ====
/-
  The whole body of one device: the five stretches in turn, then the end of step 2 (its send cell waited: slot 2 back;
  its receive cell waited: slot 3 holds the block of the device three places to the left; the third addition stored),
  the six own cells closed at zero, the four slots put together into the communication buffer. And the body obligation
  of the pipeline's one point from it.
-/
import proofs.«900729_g7700000000000730_dist_ar_v7x_xyz2x4x4_y_m512_n512_bf16_1_alg».proof.Proof.Body2
import proofs.«900729_g7700000000000730_dist_ar_v7x_xyz2x4x4_y_m512_n512_bf16_1_alg».proof.Proof.Body3
import proofs.«900729_g7700000000000730_dist_ar_v7x_xyz2x4x4_y_m512_n512_bf16_1_alg».proof.Proof.Body4
import proofs.«900729_g7700000000000730_dist_ar_v7x_xyz2x4x4_y_m512_n512_bf16_1_alg».proof.Proof.Body5

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

omit [FloatOps F] in
/-- The four slots, at whatever contents, are the communication buffer whole. -/
theorem slots_join (c : Dev nD) (w0 w1 w2 w3 : S1x512x512.Idx → Elt F .bf16) :
    iprop(slot0 c w0 ∗ slot1 c w1 ∗ slot2 c w2 ∗ slot3 c w3) ⊢ (commAny c : sProp 𝕄) := by
  unfold slot0 slot1 slot2 slot3
  iintro ⟨⟨%f0, -, H0⟩, ⟨%f1, -, H1⟩, ⟨%f2, -, H2⟩, ⟨%f3, -, H3⟩⟩
  iapply (comm_join c f0 f1 f2 f3)
  isplitl [H0]; · iexact H0
  isplitl [H1]; · iexact H1
  isplitl [H2]; · iexact H2
  iexact H3

def bodyPre (c : Dev nD) : sProp 𝕄 :=
  iprop((ghost m ρ K c ∗ creds0 c ∗ levAts L lv ∗ commAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 3200000 in
set_option maxRecDepth 65536 in
/-- The body, from what the pipeline hands it to what it hands back. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) oM (Memref.isWhole_whole _) cM (Memref.isWhole_whole _) cc0_scratch1 cc0_scratch2) Kt := by
  rw [cc0_body_eq_skeleton]; unfold cc0_body_skel
  rw [k0_part1_eq_skeleton]; unfold k0_part1_skel
  simp only [Prog.lift, Prog.bind_op, Prog.bind_ret, Prog.pure_eq_ret, wp_deviceId, wp_bind]
  unfold bodyPre ghost
  iintro ⟨⟨⟨⟨#Hinv, Hpos, #Hmk, Htok⟩, Hcr, #Hlev, Hcomm⟩, Ho, ⟨%d0, %g0, %hg0, Hx⟩, ⟨%d1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the handshake and the first stores
  iapply (part2_spec m ρ K c W _ _ _ _ _ _)
  isplitl [Hpos Htok Hcr Hcomm HO Hx Hout]
  · unfold A1 ctx
    isplitr
    · isplitr; · iexact Hinv
      isplitr; · iexact Hmk
      iexact Hlev
    isplitl [Hpos]; · iexact Hpos
    isplitl [Htok]; · iexact Htok
    isplitl [Hcr]; · iexact Hcr
    isplitl [Hcomm]; · iexact Hcomm
    isplitl [HO]; · iexact HO
    isplitl [Hx]
    · iexists _; isplitr; · (ipureintro; rfl)
      iexact Hx
    iexists _; iexact Hout
  iintro H2
  -- step 0
  iapply (part3_spec m ρ K c _ _ _ _)
  isplitl [H2]; · iexact H2
  iintro H3
  -- the first addition stored, step 1 begun
  iapply (part4_spec m ρ K c _ _ _ _)
  isplitl [H3]; · iexact H3
  iintro H4
  -- step 1 finished, step 2 begun
  iapply (part5_spec m ρ K c _ _ _ _)
  isplitl [H4]; · iexact H4
  iintro H5
  unfold A5 ctx invs marks pos6
  icases H5 with ⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, -⟩, ⟨HaS0, HaS1, HaS2, HaR1, HaR2, HaR3⟩, ⟨HcR3, HcS2⟩, Hs0, Hs1, ⟨%W5, HO⟩, Hx, Hout⟩
  -- the wait on send cell 2: slot 2 back
  iapply (wp_wait_xfer m ρ c snd2 used_snd2 (K (c, 3)) credit2 0 W5 (xferPay_snd2 m ρ c)) $$ [HcS2 HO HaS2]
  · isplitr; · iexact HIs2
    isplitl [HcS2]; · iexact HcS2
    isplitl [HO]; · iexact HO
    isplitr; · rw [MayWait_zero]; iempintro
    iexact HaS2
  iintro ⟨HO, HaS2, Hs2⟩
  -- the wait on receive cell 3: slot 3, holding the block of the device three places to the left
  iapply (wp_wait_xfer m ρ c rcv3 used_rcv3 (K (c, 6)) credit3 0 (insert (SemLoc.dma snd2, ()) W5) (xferPay_rcv3 m ρ c)) $$ [HcR3 HO HaR3]
  · isplitr; · iexact HIr3
    isplitl [HcR3]; · iexact HcR3
    isplitl [HO]; · iexact HO
    isplitr; · rw [MayWait_zero]; iempintro
    iexact HaR3
  iintro ⟨HO, HaR3, Hs3⟩
  -- the third addition
  iapply (wp_load_o c (acc2 m ρ c)) $$ Hout; iintro Hout
  iapply (wp_load_slot3 c (cm m ρ (prv (prv (prv c))))) $$ Hs3; iintro Hs3
  iapply (wp_load_o c (acc2 m ρ c)) $$ Hout; iintro Hout
  iapply (wp_store_o c (acc2 m ρ c) (acc3 m ρ c)) $$ Hout; iintro Hout
  -- the six own cells close: their counters at zero are the core's again
  imod (Rounds.cell_close ER (ringRd m ρ) (Set.mem_univ (K (c, 1))) (fun h => h) (R := 0 + 1) (duties_later m ρ (dCell c snd0))) $$ [HaS0] with HzS0
  · isplitr; · iexact HIs0
    iexact HaS0
  imod (Rounds.cell_close ER (ringRd m ρ) (Set.mem_univ (K (c, 2))) (fun h => h) (R := 0 + 1) (duties_later m ρ (dCell c snd1))) $$ [HaS1] with HzS1
  · isplitr; · iexact HIs1
    iexact HaS1
  imod (Rounds.cell_close ER (ringRd m ρ) (Set.mem_univ (K (c, 3))) (fun h => h) (R := 0 + 1) (duties_later m ρ (dCell c snd2))) $$ [HaS2] with HzS2
  · isplitr; · iexact HIs2
    iexact HaS2
  imod (Rounds.cell_close ER (ringRd m ρ) (Set.mem_univ (K (c, 4))) (fun h => h) (R := 0 + 1) (duties_later m ρ (dCell c rcv1))) $$ [HaR1] with HzR1
  · isplitr; · iexact HIr1
    iexact HaR1
  imod (Rounds.cell_close ER (ringRd m ρ) (Set.mem_univ (K (c, 5))) (fun h => h) (R := 0 + 1) (duties_later m ρ (dCell c rcv2))) $$ [HaR2] with HzR2
  · isplitr; · iexact HIr2
    iexact HaR2
  imod (Rounds.cell_close ER (ringRd m ρ) (Set.mem_univ (K (c, 6))) (fun h => h) (R := 0 + 1) (duties_later m ρ (dCell c rcv3))) $$ [HaR3] with HzR3
  · isplitr; · iexact HIr3
    iexact HaR3
  -- the four slots put together
  ihave Hcomm := (slots_join c _ _ _ _) $$ [Hs0 Hs1 Hs2 Hs3]
  · isplitl [Hs0]; · iexact Hs0
    isplitl [Hs1]; · iexact Hs1
    isplitl [Hs2]; · iexact Hs2
    iexact Hs3
  rw [wp_ret]; imodintro
  iapply Hk
  unfold bodyPost Φ₁ ownZero Dat.owesAt Pipeline.owesWithin outAt
  rw [show (dats m ρ 0 c).owed t₀.succ = 0 from rfl]
  isplitl [Hcomm HzS0 HzS1 HzS2 HzR1 HzR2 HzR3]
  · isplitl [Hcomm]; · iexact Hcomm
    isplitl [HzS0]; · iexact HzS0
    isplitl [HzS1]; · iexact HzS1
    isplitl [HzS2]; · iexact HzS2
    isplitl [HzR1]; · iexact HzR1
    isplitl [HzR2]; · iexact HzR2
    iexact HzR3
  isplitl [HO]
  · iexists (insert (SemLoc.dma rcv3, ()) (insert (SemLoc.dma snd2, ()) W5))
    isplitr; · ipureintro; exact fun _ _ => Or.inl trivial
    iexact HO
  isplitl [Hx]; · iexact Hx
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body xM (Memref.isWhole_whole _) oM (Memref.isWhole_whole _) cM (Memref.isWhole_whole _) cc0_scratch1 cc0_scratch2) (fun _ => bodyPost m ρ c)
  unfold bodyPre' Φ₀ start
  iintro ⟨⟨⟨⟨%K, Hg⟩, Hcr, Hlev⟩, Hcomm⟩, Ho, Hx, Hout⟩
  iapply (sound_body m ρ K c fun _ => bodyPost m ρ c)
  unfold bodyPre
  isplitr []
  · isplitl [Hg Hcr Hlev Hcomm]
    · isplitl [Hg]; · iexact Hg
      isplitl [Hcr]; · iexact Hcr
      isplitl [Hlev]; · iexact Hlev
      iexact Hcomm
    isplitl [Ho]; · iexact Ho
    isplitl [Hx] <;> iassumption
  · iintro H; iexact H

/-- info: 'Cert.KernelIdeal.RingProof.body_obligation' depends on axioms: [propext, Classical.choice, Quot.sound] -/
#guard_msgs in #print axioms body_obligation

end Cert.KernelIdeal.RingProof

end
-- ==== Proof.Launch.lean ====
/-
  The launch of the ring all-reduce: from the body of one device, proved at a symbolic device, to the run of the
  whole mesh.

  The launch element is the pipeline's own and the ring's: every cell of the ring (seven per device: the barrier
  cell, three send cells, three receive cells) in its launch state at round 0, and the eight duty tokens of each
  device's own cells. One global step puts every cell's counter at zero under its invariant and deals the tokens
  around the ring: a barrier cell's two tokens to the two neighbours that signal it, a receive cell's token to the
  left neighbour whose transfer lands there, a send cell's token stays. What the devices owe one another at launch
  comes back as credit: two units on each barrier cell, a slot's credit on each receive cell.
-/
import proofs.«900729_g7700000000000730_dist_ar_v7x_xyz2x4x4_y_m512_n512_bf16_1_alg».proof.Proof.Proto

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: (device, which duty) — its barrier's `false` and `true`, its three
    send cells' and its three receive cells' `false`. -/
abbrev tokOf (cj : Dev nD × Fin 8) : GSem nD τ sig × ℕ × Bool := match cj.2 with
  | 0 => (barCell cj.1, 0, false) | 1 => (barCell cj.1, 0, true)
  | 2 => (dCell cj.1 snd0, 0, false) | 3 => (dCell cj.1 snd1, 0, false) | 4 => (dCell cj.1 snd2, 0, false)
  | 5 => (dCell cj.1 rcv1, 0, false) | 6 => (dCell cj.1 rcv2, 0, false) | 7 => (dCell cj.1 rcv3, 0, false)
theorem tokOf_injective : Function.Injective (tokOf : Dev nD × Fin 8 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ dutyTok ER (dCell c snd0) 0 false ∗ dutyTok ER (dCell c snd1) 0 false ∗ dutyTok ER (dCell c snd2) 0 false
    ∗ dutyTok ER (dCell c rcv1) 0 false ∗ dutyTok ER (dCell c rcv2) 0 false ∗ dutyTok ER (dCell c rcv3) 0 false)

/-- What the launch element deals device `c`. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin8]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six semaphores the protocol uses are the kernel's own; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nxt c, 0)); iexact HI
    isplitr; · iapply (inv_at m ρ K (prv c, 0)); iexact HI
    isplitr; · iapply (inv_at m ρ K (nxt c, 4)); iexact HI
    isplitr; · iapply (inv_at m ρ K (nxt c, 5)); iexact HI
    iapply (inv_at m ρ K (nxt c, 6)); iexact HI
  isplitl [Hpos]; · iexact Hpos
  isplitr
  · unfold marks
    isplitr; · iapply (reached_at (F := F) (nxt c, 0)); iexact HR
    isplitr; · iapply (reached_at (F := F) (prv c, 0)); iexact HR
    isplitr; · iapply (reached_at (F := F) (nxt c, 4)); iexact HR
    isplitr; · iapply (reached_at (F := F) (nxt c, 5)); iexact HR
    isplitr; · iapply (reached_at (F := F) (nxt c, 6)); iexact HR
    isplitr; · iapply (reached_at (F := F) (c, 1)); iexact HR
    isplitr; · iapply (reached_at (F := F) (c, 2)); iexact HR
    iapply (reached_at (F := F) (c, 3)); iexact HR
  iexact Htok

/-- The tokens dealt around the ring: a barrier's `false` token and the three receive tokens one device down (to the
    left neighbour), a barrier's `true` token one device up (to the right neighbour); the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dCell c rcv1) 0 false : sProp 𝕄)),
    bigSep_univ_equiv ring (fun c : Dev nD => (dutyTok ER (dCell c rcv2) 0 false : sProp 𝕄)),
    bigSep_univ_equiv ring (fun c : Dev nD => (dutyTok ER (dCell c rcv3) 0 false : sProp 𝕄))]
  iintro ⟨H1, H2, H3, H4, H5, H6, H7, H8⟩
  isplitl [H1]; · iexact H1
  isplitl [H2]; · iexact H2
  isplitl [H6]; · iexact H6
  isplitl [H7]; · iexact H7
  isplitl [H8]; · iexact H8
  isplitl [H3]; · iexact H3
  isplitl [H4]; · iexact H4
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The two units owed a barrier cell, by its two neighbours, are its credit of two. -/
theorem bar_two (c : Dev nD) :
    iprop(cred (tallyAt (barCell c) () 1) ∗ cred (tallyAt (barCell c) () 1)) ⊢ (cred (tallyAt (barCell c) () 2) : sProp 𝕄) := by
  have e : (tallyAt (barCell c) () 2 : CellTallies nD τ sig Unit) = tallyAt (barCell c) () 1 + tallyAt (barCell c) () 1 :=
    (tallyAt_add (barCell c) () 1 1).symm
  rw [e]
  exact (cred_add _ _).2

/-- What the devices owe at launch, summed over the devices, is each device's credit on its own barrier and receive cells. -/
theorem creds (c : Dev nD) : (Pipeline.launchCred O₀ c : sProp 𝕄) ⊢ creds0 c := by
  rw [show (O₀ : Dev nD → CellTallies nD τ sig Unit) = fun d =>
      (((tallyAt (dCell (nxt d) rcv3) () N + tallyAt (dCell (nxt d) rcv2) () N) + tallyAt (dCell (nxt d) rcv1) () N)
        + tallyAt (barCell (nxt d)) () 1) + tallyAt (barCell (prv d)) () 1 from rfl,
    Pipeline.launchCred_add, Pipeline.launchCred_add, Pipeline.launchCred_add, Pipeline.launchCred_add]
  unfold creds0
  iintro ⟨⟨⟨⟨H3, H2⟩, H1⟩, HbN⟩, HbP⟩
  ihave C3 := (Pipeline.launchCred_tallyAt (.dma rcv3) nxt prv nxt_prv prv_nxt () N c) $$ H3
  ihave C2 := (Pipeline.launchCred_tallyAt (.dma rcv2) nxt prv nxt_prv prv_nxt () N c) $$ H2
  ihave C1 := (Pipeline.launchCred_tallyAt (.dma rcv1) nxt prv nxt_prv prv_nxt () N c) $$ H1
  ihave CbN := (Pipeline.launchCred_tallyAt (.reg barS) nxt prv nxt_prv prv_nxt () 1 c) $$ HbN
  ihave CbP := (Pipeline.launchCred_tallyAt (.reg barS) prv nxt prv_nxt nxt_prv () 1 c) $$ HbP
  isplitl [CbN CbP]
  · iapply (bar_two (F := F) c)
    isplitl [CbN] <;> iassumption
  isplitl [C1]; · iexact C1
  isplitl [C2]; · iexact C2
  iexact C3

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ commAny
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh, for any float values, from any memory with zero counters: if the body of one device meets its
    obligation at every device, then every weakly fair execution of @main terminates, and every final state has each
    device's arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.RingProof.run_main' depends on axioms: [propext, Classical.choice, Quot.sound] -/
#guard_msgs in #print axioms run_main

end Cert.KernelIdeal.RingProof

end
-- ==== Proof.Final.lean ====
/-
  The run of the ring all-reduce with its result named: every device ends with its result array at
  `((x₀ + x₁) + x₂) + x₃` of its own block and the blocks of the three devices to its left, and its argument
  unchanged.

  The argument array is an input window's: no point writes it back. The result array is written back once, whole, at the
  one point of the pipeline, with what the body left in its staging buffer; the argument's staging buffer holds the
  argument array, whole.
-/
import proofs.«900729_g7700000000000730_dist_ar_v7x_xyz2x4x4_y_m512_n512_bf16_1_alg».proof.Proof.Launch
import proofs.«900729_g7700000000000730_dist_ar_v7x_xyz2x4x4_y_m512_n512_bf16_1_alg».proof.Proof.Spec

noncomputable section

namespace Cert.KernelIdeal.RingProof

open Cert.KernelIdeal Cert.KernelIdeal.Gen Cert.KernelIdeal.Ring Cert.KernelIdeal.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The argument's one block, read off the whole array, is the array. -/
theorem xstg_eq (c : Dev nD) : xstg m ρ c = m ((c : Thread nD τ).loc main_arg0) := by
  unfold xstg
  exact Memref.read_access_unit_zero (Elt F) main_arg0 (funext fun a => Nat.zero_mul _) _ _

/-- The result array after the run holds what the one write-back wrote: the body's result. -/
theorem finalA_out (c : Dev nD) : finalA m ρ c (1 : Fin 2) = outAt m ρ c := by
  have hN : cfg0.N = (t₀ : Fin cfg0.N).val + 1 := cfg0_N
  unfold finalA
  rw [hN, Dat.arrAt_succ, flush0_1 t₀, if_pos rfl]
  exact Memref.write_access_unit_zero_univ (Elt F) main_v1 (funext fun a => Nat.zero_mul _) _ _ _

/-- The body's result is the result term of the four argument blocks. -/
theorem outAt_eq (c : Dev nD) : outAt m ρ c = resultOf m c := by
  unfold outAt resultOf
  rw [acc3_eq, xstg_eq, xstg_eq, xstg_eq, xstg_eq]

/-- The run, with the result named: from any memory with zero counters, if the body of one device meets its
    obligation at every device, every weakly fair execution of @main terminates with each device's result at the
    result term of the initial argument blocks and its argument unchanged. -/
theorem run_val (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)) :=
  (θ_run defs _ _).mono
    (fun r h c => ⟨((h c (1 : Fin 2)).trans (finalA_out m ρ c)).trans (outAt_eq m ρ c), (h c (0 : Fin 2)).trans (finalA_x m ρ c)⟩)
    (run_main m ρ hbody)

/-- info: 'Cert.KernelIdeal.RingProof.run_val' depends on axioms: [propext, Classical.choice, Quot.sound] -/
#guard_msgs in #print axioms run_val

end Cert.KernelIdeal.RingProof

end
-- ==== Proof.RefValue.lean ====
/-
  The value of the ring all-reduce joined with the reference's.

  Device `c` of the 2×4×4 mesh holds row block `c / 4 % 4` (its second coordinate) of the whole array
  `X : [2048, 512]`. It ends with `((x₀ + x₁) + x₂) + x₃`, where `x₀` is its own block and `x₁`, `x₂`, `x₃` are
  the blocks of the devices one, two and three places to its left on the ring of its second coordinate. Those four
  devices have the four second coordinates, each once, so at index `(p, q)` the result is the sum of
  `X (512 k + p, q)` over the four `k`, in some order. The reference reshapes `X` to `[4, 512, 512]` and sums the
  first axis from zero: `0 + ∑ k, X (512 k + p, q)`. Extended reals under `+` are a commutative monoid, so the two
  agree with no finiteness condition.
-/
import proofs.«900729_g7700000000000730_dist_ar_v7x_xyz2x4x4_y_m512_n512_bf16_1_alg».proof.Defs
import proofs.«900729_g7700000000000730_dist_ar_v7x_xyz2x4x4_y_m512_n512_bf16_1_alg».proof.Proof.Spec
import proofs.«900729_g7700000000000730_dist_ar_v7x_xyz2x4x4_y_m512_n512_bf16_1_alg».proof.Proof.Gen.ReferenceIdeal.Run
import proofs.«900729_g7700000000000730_dist_ar_v7x_xyz2x4x4_y_m512_n512_bf16_1_alg».proof.Proof.Gen.ReferenceIdeal.Read
import proofs.«900729_g7700000000000730_dist_ar_v7x_xyz2x4x4_y_m512_n512_bf16_1_alg».proof.Proof.Gen.Pre_finite_inputs_Kernel
import proofs.«900729_g7700000000000730_dist_ar_v7x_xyz2x4x4_y_m512_n512_bf16_1_alg».proof.Proof.Gen.Pre_finite_inputs_ReferenceIdeal
import Idealize.ShloMosaic.Lib.Layout
import Idealize.ShloMosaic.Lib.ValueIdx
import Idealize.ShloMosaic.Lib.Pipeline.Value
import Idealize.ShloMosaic.PureOps.Ideal.Laws

noncomputable section

namespace Cert.KernelIdeal.RingValue

open Cert.KernelIdeal Cert.KernelIdeal.Gen
open Idealize.ShloMosaic Idealize.SL.Sem
open Idealize.ShloMosaic.TcCoe
open Idealize.ShloMosaic.ValueIdx
open scoped BigOperators

/-! ## The payloads at the ideal instance -/

/-- What is sent, cast back to the block's shape, is the block: narrowing is the identity on extended reals and the
    two shape casts undo each other. -/
theorem sent_back (x : Vec Ideal S512x512 .f32) :
    shapeCast S512x512 (k0_pay2 (F := Ideal) x) shapeCasts_S1x512x512_S512x512 = x := by
  unfold k0_pay2
  rw [shapeCast_self]
  exact shapeCast_shapeCast x shapeCasts_S512x512_S1x512x512 shapeCasts_S1x512x512_S512x512

theorem pay3_eq (x : Vec Ideal S512x512 .f32) : k0_pay3 (F := Ideal) x = x := by
  unfold k0_pay3
  exact shapeCast_self x _

theorem pay4_eq (a x : Vec Ideal S512x512 .f32) :
    k0_pay4 (F := Ideal) a (k0_pay2 (F := Ideal) x) = fun i => (show EReal from a i) + (show EReal from x i) := by
  unfold k0_pay4
  rw [shapeCast_self, sent_back]
  rfl

theorem pay5_eq (a x : Vec Ideal S512x512 .f32) :
    k0_pay5 (F := Ideal) a (k0_pay2 (F := Ideal) x) = fun i => (show EReal from a i) + (show EReal from x i) := by
  unfold k0_pay5
  rw [shapeCast_self, sent_back]
  rfl

theorem pay1_eq (a x : Vec Ideal S512x512 .f32) :
    k0_pay1 (F := Ideal) a (k0_pay2 (F := Ideal) x) = fun i => (show EReal from a i) + (show EReal from x i) := by
  unfold k0_pay1
  rw [shapeCast_self, sent_back]
  rfl

/-- The result term at an index: the four blocks' entries added from the left. -/
theorem outTerm_apply (x0 x1 x2 x3 : Vec Ideal S512x512 .f32) (i : S512x512.Idx) :
    outTerm (F := Ideal) x0 x1 x2 x3 i
      = (((show EReal from x0 i) + (show EReal from x1 i)) + (show EReal from x2 i)) + (show EReal from x3 i) := by
  unfold outTerm
  rw [pay3_eq, pay4_eq, pay5_eq, pay1_eq]

/-! ## Blocks of the whole array and the reference at an index -/

/-- The second mesh coordinate of a device: the row block it holds. -/
def yc (c : Dev nD) : Fin 4 := ⟨c.val / 4 % 4, Nat.mod_lt _ (by decide)⟩

/-- Row `512 k + p`, column `q` of the whole array, for the index `(p, q)` of a block. -/
def rowIdx (k : Fin 4) (i : S512x512.Idx) : (⟨2, ![2048, 512]⟩ : Shape).Idx :=
  ix2 ⟨k.val * 512 + (i 0).val, by have h0 := idx2_lt0 i; have hk := k.isLt; omega⟩ ⟨(i 1).val, idx2_lt1 i⟩

/-- A device's block of the whole array reads row block `yc c`. -/
theorem block_apply (c : Dev nD) (X : (⟨2, ![2048, 512]⟩ : Shape).Idx → EReal) (i : S512x512.Idx) :
    (Layout.blockN ⟨2, ![512, 512]⟩ ⟨2, ![2048, 512]⟩ (Layout.meshBlock [2, 4, 4] ![[1], []] c) X) i = X (rowIdx (yc c) i) := by
  rw [Layout.blockN_apply]
  refine congrArg X (funext fun a => Fin.ext ?_)
  rw [Layout.TilesN.idx_val]
  match a with
  | ⟨0, _⟩ =>
    show Layout.meshLin [2, 4, 4] c.val [1] * 512 + (i 0).val = c.val / 4 % 4 * 512 + (i 0).val
    simp [Layout.meshLin, Layout.meshCoord, Layout.cutSize]
  | ⟨1, _⟩ =>
    show Layout.meshLin [2, 4, 4] c.val [] * 512 + (i 1).val = (i 1).val
    simp [Layout.meshLin]

/-- The reference at an index: the sum over the four row blocks. -/
theorem ref_apply (X : (⟨Cert.ReferenceIdeal.S2048x512, .f32⟩ : BufTy).Contents (Elt Ideal)) (i : S512x512.Idx) :
    Cert.ReferenceIdeal.Read.val_main_v1 (F := Ideal) X i = ∑ k : Fin 4, (show EReal from X (rowIdx k i)) := by
  rw [Cert.ReferenceIdeal.Read.val_main_v1_apply, Cert.ReferenceIdeal.Read.val_main_cst_apply]
  show Ideal.ofBits .f32 0x00000000#32 + _ = _
  rw [Ideal.ofBits_zero_f32, zero_add]
  refine Finset.sum_congr rfl fun k _ => ?_
  rw [Cert.ReferenceIdeal.Read.val_main_v0_apply]
  refine congrArg X (funext fun a => Fin.ext ?_)
  have h0 := idx2_lt0 i
  have h1 := idx2_lt1 i
  have hk := k.isLt
  match a with
  | ⟨0, _⟩ =>
    show ((k.val * 512 + (i 0).val) * 512 + (i 1).val) / 512 = k.val * 512 + (i 0).val
    omega
  | ⟨1, _⟩ =>
    show ((k.val * 512 + (i 0).val) * 512 + (i 1).val) % 512 = (i 1).val
    omega

/-! ## The four devices of a ring hold the four row blocks -/

/-- The row blocks of a device and of the three devices to its left. -/
def perm (c : Dev nD) : Fin 4 → Fin 4 :=
  ![yc c, yc (Ring.prv c), yc (Ring.prv (Ring.prv c)), yc (Ring.prv (Ring.prv (Ring.prv c)))]

theorem perm_bijective (c : Dev nD) : Function.Bijective (perm c) := by revert c; decide

/-- A sum over the four row blocks, taken in the order a device meets them. -/
theorem sum_perm (c : Dev nD) (f : Fin 4 → EReal) :
    ((f (yc c) + f (yc (Ring.prv c))) + f (yc (Ring.prv (Ring.prv c)))) + f (yc (Ring.prv (Ring.prv (Ring.prv c))))
      = ∑ k : Fin 4, f k := by
  rw [← Equiv.sum_comp (Equiv.ofBijective (perm c) (perm_bijective c)) f, Fin.sum_univ_four]
  rfl

/-! ## The ring's value is the reference's -/

/-- From memories where every device holds its block of the whole array `X`, the value a device ends with is the
    reference's value of `X`: at each index both are the sum of the four row blocks' entries. -/
theorem resultOf_eq (m : (ℓ : Loc nD τ sig) → Buf (Elt Ideal) ℓ) (X : (⟨2, ![2048, 512]⟩ : Shape).Idx → EReal)
    (hblk : ∀ c : Dev nD, m ((c.tc : Thread nD τ).loc main_arg0)
      = Layout.blockN ⟨2, ![512, 512]⟩ ⟨2, ![2048, 512]⟩ (Layout.meshBlock [2, 4, 4] ![[1], []] c) X) (c : Dev nD) :
    resultOf (F := Ideal) m c = Cert.ReferenceIdeal.Read.val_main_v1 (F := Ideal) X := by
  funext i
  unfold resultOf
  rw [outTerm_apply, hblk c, hblk (Ring.prv c), hblk (Ring.prv (Ring.prv c)), hblk (Ring.prv (Ring.prv (Ring.prv c)))]
  rw [block_apply, block_apply, block_apply, block_apply, ref_apply]
  exact sum_perm c (fun k => X (rowIdx k i))

/-- The value conjunct from the kernel's run: if every fair execution of the kernel from `m` ends with each device's
    result at `resultOf m c` and its argument unchanged, then kernel and reference end with equal results, the common
    value being the reference's value of the whole array. -/
theorem algebraic_of_run
    (hrun : ∀ (m : (ℓ : Loc Cert.KernelIdeal.nD Cert.KernelIdeal.τ Cert.KernelIdeal.sig) → Buf (Elt Ideal) ℓ)
        (g : Dev Cert.KernelIdeal.nD → PrngReg),
      θ_run (Cert.KernelIdeal.defs (F := Ideal)) (onTc (τ := Cert.KernelIdeal.τ) (Cert.KernelIdeal.main (F := Ideal)))
        ⟨m, fun _ => 0, g⟩ (fun r => ∀ c : Dev Cert.KernelIdeal.nD,
          r.2.mem ((c.tc : Thread Cert.KernelIdeal.nD Cert.KernelIdeal.τ).loc Cert.KernelIdeal.main_v1) = resultOf m c
          ∧ r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0))) :
    Cert.algebraic_KernelIdeal_ReferenceIdeal (hKernelIdeal := Cert.KernelIdeal.Gen.facts)
      (hReferenceIdeal := Cert.ReferenceIdeal.Gen.facts) (hPre_finite_inputs_Kernel := Cert.Pre_finite_inputs_Kernel.Gen.facts) := by
  intro m g m' g' _ hblk
  refine ⟨Cert.ReferenceIdeal.Read.val_main_v1 (F := Ideal)
    (m' (((0 : Dev Cert.ReferenceIdeal.nD).tc : Thread Cert.ReferenceIdeal.nD Cert.ReferenceIdeal.τ).loc Cert.ReferenceIdeal.main_arg0)), ?_, ?_⟩
  · exact (θ_run _ _ _).mono (fun r h c => ⟨((h c).1).trans (resultOf_eq m _ hblk c), (h c).2⟩) (hrun m g)
  · exact (θ_run _ _ _).mono
      (fun r h => ⟨((h 0).1).trans (Cert.ReferenceIdeal.Read.val_main_v1_eq _), (h 0).2⟩)
      (Cert.ReferenceIdeal.Value.run (F := Ideal) m' g')

/-- The reference runs and leaves its argument unchanged: its run with the value dropped. -/
theorem frame_ri : Cert.frame_ReferenceIdeal (hReferenceIdeal := Cert.ReferenceIdeal.Gen.facts)
    (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

end Cert.KernelIdeal.RingValue

end

/-- info: 'Cert.KernelIdeal.RingValue.algebraic_of_run' depends on axioms: [propext, Classical.choice, Quot.sound] -/
#guard_msgs in #print axioms Cert.KernelIdeal.RingValue.algebraic_of_run
/-- info: 'Cert.KernelIdeal.RingValue.frame_ri' depends on axioms: [propext, Classical.choice, Quot.sound] -/
#guard_msgs in #print axioms Cert.KernelIdeal.RingValue.frame_ri
-- ==== Proof.Bits.Mesh.lean ====
/-
  The ring on the mesh's second axis. Device `c` of the 2×4×4 mesh sits at coordinates (c / 16, c / 4 % 4, c % 4);
  its right neighbour `nxt c` has the second coordinate one higher modulo 4, its left neighbour `prv c` one lower,
  the other two coordinates the same. The kernel's five device-id chains name `prv c` (the first signal) and `nxt c`
  (the second signal and the three transfers): decided over the 32 devices.
-/
import proofs.«900729_g7700000000000730_dist_ar_v7x_xyz2x4x4_y_m512_n512_bf16_1_alg».proof.Proof.Gen.Kernel

noncomputable section

namespace Cert.Kernel.Ring

open Cert.Kernel Cert.Kernel.Gen
open Idealize.ShloMosaic

/-- The right neighbour on the second mesh axis. -/
def nxt (c : Dev nD) : Dev nD := ⟨c.val / 16 * 16 + (c.val / 4 % 4 + 1) % 4 * 4 + c.val % 4, by have h : c.val < 32 := c.isLt; show _ < 32; omega⟩
/-- The left neighbour on the second mesh axis. -/
def prv (c : Dev nD) : Dev nD := ⟨c.val / 16 * 16 + (c.val / 4 % 4 + 3) % 4 * 4 + c.val % 4, by have h : c.val < 32 := c.isLt; show _ < 32; omega⟩

theorem prv_nxt (c : Dev nD) : prv (nxt c) = c := by revert c; decide
theorem nxt_prv (c : Dev nD) : nxt (prv c) = c := by revert c; decide
theorem nxt_ne_prv (c : Dev nD) : nxt c ≠ prv c := by revert c; decide
theorem nxt_ne_self (c : Dev nD) : nxt c ≠ c := by revert c; decide
theorem prv_ne_self (c : Dev nD) : prv c ≠ c := by revert c; decide
/-- Four steps to the left come back: the ring has four places. -/
theorem prv4 (c : Dev nD) : prv (prv (prv (prv c))) = c := by revert c; decide

theorem dev1_eq (c : Dev nD) : (⟨k0_dev1 c, Facts₀.k0_dev1_lt c⟩ : Dev nD) = prv c := by revert c; decide +kernel
theorem dev2_eq (c : Dev nD) : (⟨k0_dev2 c, Facts₀.k0_dev2_lt c⟩ : Dev nD) = nxt c := by revert c; decide +kernel
theorem dev3_eq (c : Dev nD) : (⟨k0_dev3 c, Facts₀.k0_dev3_lt c⟩ : Dev nD) = nxt c := by revert c; decide +kernel
theorem dev4_eq (c : Dev nD) : (⟨k0_dev4 c, Facts₀.k0_dev4_lt c⟩ : Dev nD) = nxt c := by revert c; decide +kernel
theorem dev5_eq (c : Dev nD) : (⟨k0_dev5 c, Facts₀.k0_dev5_lt c⟩ : Dev nD) = nxt c := by revert c; decide +kernel

def ring : Dev nD ≃ Dev nD := ⟨nxt, prv, prv_nxt, nxt_prv⟩

end Cert.Kernel.Ring

end
-- ==== Proof.Bits.Spec.lean ====
/-
  The value every device ends with, as a term over the four blocks it adds. Device `c` keeps its own block,
  then three times adds what its left neighbour sent: the left neighbour's block, then the block of the device
  two places to the left, then three places. Each sent block goes through the narrow format and comes back; the
  term is stated for any float instance.
-/
import proofs.«900729_g7700000000000730_dist_ar_v7x_xyz2x4x4_y_m512_n512_bf16_1_alg».proof.Proof.Gen.Kernel.Skeleton
import proofs.«900729_g7700000000000730_dist_ar_v7x_xyz2x4x4_y_m512_n512_bf16_1_alg».proof.Proof.Bits.Mesh

noncomputable section

namespace Cert.Kernel.RingValue

open Cert.Kernel Cert.Kernel.Gen
open Idealize.ShloMosaic Idealize.SL.Sem
open Idealize.ShloMosaic.TcCoe

variable {F : FTy → Type} [FloatOps F]

/-- The result from the device's own block `x0` and the blocks `x1`, `x2`, `x3` of the devices one, two and
    three places to its left: `((x0 + x1) + x2) + x3`, each of `x1`, `x2`, `x3` narrowed and widened on the way. -/
def outTerm (x0 x1 x2 x3 : Vec F S512x512 .f32) : FVec F S512x512 .f32 :=
  k0_pay1 (k0_pay5 (k0_pay4 (k0_pay3 x0) (k0_pay2 x1)) (k0_pay2 x2)) (k0_pay2 x3)

/-- The result of device `c` from the initial memory `m`: `outTerm` of the argument blocks of `c` and of the
    three devices to its left on the ring. -/
def resultOf (m : (ℓ : Loc nD τ sig) → Buf (Elt F) ℓ) (c : Dev nD) :
    Buf (Elt F) ((c.tc : Thread nD τ).loc main_v1) :=
  outTerm (m ((c.tc : Thread nD τ).loc main_arg0))
    (m (((Ring.prv c).tc : Thread nD τ).loc main_arg0))
    (m (((Ring.prv (Ring.prv c)).tc : Thread nD τ).loc main_arg0))
    (m (((Ring.prv (Ring.prv (Ring.prv c))).tc : Thread nD τ).loc main_arg0))

end Cert.Kernel.RingValue

end
-- ==== Proof.Bits.Proto.lean ====
/-
  The ring all-reduce on the second mesh axis, as a protocol over semaphore cells.

  Each device first tells both ring neighbours that it is inside the kernel (one unit on each neighbour's barrier
  semaphore) and waits for the two units it is sent. Its communication buffer has four slots. Slot 0 receives the
  device's own block in the narrow format; in step h = 0, 1, 2 the device copies slot h into slot h + 1 of its right
  neighbour, waits for the copy to have left (send cell h) and for the left neighbour's copy to have arrived
  (receive cell h + 1), and adds slot h + 1 to its result. So slot k of device c ends holding the block of the device
  k places to the left of c.

  The cells of one device: its barrier cell, two duties of one unit (false: paid by the left neighbour, hands over
  nothing; true: paid by the right neighbour, hands over that neighbour's three landing slots); its send cells 0, 1, 2,
  one duty each, handing the source slot back unchanged; its receive cells 1, 2, 3, one duty each, handing over the
  landing slot at the sender's contents. Everything happens in round 0.
-/
import proofs.«900729_g7700000000000730_dist_ar_v7x_xyz2x4x4_y_m512_n512_bf16_1_alg».proof.Proof.Bits.Spec
import proofs.«900729_g7700000000000730_dist_ar_v7x_xyz2x4x4_y_m512_n512_bf16_1_alg».proof.Proof.Gen.Kernel.Launch
import proofs.«900729_g7700000000000730_dist_ar_v7x_xyz2x4x4_y_m512_n512_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's copy and the ring's (duties named by a Boolean) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs, the slots of the communication buffer, the semaphores and the cells -/

abbrev xM : Memref sig .tc .vmem S512x512 .f32 := Memref.whole cc0_stg0_0
abbrev oM : Memref sig .tc .vmem S512x512 .f32 := Memref.whole cc0_stg1_0
abbrev cM : Memref sig .tc .vmem S4x512x512 .bf16 := Memref.whole cc0_scratch0

/-- Slot 0 of the communication buffer: rows [0, 0 + 1) of its first axis, as a rectangle, -/
abbrev rk0 : Rect S4x512x512 := Rect.unit (s := S4x512x512) ![0, 0, 0] S1x512x512.size inb_S4x512x512_S1x512x512_0_0_0
/-- as the view a load or a store goes through, -/
abbrev sv0 : View sig .tc .vmem S1x512x512 .bf16 := (View.whole cc0_scratch0).slice rk0
/-- and as the memref a transfer names (the slot with its unit axis dropped). -/
abbrev dM0 : Memref sig .tc .vmem S512x512 .bf16 := (cM.slice rk0 (fun _ => rfl)).squeeze S512x512 squeezes_S1x512x512_S512x512
/-- Slot 1 of the communication buffer: rows [1, 1 + 1) of its first axis, as a rectangle, -/
abbrev rk1 : Rect S4x512x512 := Rect.unit (s := S4x512x512) ![1, 0, 0] S1x512x512.size inb_S4x512x512_S1x512x512_1_0_0
/-- as the view a load or a store goes through, -/
abbrev sv1 : View sig .tc .vmem S1x512x512 .bf16 := (View.whole cc0_scratch0).slice rk1
/-- and as the memref a transfer names (the slot with its unit axis dropped). -/
abbrev dM1 : Memref sig .tc .vmem S512x512 .bf16 := (cM.slice rk1 (fun _ => rfl)).squeeze S512x512 squeezes_S1x512x512_S512x512
/-- Slot 2 of the communication buffer: rows [2, 2 + 1) of its first axis, as a rectangle, -/
abbrev rk2 : Rect S4x512x512 := Rect.unit (s := S4x512x512) ![2, 0, 0] S1x512x512.size inb_S4x512x512_S1x512x512_2_0_0
/-- as the view a load or a store goes through, -/
abbrev sv2 : View sig .tc .vmem S1x512x512 .bf16 := (View.whole cc0_scratch0).slice rk2
/-- and as the memref a transfer names (the slot with its unit axis dropped). -/
abbrev dM2 : Memref sig .tc .vmem S512x512 .bf16 := (cM.slice rk2 (fun _ => rfl)).squeeze S512x512 squeezes_S1x512x512_S512x512
/-- Slot 3 of the communication buffer: rows [3, 3 + 1) of its first axis, as a rectangle, -/
abbrev rk3 : Rect S4x512x512 := Rect.unit (s := S4x512x512) ![3, 0, 0] S1x512x512.size inb_S4x512x512_S1x512x512_3_0_0
/-- as the view a load or a store goes through, -/
abbrev sv3 : View sig .tc .vmem S1x512x512 .bf16 := (View.whole cc0_scratch0).slice rk3
/-- and as the memref a transfer names (the slot with its unit axis dropped). -/
abbrev dM3 : Memref sig .tc .vmem S512x512 .bf16 := (cM.slice rk3 (fun _ => rfl)).squeeze S512x512 squeezes_S1x512x512_S512x512

/-- The communication buffer of device `c`. -/
abbrev cLoc (c : Dev nD) : Loc nD τ sig := (c : Thread nD τ).loc cc0_scratch0

/-- The runtime's barrier semaphore of collective id 0 (unscoped); the send semaphores 0, 1, 2 and the receive
    semaphores 1, 2, 3 (scoped scratch). -/
abbrev barS : Sem sig := (SemArray.scalar (sig.barrier 0 rfl) : Sems sig S_).sem
abbrev snd0 : DmaSem sig := 2
abbrev snd1 : DmaSem sig := 3
abbrev snd2 : DmaSem sig := 4
abbrev rcv1 : DmaSem sig := 7
abbrev rcv2 : DmaSem sig := 8
abbrev rcv3 : DmaSem sig := 9

abbrev barCell (c : Dev nD) : GSem nD τ sig := ((c : Thread nD τ), .reg barS)
abbrev dCell (c : Dev nD) (q : DmaSem sig) : GSem nD τ sig := ((c : Thread nD τ), .dma q)

/-- The kernel's OWN (scoped) semaphores the protocol uses, as the launch theorem indexes them; -/
abbrev osem : Fin 6 → SemLoc sig := fun | 0 => .dma snd0 | 1 => .dma snd1 | 2 => .dma snd2 | 3 => .dma rcv1 | 4 => .dma rcv2 | 5 => .dma rcv3
/-- all seven of the ring's, as this proof indexes them: the barrier first. -/
abbrev csem : Fin 7 → SemLoc sig := fun | 0 => .reg barS | 1 => .dma snd0 | 2 => .dma snd1 | 3 => .dma snd2 | 4 => .dma rcv1 | 5 => .dma rcv2 | 6 => .dma rcv3
abbrev kcell (ck : Dev nD × Fin 7) : GSem nD τ sig := ((ck.1 : Thread nD τ), csem ck.2)

/-- The credit of one slot's transfer. -/
abbrev N : ℕ := (dM0 : Memref sig .tc .vmem S512x512 .bf16).view.dmaCredit
theorem N_pos : 0 < N := View.dmaCredit_pos _ (by decide)

/-! ## Contents -/

/-- Device `c`'s block of the argument, as its staging buffer holds it. -/
def xstg (c : Dev nD) : (cc0_stg0_0 : Ref sig .tc).ty.Contents (Elt F) :=
  (win0_0.blk (0 : Fin 1)).view.read (Elt F) ((s₀ m ρ).mem ((c : Thread nD τ).loc main_arg0))

/-- What device `c` puts into slot 0: its block in the narrow format. -/
def cm (c : Dev nD) : S1x512x512.Idx → Elt F .bf16 := k0_pay2 (xstg m ρ c)

/-- The running result of device `c` after 0, 1, 2 and 3 additions. -/
def acc0 (c : Dev nD) : (cc0_stg1_0 : Ref sig .tc).ty.Contents (Elt F) := k0_pay3 (xstg m ρ c)
def acc1 (c : Dev nD) : (cc0_stg1_0 : Ref sig .tc).ty.Contents (Elt F) := k0_pay4 (acc0 m ρ c) (cm m ρ (prv c))
def acc2 (c : Dev nD) : (cc0_stg1_0 : Ref sig .tc).ty.Contents (Elt F) := k0_pay5 (acc1 m ρ c) (cm m ρ (prv (prv c)))
def acc3 (c : Dev nD) : (cc0_stg1_0 : Ref sig .tc).ty.Contents (Elt F) := k0_pay1 (acc2 m ρ c) (cm m ρ (prv (prv (prv c))))

theorem acc3_eq (c : Dev nD) : acc3 m ρ c = outTerm (xstg m ρ c) (xstg m ρ (prv c)) (xstg m ρ (prv (prv c))) (xstg m ρ (prv (prv (prv c)))) := rfl

/-- Slot 0 of device `c` held outright, reading `w`; -/
def slot0 (c : Dev nD) (w : S1x512x512.Idx → Elt F .bf16) : sProp 𝕄 :=
  iprop(∃ f : Buf (Elt F) (cLoc c), ⌜sv0.read (Elt F) f = w⌝ ∗ (cLoc c ↦[sv0.set]{fullShare} f))
/-- at whatever contents. -/
def any0 (c : Dev nD) : sProp 𝕄 := iprop(∃ f : Buf (Elt F) (cLoc c), (cLoc c ↦[sv0.set]{fullShare} f))
omit [FloatOps F] in
instance slot0_storable (c : Dev nD) (w) : BI.Storable (upEmb : UEmb _ 𝕄) (slot0 (F := F) c w) := by unfold slot0; infer_instance
omit [FloatOps F] in
instance any0_storable (c : Dev nD) : BI.Storable (upEmb : UEmb _ 𝕄) (any0 (F := F) c) := by unfold any0; infer_instance
/-- Slot 1 of device `c` held outright, reading `w`; -/
def slot1 (c : Dev nD) (w : S1x512x512.Idx → Elt F .bf16) : sProp 𝕄 :=
  iprop(∃ f : Buf (Elt F) (cLoc c), ⌜sv1.read (Elt F) f = w⌝ ∗ (cLoc c ↦[sv1.set]{fullShare} f))
/-- at whatever contents. -/
def any1 (c : Dev nD) : sProp 𝕄 := iprop(∃ f : Buf (Elt F) (cLoc c), (cLoc c ↦[sv1.set]{fullShare} f))
omit [FloatOps F] in
instance slot1_storable (c : Dev nD) (w) : BI.Storable (upEmb : UEmb _ 𝕄) (slot1 (F := F) c w) := by unfold slot1; infer_instance
omit [FloatOps F] in
instance any1_storable (c : Dev nD) : BI.Storable (upEmb : UEmb _ 𝕄) (any1 (F := F) c) := by unfold any1; infer_instance
/-- Slot 2 of device `c` held outright, reading `w`; -/
def slot2 (c : Dev nD) (w : S1x512x512.Idx → Elt F .bf16) : sProp 𝕄 :=
  iprop(∃ f : Buf (Elt F) (cLoc c), ⌜sv2.read (Elt F) f = w⌝ ∗ (cLoc c ↦[sv2.set]{fullShare} f))
/-- at whatever contents. -/
def any2 (c : Dev nD) : sProp 𝕄 := iprop(∃ f : Buf (Elt F) (cLoc c), (cLoc c ↦[sv2.set]{fullShare} f))
omit [FloatOps F] in
instance slot2_storable (c : Dev nD) (w) : BI.Storable (upEmb : UEmb _ 𝕄) (slot2 (F := F) c w) := by unfold slot2; infer_instance
omit [FloatOps F] in
instance any2_storable (c : Dev nD) : BI.Storable (upEmb : UEmb _ 𝕄) (any2 (F := F) c) := by unfold any2; infer_instance
/-- Slot 3 of device `c` held outright, reading `w`; -/
def slot3 (c : Dev nD) (w : S1x512x512.Idx → Elt F .bf16) : sProp 𝕄 :=
  iprop(∃ f : Buf (Elt F) (cLoc c), ⌜sv3.read (Elt F) f = w⌝ ∗ (cLoc c ↦[sv3.set]{fullShare} f))
/-- at whatever contents. -/
def any3 (c : Dev nD) : sProp 𝕄 := iprop(∃ f : Buf (Elt F) (cLoc c), (cLoc c ↦[sv3.set]{fullShare} f))
omit [FloatOps F] in
instance slot3_storable (c : Dev nD) (w) : BI.Storable (upEmb : UEmb _ 𝕄) (slot3 (F := F) c w) := by unfold slot3; infer_instance
omit [FloatOps F] in
instance any3_storable (c : Dev nD) : BI.Storable (upEmb : UEmb _ 𝕄) (any3 (F := F) c) := by unfold any3; infer_instance

def xPts (c : Dev nD) : sProp 𝕄 :=
  (xM : Memref sig .tc .vmem S512x512 .f32).view.loc (c : Thread nD τ) ↦[(xM : Memref sig .tc .vmem S512x512 .f32).view.set]{fullShare} xstg m ρ c

/-! ## The schedule -/

/-- What the right neighbour's signal (duty `true` of `c`'s barrier cell) hands `c`: that neighbour's three landing slots. -/
def barPay (c : Dev nD) : sProp 𝕄 := iprop(any1 (nxt c) ∗ any2 (nxt c) ∗ any3 (nxt c))

/-- What a landing on a transfer cell of `c` hands its owner: the source slot back (send cells), the landing slot at
    the block of the device that many places to the left (receive cells). -/
def xferPay (c : Dev nD) (q : DmaSem sig) : sProp 𝕄 :=
  if q = snd0 then slot0 c (cm m ρ c)
  else if q = snd1 then slot1 c (cm m ρ (prv c))
  else if q = snd2 then slot2 c (cm m ρ (prv (prv c)))
  else if q = rcv1 then slot1 c (cm m ρ (prv c))
  else if q = rcv2 then slot2 c (cm m ρ (prv (prv c)))
  else if q = rcv3 then slot3 c (cm m ρ (prv (prv (prv c))))
  else iprop(emp)

/-- The transfer semaphores the protocol uses. -/
def used (q : DmaSem sig) : Prop := q = snd0 ∨ q = snd1 ∨ q = snd2 ∨ q = rcv1 ∨ q = rcv2 ∨ q = rcv3
instance (q : DmaSem sig) : Decidable (used q) := by unfold used; infer_instance

/-- One round, round 0: a barrier cell has the two duties of one unit each; a used transfer cell the duty `false`
    of the slot's credit. -/
def ringRd : Rounds.Schedule (GSem nD τ sig) Bool 𝕄 where
  duties g r := if r = 0 ∧ g.1.2 = .tc then (match g.2 with | .reg _ => Finset.univ | .dma q => if used q then {false} else ∅) else ∅
  unitless _ := False
  amount g _ _ := match g.2 with | .reg _ => 1 | .dma _ => N
  payload g _ d := match g.2 with
    | .reg _ => if d then barPay g.1.1 else iprop(emp)
    | .dma q => xferPay m ρ g.1.1 q
  amount_pos g _ _ _ := by
    rcases g with ⟨t, sm⟩
    cases sm with
    | reg _ => exact Nat.one_pos
    | dma _ => exact N_pos

omit [FloatOps F] in
instance ringRd_payload_storable (g : GSem nD τ sig) (r : ℕ) (d : Bool) :
    BI.Storable (upEmb : UEmb _ 𝕄) ((ringRd (F := F) m ρ).payload g r d) := by
  rcases g with ⟨t, sm⟩
  cases sm with
  | reg _ =>
    show BI.Storable upEmb (if d then barPay t.1 else iprop(emp))
    unfold barPay; split <;> infer_instance
  | dma q =>
    show BI.Storable upEmb (xferPay m ρ t.1 q)
    unfold xferPay; (repeat' split) <;> infer_instance

/-! ## The schedule's table, cell by cell -/

section Sched
variable (c : Dev nD)

theorem used_snd0 : used snd0 := .inl rfl
theorem used_snd1 : used snd1 := .inr (.inl rfl)
theorem used_snd2 : used snd2 := .inr (.inr (.inl rfl))
theorem used_rcv1 : used rcv1 := .inr (.inr (.inr (.inl rfl)))
theorem used_rcv2 : used rcv2 := .inr (.inr (.inr (.inr (.inl rfl))))
theorem used_rcv3 : used rcv3 := .inr (.inr (.inr (.inr (.inr rfl))))

theorem duties_bar : (ringRd (F := F) m ρ).duties (barCell c) 0 = Finset.univ := by dsimp only [ringRd]; rw [if_pos ⟨rfl, rfl⟩]
theorem duties_used (q : DmaSem sig) (hq : used q) : (ringRd (F := F) m ρ).duties (dCell c q) 0 = {false} := by
  dsimp only [ringRd]; rw [if_pos ⟨rfl, rfl⟩, if_pos hq]
theorem duties_later (g : GSem nD τ sig) : ∀ r, 1 ≤ r → (ringRd (F := F) m ρ).duties g r = ∅ :=
  fun r hr => by dsimp only [ringRd]; rw [if_neg fun h => by omega]

theorem amount_bar (d : Bool) : (ringRd (F := F) m ρ).amount (barCell c) 0 d = 1 := rfl
theorem amount_dma (q : DmaSem sig) (d : Bool) : (ringRd (F := F) m ρ).amount (dCell c q) 0 d = N := rfl

theorem expect_bar : (ringRd (F := F) m ρ).expect (barCell c) 0 = 2 := by
  unfold Schedule.expect Schedule.amountOf
  rw [duties_bar, Finset.sum_congr rfl fun d _ => amount_bar m ρ c d, Finset.sum_const, Finset.card_univ, Fintype.card_bool, smul_eq_mul]
theorem expect_used (q : DmaSem sig) (hq : used q) : (ringRd (F := F) m ρ).expect (dCell c q) 0 = N := by
  unfold Schedule.expect Schedule.amountOf; rw [duties_used m ρ c q hq, Finset.sum_singleton, amount_dma]

theorem payload_bar_true : (ringRd (F := F) m ρ).payload (barCell c) 0 true = barPay c := rfl
theorem payload_bar_false : (ringRd (F := F) m ρ).payload (barCell c) 0 false = iprop(emp) := rfl
theorem payload_dma (q : DmaSem sig) (d : Bool) : (ringRd (F := F) m ρ).payload (dCell c q) 0 d = xferPay m ρ c q := rfl
theorem xferPay_snd0 : xferPay (F := F) m ρ c snd0 = slot0 c (cm m ρ c) := by
  unfold xferPay; rw [if_pos rfl]
theorem xferPay_snd1 : xferPay (F := F) m ρ c snd1 = slot1 c (cm m ρ (prv c)) := by
  unfold xferPay; rw [if_neg (by decide), if_pos rfl]
theorem xferPay_snd2 : xferPay (F := F) m ρ c snd2 = slot2 c (cm m ρ (prv (prv c))) := by
  unfold xferPay; rw [if_neg (by decide), if_neg (by decide), if_pos rfl]
theorem xferPay_rcv1 : xferPay (F := F) m ρ c rcv1 = slot1 c (cm m ρ (prv c)) := by
  unfold xferPay; rw [if_neg (by decide), if_neg (by decide), if_neg (by decide), if_pos rfl]
theorem xferPay_rcv2 : xferPay (F := F) m ρ c rcv2 = slot2 c (cm m ρ (prv (prv c))) := by
  unfold xferPay; rw [if_neg (by decide), if_neg (by decide), if_neg (by decide), if_neg (by decide), if_pos rfl]
theorem xferPay_rcv3 : xferPay (F := F) m ρ c rcv3 = slot3 c (cm m ρ (prv (prv (prv c)))) := by
  unfold xferPay; rw [if_neg (by decide), if_neg (by decide), if_neg (by decide), if_neg (by decide), if_neg (by decide), if_pos rfl]

/-- The rest of the barrier cell's round, no duty taken: nothing and the right neighbour's payload. -/
theorem rest_bar : bigSep ((ringRd (F := F) m ρ).duties (barCell c) 0 \ ∅) (fun d => (ringRd (F := F) m ρ).payload (barCell c) 0 d) = iprop(emp ∗ barPay c) := by
  rw [Finset.sdiff_empty, duties_bar, bigSep_univ_eq_bigSepL [false, true] (by decide) (by decide), bigSepL_cons_cons, bigSepL_singleton,
    payload_bar_false, payload_bar_true]
  rfl
/-- The rest of a used transfer cell's round: its one payload. -/
theorem rest_used (q : DmaSem sig) (hq : used q) :
    bigSep ((ringRd (F := F) m ρ).duties (dCell c q) 0 \ ∅) (fun d => (ringRd (F := F) m ρ).payload (dCell c q) 0 d) = xferPay m ρ c q := by
  rw [Finset.sdiff_empty, duties_used m ρ c q hq, bigSep_singleton, payload_dma]

end Sched

/-! ## What each core owes at launch; the levels -/

/-- Device `c` owes its right neighbour's receive cells 3, 2, 1 a slot's credit each (its three transfers), then that
    neighbour's barrier cell a unit (its second signal), then its left neighbour's barrier cell a unit (its first). The
    sums are written so that each payment peels the last summand. -/
def O₃ (c : Dev nD) : CellTallies nD τ sig Unit := tallyAt (dCell (nxt c) rcv3) () N
def O₂ (c : Dev nD) : CellTallies nD τ sig Unit := O₃ c + tallyAt (dCell (nxt c) rcv2) () N
def O₁ (c : Dev nD) : CellTallies nD τ sig Unit := O₂ c + tallyAt (dCell (nxt c) rcv1) () N
def Ob (c : Dev nD) : CellTallies nD τ sig Unit := O₁ c + tallyAt (barCell (nxt c)) () 1
def O₀ (c : Dev nD) : CellTallies nD τ sig Unit := Ob c + tallyAt (barCell (prv c)) () 1

def L (g : GSem nD τ sig) : Finset Unit := if g.1.2 = .tc then {()} else ∅
/-- Barrier cells at 1, receive cells 1, 2, 3 at 2, 3, 4, everything else (staging, send) at 0: a device waits on its
    barrier owing receive credits only, and on receive cell k owing only receive cells above k. -/
def lv (g : GSem nD τ sig) (_ : Unit) : ℕ := match g.2 with
  | .reg _ => 1
  | .dma q => if q = rcv1 then 2 else if q = rcv2 then 3 else if q = rcv3 then 4 else 0

theorem L_of_ne (g : GSem nD τ sig) (h : g.1.2 ≠ .tc) : L g = ∅ := if_neg h
theorem L_tc (c : Dev nD) (sm : SemLoc sig) : L ((c : Thread nD τ), sm) = {()} := if_pos rfl
theorem mem_L_tc (c : Dev nD) (sm : SemLoc sig) : () ∈ L ((c : Thread nD τ), sm) := by rw [L_tc]; exact Finset.mem_singleton_self _

theorem tally_pos {g g' : GSem nD τ sig} {k : ℕ} {u : Unit} (h : 0 < (tallyAt g () k : CellTallies nD τ sig Unit) g' u) : g' = g := by
  rw [tallyAt_apply] at h
  by_contra hn
  rw [if_neg (fun h' => hn h'.1)] at h
  exact Nat.lt_irrefl 0 h

theorem O₃_pos {c : Dev nD} {g : GSem nD τ sig} {u : Unit} (h : 0 < O₃ c g u) : g = dCell (nxt c) rcv3 := tally_pos h
theorem O₂_pos {c : Dev nD} {g : GSem nD τ sig} {u : Unit} (h : 0 < O₂ c g u) : g = dCell (nxt c) rcv3 ∨ g = dCell (nxt c) rcv2 :=
  (Pipeline.add_pos_cases h).imp O₃_pos tally_pos
theorem O₁_pos {c : Dev nD} {g : GSem nD τ sig} {u : Unit} (h : 0 < O₁ c g u) :
    g = dCell (nxt c) rcv3 ∨ g = dCell (nxt c) rcv2 ∨ g = dCell (nxt c) rcv1 := by
  rcases Pipeline.add_pos_cases h with h | h
  · exact (O₂_pos h).imp id Or.inl
  · exact .inr (.inr (tally_pos h))
theorem O₀_pos {c : Dev nD} {g : GSem nD τ sig} {u : Unit} (h : 0 < O₀ c g u) :
    g = dCell (nxt c) rcv3 ∨ g = dCell (nxt c) rcv2 ∨ g = dCell (nxt c) rcv1 ∨ g = barCell (nxt c) ∨ g = barCell (prv c) := by
  rcases Pipeline.add_pos_cases h with h | h
  · rcases Pipeline.add_pos_cases h with h | h
    · rcases O₁_pos h with h | h | h
      · exact .inl h
      · exact .inr (.inl h)
      · exact .inr (.inr (.inl h))
    · exact .inr (.inr (.inr (.inl (tally_pos h))))
  · exact .inr (.inr (.inr (.inr (tally_pos h))))

/-- A staging cell or a send cell (level 0) may be waited on whatever of `O₀` is still owed. -/
theorem mayWait_low (c : Dev nD) (q : DmaSem sig) (hq : q ≠ rcv1 ∧ q ≠ rcv2 ∧ q ≠ rcv3) (O : CellTallies nD τ sig Unit)
    (hO : ∀ g u, 0 < O g u → 0 < O₀ c g u) :
    (levAts L lv : sProp 𝕄) ⊢ MayWait (c : Thread nD τ) (.dma q) () O :=
  Pipeline.mayWait_of_levAts (mem_L_tc c _) fun g u hg => by
    have h0 : lv ((c : Thread nD τ), .dma q) () = 0 := by dsimp only [lv]; rw [if_neg hq.1, if_neg hq.2.1, if_neg hq.2.2]
    rw [h0]
    rcases O₀_pos (hO g u hg) with rfl | rfl | rfl | rfl | rfl <;> exact ⟨mem_L_tc _ _, by simp [lv] <;> decide⟩

theorem mayWait_stage (c : Dev nD) (q : DmaSem sig) (hq : q ≠ rcv1 ∧ q ≠ rcv2 ∧ q ≠ rcv3) (O : CellTallies nD τ sig Unit) (hO : O = O₀ c ∨ O = 0) :
    (levAts L lv : sProp 𝕄) ⊢ MayWait (c : Thread nD τ) (.dma q) () O := by
  rcases hO with rfl | rfl
  · exact mayWait_low c q hq _ fun _ _ h => h
  · rw [MayWait_zero]; iintro -; iempintro

theorem O₁_le_O₀ {c : Dev nD} {g : GSem nD τ sig} {u : Unit} (h : 0 < O₁ c g u) : 0 < O₀ c g u := by
  unfold O₀ Ob; rw [Pi.add_apply, Finsupp.add_apply, Pi.add_apply, Finsupp.add_apply]; omega
theorem O₂_le_O₁ {c : Dev nD} {g : GSem nD τ sig} {u : Unit} (h : 0 < O₂ c g u) : 0 < O₁ c g u := by
  unfold O₁; rw [Pi.add_apply, Finsupp.add_apply]; omega
theorem O₃_le_O₂ {c : Dev nD} {g : GSem nD τ sig} {u : Unit} (h : 0 < O₃ c g u) : 0 < O₂ c g u := by
  unfold O₂; rw [Pi.add_apply, Finsupp.add_apply]; omega

/-- At its barrier wait a device owes its right neighbour's three receive credits: all above a barrier cell. -/
theorem mayWait_bar (c : Dev nD) : (levAts L lv : sProp 𝕄) ⊢ MayWait (c : Thread nD τ) (.reg barS) () (O₁ c) :=
  Pipeline.mayWait_of_levAts (mem_L_tc c _) fun g u hg => by
    rcases O₁_pos hg with rfl | rfl | rfl <;> exact ⟨mem_L_tc _ _, by simp [lv] <;> decide⟩
/-- Waiting for the first landing it owes receive credits 3 and 2, -/
theorem mayWait_rcv1 (c : Dev nD) : (levAts L lv : sProp 𝕄) ⊢ MayWait (c : Thread nD τ) (.dma rcv1) () (O₂ c) :=
  Pipeline.mayWait_of_levAts (mem_L_tc c _) fun g u hg => by
    rcases O₂_pos hg with rfl | rfl <;> exact ⟨mem_L_tc _ _, by simp [lv] <;> decide⟩
/-- for the second receive credit 3. -/
theorem mayWait_rcv2 (c : Dev nD) : (levAts L lv : sProp 𝕄) ⊢ MayWait (c : Thread nD τ) (.dma rcv2) () (O₃ c) :=
  Pipeline.mayWait_of_levAts (mem_L_tc c _) fun g u hg => by
    rw [O₃_pos hg]; exact ⟨mem_L_tc _ _, by simp [lv] <;> decide⟩
theorem mayWait_snd0 (c : Dev nD) : (levAts L lv : sProp 𝕄) ⊢ MayWait (c : Thread nD τ) (.dma snd0) () (O₂ c) :=
  mayWait_low c snd0 (by decide) _ fun _ _ h => O₁_le_O₀ (O₂_le_O₁ h)
theorem mayWait_snd1 (c : Dev nD) : (levAts L lv : sProp 𝕄) ⊢ MayWait (c : Thread nD τ) (.dma snd1) () (O₃ c) :=
  mayWait_low c snd1 (by decide) _ fun _ _ h => O₁_le_O₀ (O₂_le_O₁ (O₃_le_O₂ h))

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The kernel's result on device `c`: its block plus the blocks of the three devices to its left, added in that order. -/
def outAt (c : Dev nD) : (cc0_stg1_0 : Ref sig .tc).ty.Contents (Elt F) := acc3 m ρ c

/-- The cells' invariants device `c`'s body opens, under the names `K` the launch allocated them at: its own seven, both
    neighbours' barrier cells (its signals), its right neighbour's three receive cells (its transfers). -/
def invs (K : Dev nD × Fin 7 → ℕ) (c : Dev nD) : sProp 𝕄 :=
  iprop(cellInv ER (ringRd m ρ) (K (c, 0)) (barCell c)
    ∗ cellInv ER (ringRd m ρ) (K (c, 1)) (dCell c snd0) ∗ cellInv ER (ringRd m ρ) (K (c, 2)) (dCell c snd1) ∗ cellInv ER (ringRd m ρ) (K (c, 3)) (dCell c snd2)
    ∗ cellInv ER (ringRd m ρ) (K (c, 4)) (dCell c rcv1) ∗ cellInv ER (ringRd m ρ) (K (c, 5)) (dCell c rcv2) ∗ cellInv ER (ringRd m ρ) (K (c, 6)) (dCell c rcv3)
    ∗ cellInv ER (ringRd m ρ) (K (nxt c, 0)) (barCell (nxt c)) ∗ cellInv ER (ringRd m ρ) (K (prv c, 0)) (barCell (prv c))
    ∗ cellInv ER (ringRd m ρ) (K (nxt c, 4)) (dCell (nxt c) rcv1) ∗ cellInv ER (ringRd m ρ) (K (nxt c, 5)) (dCell (nxt c) rcv2)
    ∗ cellInv ER (ringRd m ρ) (K (nxt c, 6)) (dCell (nxt c) rcv3))

instance invs_persistent (K : Dev nD × Fin 7 → ℕ) (c : Dev nD) : BI.Persistent (invs m ρ K c) := by unfold invs; infer_instance

/-- Device `c`'s positions at round 0 of its seven cells. -/
def poss (c : Dev nD) : sProp 𝕄 :=
  iprop(atPos ER (barCell c) 0 ∅ 0
    ∗ atPos ER (dCell c snd0) 0 ∅ 0 ∗ atPos ER (dCell c snd1) 0 ∅ 0 ∗ atPos ER (dCell c snd2) 0 ∅ 0
    ∗ atPos ER (dCell c rcv1) 0 ∅ 0 ∗ atPos ER (dCell c rcv2) 0 ∅ 0 ∗ atPos ER (dCell c rcv3) 0 ∅ 0)
/-- The reached-marks of the cells it pays: both neighbours' barrier cells, the right neighbour's receive cells, its own
    send cells. -/
def marks (c : Dev nD) : sProp 𝕄 :=
  iprop(reached ER (barCell (nxt c)) 0 ∗ reached ER (barCell (prv c)) 0
    ∗ reached ER (dCell (nxt c) rcv1) 0 ∗ reached ER (dCell (nxt c) rcv2) 0 ∗ reached ER (dCell (nxt c) rcv3) 0
    ∗ reached ER (dCell c snd0) 0 ∗ reached ER (dCell c snd1) 0 ∗ reached ER (dCell c snd2) 0)
instance marks_persistent (c : Dev nD) : BI.Persistent (marks (F := F) c) := by unfold marks; infer_instance
/-- The eight duty tokens it pays with. -/
def payToks (c : Dev nD) : sProp 𝕄 :=
  iprop(dutyTok ER (barCell (nxt c)) 0 false ∗ dutyTok ER (barCell (prv c)) 0 true
    ∗ dutyTok ER (dCell (nxt c) rcv1) 0 false ∗ dutyTok ER (dCell (nxt c) rcv2) 0 false ∗ dutyTok ER (dCell (nxt c) rcv3) 0 false
    ∗ dutyTok ER (dCell c snd0) 0 false ∗ dutyTok ER (dCell c snd1) 0 false ∗ dutyTok ER (dCell c snd2) 0 false)

/-- The ring's ghost state device `c` starts from. -/
def ghost (K : Dev nD × Fin 7 → ℕ) (c : Dev nD) : sProp 𝕄 :=
  iprop(invs m ρ K c ∗ poss c ∗ marks c ∗ payToks c)

/-- Its credit tokens at launch: its barrier's two units, its three receive cells' credits. -/
def creds0 (c : Dev nD) : sProp 𝕄 :=
  iprop(cred (tallyAt (barCell c) () 2) ∗ cred (tallyAt (dCell c rcv1) () N) ∗ cred (tallyAt (dCell c rcv2) () N) ∗ cred (tallyAt (dCell c rcv3) () N))

/-- What device `c`'s body starts from: the ghost state at some names, the credit tokens and the level facts. -/
def start (c : Dev nD) : sProp 𝕄 :=
  iprop((∃ K, ghost m ρ K c) ∗ creds0 c ∗ levAts L lv)

/-- The communication buffer whole, at whatever contents. -/
def commAny (c : Dev nD) : sProp 𝕄 := iprop(∃ f : Buf (Elt F) (cLoc c), (cLoc c ↦{fullShare} f))
/-- The six own cells at zero, closed. -/
def ownZero (c : Dev nD) : sProp 𝕄 :=
  iprop(semVal (dCell c snd0) 0 ∗ semVal (dCell c snd1) 0 ∗ semVal (dCell c snd2) 0
    ∗ semVal (dCell c rcv1) 0 ∗ semVal (dCell c rcv2) 0 ∗ semVal (dCell c rcv3) 0)

def Φ₀ (c : Dev nD) : sProp 𝕄 := iprop(start m ρ c ∗ commAny c)
/-- After the point: the communication buffer whole again, the six own cells at zero, closed (the barrier cell is the
    runtime's: nothing to hand back). -/
def Φ₁ (c : Dev nD) : sProp 𝕄 := iprop(commAny c ∗ ownZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

abbrev 𝒱₀ : Variants := Variants.none

theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer of device `c` held whole, reading `X`. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

end Cert.Kernel.RingProof

end
-- ==== Proof.Bits.Slots.lean ====
/-
  The geometry of the communication buffer's four slots: slot k is the rectangle of rows [k, k + 1) of the first
  axis, so the four are pairwise disjoint and together are the whole buffer; a transfer names a slot with its unit axis
  dropped, which covers the same elements; what a transfer between two slots lands reads, through the landing slot, as
  the source slot reads.
-/
import proofs.«900729_g7700000000000730_dist_ar_v7x_xyz2x4x4_y_m512_n512_bf16_1_alg».proof.Proof.Bits.Proto

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## The slots' element sets -/

theorem sv0_set : (sv0).set = rk0.set := View.set_slice_whole _ _
theorem dM0_set : (dM0 : Memref sig .tc .vmem S512x512 .bf16).view.set = (sv0).set :=
  View.set_reshape (v := sv0) (s' := S512x512) squeezes_S1x512x512_S512x512.numel_eq
theorem sv1_set : (sv1).set = rk1.set := View.set_slice_whole _ _
theorem dM1_set : (dM1 : Memref sig .tc .vmem S512x512 .bf16).view.set = (sv1).set :=
  View.set_reshape (v := sv1) (s' := S512x512) squeezes_S1x512x512_S512x512.numel_eq
theorem sv2_set : (sv2).set = rk2.set := View.set_slice_whole _ _
theorem dM2_set : (dM2 : Memref sig .tc .vmem S512x512 .bf16).view.set = (sv2).set :=
  View.set_reshape (v := sv2) (s' := S512x512) squeezes_S1x512x512_S512x512.numel_eq
theorem sv3_set : (sv3).set = rk3.set := View.set_slice_whole _ _
theorem dM3_set : (dM3 : Memref sig .tc .vmem S512x512 .bf16).view.set = (sv3).set :=
  View.set_reshape (v := sv3) (s' := S512x512) squeezes_S1x512x512_S512x512.numel_eq

theorem disj01 : Disjoint (sv0).set (sv1).set := by
  rw [sv0_set, sv1_set]; exact Rect.unit_disjoint 0 (Or.inl (by decide))
theorem disj02 : Disjoint (sv0).set (sv2).set := by
  rw [sv0_set, sv2_set]; exact Rect.unit_disjoint 0 (Or.inl (by decide))
theorem disj03 : Disjoint (sv0).set (sv3).set := by
  rw [sv0_set, sv3_set]; exact Rect.unit_disjoint 0 (Or.inl (by decide))
theorem disj12 : Disjoint (sv1).set (sv2).set := by
  rw [sv1_set, sv2_set]; exact Rect.unit_disjoint 0 (Or.inl (by decide))
theorem disj13 : Disjoint (sv1).set (sv3).set := by
  rw [sv1_set, sv3_set]; exact Rect.unit_disjoint 0 (Or.inl (by decide))
theorem disj23 : Disjoint (sv2).set (sv3).set := by
  rw [sv2_set, sv3_set]; exact Rect.unit_disjoint 0 (Or.inl (by decide))

/-- Every element of the buffer lies in one of the four slots: its first coordinate is 0, 1, 2 or 3. -/
theorem cover (i : S4x512x512.Idx) : i ∈ (sv0).set ∨ i ∈ (sv1).set ∨ i ∈ (sv2).set ∨ i ∈ (sv3).set := by
  rw [sv0_set, sv1_set, sv2_set, sv3_set]
  simp only [Rect.mem_set_unit]
  have h0 : (i 0 : ℕ) < 4 := (i 0).isLt
  have h1 : (i 1 : ℕ) < 512 := (i 1).isLt
  have h2 : (i 2 : ℕ) < 512 := (i 2).isLt
  have key : ∀ k : ℕ, (i 0 : ℕ) = k → ∀ a : Fin 3, (![k, 0, 0] : Fin 3 → ℕ) a ≤ i a ∧ (i a : ℕ) < (![k, 0, 0] : Fin 3 → ℕ) a + S1x512x512.size a := by
    intro k hk a
    fin_cases a
    · exact ⟨by show k ≤ (i 0 : ℕ); omega, by show (i 0 : ℕ) < k + 1; omega⟩
    · exact ⟨Nat.zero_le _, by show (i 1 : ℕ) < 0 + 512; omega⟩
    · exact ⟨Nat.zero_le _, by show (i 2 : ℕ) < 0 + 512; omega⟩
  have : (i 0 : ℕ) = 0 ∨ (i 0 : ℕ) = 1 ∨ (i 0 : ℕ) = 2 ∨ (i 0 : ℕ) = 3 := by omega
  rcases this with h | h | h | h
  · exact .inl (key 0 h)
  · exact .inr (.inl (key 1 h))
  · exact .inr (.inr (.inl (key 2 h)))
  · exact .inr (.inr (.inr (key 3 h)))

/-! ## The buffer cut into its slots, and put together again -/

abbrev slotSet : Fin 4 → Finset S4x512x512.Idx := fun | 0 => (sv0).set | 1 => (sv1).set | 2 => (sv2).set | 3 => (sv3).set

theorem slotSet_disj : ∀ t ∈ (Finset.univ : Finset (Fin 4)), ∀ t' ∈ (Finset.univ : Finset (Fin 4)), t ≠ t' → Disjoint (slotSet t) (slotSet t') := by
  intro t _ t' _ h
  fin_cases t <;> fin_cases t' <;> first
    | exact absurd rfl h
    | exact disj01 | exact disj02 | exact disj03 | exact disj12 | exact disj13 | exact disj23
    | exact disj01.symm | exact disj02.symm | exact disj03.symm | exact disj12.symm | exact disj13.symm | exact disj23.symm

theorem slotSet_cover : (Finset.univ : Finset (Fin 4)).biUnion slotSet = Finset.univ := by
  ext i
  simp only [Finset.mem_biUnion, Finset.mem_univ, true_and, iff_true]
  rcases cover i with h | h | h | h
  · exact ⟨0, h⟩
  · exact ⟨1, h⟩
  · exact ⟨2, h⟩
  · exact ⟨3, h⟩

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- The whole buffer is its four slots, at the same contents. -/
theorem comm_split (c : Dev nD) (f : Buf (Elt F) (cLoc c)) :
    (cLoc c ↦{fullShare} f : sProp 𝕄)
      = iprop((cLoc c ↦[(sv0).set]{fullShare} f) ∗ (cLoc c ↦[(sv1).set]{fullShare} f) ∗ (cLoc c ↦[(sv2).set]{fullShare} f) ∗ (cLoc c ↦[(sv3).set]{fullShare} f)) := by
  have h := pointsTo_biUnion (Ix := Unit) (Val := Elt F) (Name := ℕ) (U := UU) (Lvl := ℕ) (ℓ := cLoc c) (q := fullShare) (f := f)
    (Finset.univ : Finset (Fin 4)) slotSet slotSet_disj
  rw [slotSet_cover, bigSep_fin4] at h
  exact h

omit [FloatOps F] in
/-- Four slots held at four contents are the whole buffer at some contents. -/
theorem comm_join (c : Dev nD) (f0 f1 f2 f3 : Buf (Elt F) (cLoc c)) :
    iprop((cLoc c ↦[(sv0).set]{fullShare} f0) ∗ (cLoc c ↦[(sv1).set]{fullShare} f1) ∗ (cLoc c ↦[(sv2).set]{fullShare} f2) ∗ (cLoc c ↦[(sv3).set]{fullShare} f3))
      ⊢ (commAny c : sProp 𝕄) := by
  have h := pointsTo_biUnion_join (Ix := Unit) (Val := Elt F) (Name := ℕ) (U := UU) (Lvl := ℕ) (ℓ := cLoc c) (q := fullShare)
    (Finset.univ : Finset (Fin 4)) slotSet (fun | 0 => f0 | 1 => f1 | 2 => f2 | 3 => f3) f0 slotSet_disj
  rw [slotSet_cover, bigSep_fin4] at h
  refine h.trans ?_
  unfold commAny
  iintro ⟨%g, -, H⟩
  iexists g
  iexact H

/-! ## Reading and writing through a slot -/

omit [FloatOps F] in
/-- A view with its axes regrouped reads the regrouped index. -/
theorem read_reshape {s s' : Shape} {e : EltTy} (v : View sig .tc .vmem s e) (h : s'.numel = s.numel) (f : v.ty.Contents (Elt F)) (y : s'.Idx) :
    (v.reshape s' h).read (Elt F) f y = v.read (Elt F) f (Shape.reshapeEquiv h y) := by
  rw [View.read_apply, View.read_apply]; simp

omit [FloatOps F] in
/-- What a transfer from one slot to another lands reads, through the landing slot, as the source slot reads:
    both ends drop the unit axis the same way. -/
theorem landed_read {s s' : Shape} {e : EltTy} (v v' : View sig .tc .vmem s e) (h : s'.numel = s.numel)
    (fs : v.ty.Contents (Elt F)) (fd : v'.ty.Contents (Elt F)) :
    v'.read (Elt F) ((v'.reshape s' h).write (Elt F) fd ((v.reshape s' h).read (Elt F) fs) Finset.univ) = v.read (Elt F) fs := by
  rw [View.write_reshape_univ, View.read_write_univ]
  funext x
  rw [read_reshape, Equiv.apply_symm_apply]

end Cert.Kernel.RingProof

end
-- ==== Proof.Bits.Steps.lean ====
/-
  The protocol's steps, each as one rule over the slots' assertions: the transfer of slot h into the right neighbour's
  slot h + 1 (the source slot and the landing slot handed to the two cells' invariants, a slot's credit taken off what
  the device owes and the send cell's credit received); the wait on a used transfer cell (the cell's payload comes with
  it: the source slot back unchanged, or the landing slot holding the block of the device that many places to the left);
  the loads and stores of the staging buffers and of the slots.
-/
import proofs.«900729_g7700000000000730_dist_ar_v7x_xyz2x4x4_y_m512_n512_bf16_1_alg».proof.Proof.Bits.Slots

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-! ## The semaphores the body names, and the slots' credit -/

theorem sndSem0 : ((cc0_scratch1.slice (Rect.unit (s := S4) ![0] S1.size inb_S4_S1_0)).squeeze S_ squeezes_S1_S_).sem = snd0 := rfl
theorem sndSem1 : ((cc0_scratch1.slice (Rect.unit (s := S4) ![1] S1.size inb_S4_S1_1)).squeeze S_ squeezes_S1_S_).sem = snd1 := rfl
theorem sndSem2 : ((cc0_scratch1.slice (Rect.unit (s := S4) ![2] S1.size inb_S4_S1_2)).squeeze S_ squeezes_S1_S_).sem = snd2 := rfl
theorem rcvSem1 : ((cc0_scratch2.slice (Rect.unit (s := S4) ![1] S1.size inb_S4_S1_1)).squeeze S_ squeezes_S1_S_).sem = rcv1 := rfl
theorem rcvSem2 : ((cc0_scratch2.slice (Rect.unit (s := S4) ![2] S1.size inb_S4_S1_2)).squeeze S_ squeezes_S1_S_).sem = rcv2 := rfl
theorem rcvSem3 : ((cc0_scratch2.slice (Rect.unit (s := S4) ![3] S1.size inb_S4_S1_3)).squeeze S_ squeezes_S1_S_).sem = rcv3 := rfl
theorem credit0 : (dM0 : Memref sig .tc .vmem S512x512 .bf16).view.dmaCredit = N := rfl
theorem credit1 : (dM1 : Memref sig .tc .vmem S512x512 .bf16).view.dmaCredit = N := rfl
theorem credit2 : (dM2 : Memref sig .tc .vmem S512x512 .bf16).view.dmaCredit = N := rfl
theorem credit3 : (dM3 : Memref sig .tc .vmem S512x512 .bf16).view.dmaCredit = N := rfl

/-! ## The transfers -/

/-- The source slot of step 0, as a transfer reads it, is the send cell's payload. -/
theorem src_pay0 (c : Dev nD) (fs : Buf (Elt F) (cLoc c)) (hfs : (sv0).read (Elt F) fs = cm m ρ c) :
    ((dM0 : Memref sig .tc .vmem S512x512 .bf16).view.loc (c : Thread nD τ) ↦[(dM0 : Memref sig .tc .vmem S512x512 .bf16).view.set]{fullShare} fs : sProp 𝕄)
      ⊢ (ringRd m ρ).payload (dCell c snd0) 0 false := by
  rw [payload_dma, xferPay_snd0, dM0_set]; unfold slot0
  iintro H; iexists fs
  isplitr; · ipureintro; exact hfs
  iexact H

/-- What step 0's transfer lands in the right neighbour's slot 1 is that neighbour's receive cell's payload. -/
theorem dst_pay0 (c : Dev nD) (fs : Buf (Elt F) (cLoc c)) (fd : Buf (Elt F) (cLoc (nxt c))) (hfs : (sv0).read (Elt F) fs = cm m ρ c) :
    ((dM1 : Memref sig .tc .vmem S512x512 .bf16).view.loc (nxt c : Thread nD τ) ↦[(dM1 : Memref sig .tc .vmem S512x512 .bf16).view.set]{fullShare}
        ((dM1 : Memref sig .tc .vmem S512x512 .bf16).view.write (Elt F) fd ((dM0 : Memref sig .tc .vmem S512x512 .bf16).view.read (Elt F) fs) Finset.univ) : sProp 𝕄)
      ⊢ (ringRd m ρ).payload (dCell (nxt c) rcv1) 0 false := by
  rw [payload_dma, xferPay_rcv1, prv_nxt, dM1_set]; unfold slot1
  iintro H; iexists _
  isplitr; · ipureintro; exact (landed_read sv0 sv1 squeezes_S1x512x512_S512x512.numel_eq fs fd).trans hfs
  iexact H

/-- The transfer of step 0: slot 0 of `c`, holding the block of the device 0 places to its left, into slot 1 of its right neighbour. -/
theorem wp_xfer0 (c n : Dev nD) (hn : n = nxt c)
    {hsc : (dM1 : Memref sig (Dev.tc n : Thread nD τ).2.kind .vmem S512x512 .bf16).view.ref.isScScratch = false}
    {hsrc : (dM0 : Memref sig .tc .vmem S512x512 .bf16).view.WordExact} {hdst : (dM1 : Memref sig .tc .vmem S512x512 .bf16).view.WordExact}
    {hsem : DmaTarget.Typed .vmem (.dma rcv1) (.remote (Dev.tc n : Thread nD τ) (dM1 : Memref sig .tc .vmem S512x512 .bf16) (.dma snd0) hsc)}
    {α : Type} {Q : α → sProp 𝕄} {k : PUnit → Prog (TpuEff nD τ sig (Elt F) Λ₀ .tc) α}
    (O : CellTallies nD τ sig Unit) (W : Waits sig Unit) :
    iprop(cellInv ER (ringRd m ρ) (K (c, 1)) (dCell c snd0) ∗ cellInv ER (ringRd m ρ) (K (nxt c, 4)) (dCell (nxt c) rcv1)
        ∗ slot0 c (cm m ρ c) ∗ any1 (nxt c)
        ∗ owes (c : Thread nD τ) (O + tallyAt (dCell (nxt c) rcv1) () N) W
        ∗ dutyTok ER (dCell c snd0) 0 false ∗ reached ER (dCell c snd0) 0
        ∗ dutyTok ER (dCell (nxt c) rcv1) 0 false ∗ reached ER (dCell (nxt c) rcv1) 0)
      ⊢ iprop(((cred (tallyAt (dCell c snd0) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dM0 (.remote (Dev.tc n : Thread nD τ) dM1 (.dma snd0) hsc) (.dma rcv1) hsrc hdst hsem) k) Q) := by
  subst hn
  unfold slot0 any1
  iintro ⟨#HI1, #HI2, ⟨%fs, %hfs, Hs⟩, ⟨%fd, Hd⟩, HO, Ht1, #Hr1, Ht2, #Hr2⟩
  have key := Rounds.wp_send_pointsTo (Ix := Unit) (Name := ℕ) (U := UU) (Lvl := ℕ) (defs := defs₀ (F := F)) 𝒱₀ ER (ringRd m ρ) (c : Thread nD τ) none
      (Γ := PendingWaitsCtx.empty)
      (c' := (nxt c : Thread nD τ)) (src := dM0) (dst := dM1) (hsc := hsc) (sS := .dma snd0) (sem := .dma rcv1) (hsrc := hsrc) (hdst := hdst) (hsem := hsem)
      (k := k) (q := fullShare) (Q := Q) (Es := Set.univ)
      (κ₁ := K (c, 1)) (κ₂ := K (nxt c, 4))
      (r₁ := 0) (r₂ := 0) (d₁ := false) (d₂ := false) (fs := fs) (fd := fd)
      (by rw [duties_used m ρ c snd0 used_snd0]; exact Finset.mem_singleton_self _)
      (by rw [duties_used m ρ (nxt c) rcv1 used_rcv1]; exact Finset.mem_singleton_self _)
      () () N credit1 (amount_dma m ρ c snd0 false) (amount_dma m ρ (nxt c) rcv1 false) O rfl (W := W)
      (src_pay0 m ρ c fs hfs) (dst_pay0 m ρ c fs fd hfs)
  rw [dM0_set, dM1_set] at key
  iapply key
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- The source slot of step 1, as a transfer reads it, is the send cell's payload. -/
theorem src_pay1 (c : Dev nD) (fs : Buf (Elt F) (cLoc c)) (hfs : (sv1).read (Elt F) fs = cm m ρ (prv c)) :
    ((dM1 : Memref sig .tc .vmem S512x512 .bf16).view.loc (c : Thread nD τ) ↦[(dM1 : Memref sig .tc .vmem S512x512 .bf16).view.set]{fullShare} fs : sProp 𝕄)
      ⊢ (ringRd m ρ).payload (dCell c snd1) 0 false := by
  rw [payload_dma, xferPay_snd1, dM1_set]; unfold slot1
  iintro H; iexists fs
  isplitr; · ipureintro; exact hfs
  iexact H

/-- What step 1's transfer lands in the right neighbour's slot 2 is that neighbour's receive cell's payload. -/
theorem dst_pay1 (c : Dev nD) (fs : Buf (Elt F) (cLoc c)) (fd : Buf (Elt F) (cLoc (nxt c))) (hfs : (sv1).read (Elt F) fs = cm m ρ (prv c)) :
    ((dM2 : Memref sig .tc .vmem S512x512 .bf16).view.loc (nxt c : Thread nD τ) ↦[(dM2 : Memref sig .tc .vmem S512x512 .bf16).view.set]{fullShare}
        ((dM2 : Memref sig .tc .vmem S512x512 .bf16).view.write (Elt F) fd ((dM1 : Memref sig .tc .vmem S512x512 .bf16).view.read (Elt F) fs) Finset.univ) : sProp 𝕄)
      ⊢ (ringRd m ρ).payload (dCell (nxt c) rcv2) 0 false := by
  rw [payload_dma, xferPay_rcv2, prv_nxt, dM2_set]; unfold slot2
  iintro H; iexists _
  isplitr; · ipureintro; exact (landed_read sv1 sv2 squeezes_S1x512x512_S512x512.numel_eq fs fd).trans hfs
  iexact H

/-- The transfer of step 1: slot 1 of `c`, holding the block of the device 1 places to its left, into slot 2 of its right neighbour. -/
theorem wp_xfer1 (c n : Dev nD) (hn : n = nxt c)
    {hsc : (dM2 : Memref sig (Dev.tc n : Thread nD τ).2.kind .vmem S512x512 .bf16).view.ref.isScScratch = false}
    {hsrc : (dM1 : Memref sig .tc .vmem S512x512 .bf16).view.WordExact} {hdst : (dM2 : Memref sig .tc .vmem S512x512 .bf16).view.WordExact}
    {hsem : DmaTarget.Typed .vmem (.dma rcv2) (.remote (Dev.tc n : Thread nD τ) (dM2 : Memref sig .tc .vmem S512x512 .bf16) (.dma snd1) hsc)}
    {α : Type} {Q : α → sProp 𝕄} {k : PUnit → Prog (TpuEff nD τ sig (Elt F) Λ₀ .tc) α}
    (O : CellTallies nD τ sig Unit) (W : Waits sig Unit) :
    iprop(cellInv ER (ringRd m ρ) (K (c, 2)) (dCell c snd1) ∗ cellInv ER (ringRd m ρ) (K (nxt c, 5)) (dCell (nxt c) rcv2)
        ∗ slot1 c (cm m ρ (prv c)) ∗ any2 (nxt c)
        ∗ owes (c : Thread nD τ) (O + tallyAt (dCell (nxt c) rcv2) () N) W
        ∗ dutyTok ER (dCell c snd1) 0 false ∗ reached ER (dCell c snd1) 0
        ∗ dutyTok ER (dCell (nxt c) rcv2) 0 false ∗ reached ER (dCell (nxt c) rcv2) 0)
      ⊢ iprop(((cred (tallyAt (dCell c snd1) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dM1 (.remote (Dev.tc n : Thread nD τ) dM2 (.dma snd1) hsc) (.dma rcv2) hsrc hdst hsem) k) Q) := by
  subst hn
  unfold slot1 any2
  iintro ⟨#HI1, #HI2, ⟨%fs, %hfs, Hs⟩, ⟨%fd, Hd⟩, HO, Ht1, #Hr1, Ht2, #Hr2⟩
  have key := Rounds.wp_send_pointsTo (Ix := Unit) (Name := ℕ) (U := UU) (Lvl := ℕ) (defs := defs₀ (F := F)) 𝒱₀ ER (ringRd m ρ) (c : Thread nD τ) none
      (Γ := PendingWaitsCtx.empty)
      (c' := (nxt c : Thread nD τ)) (src := dM1) (dst := dM2) (hsc := hsc) (sS := .dma snd1) (sem := .dma rcv2) (hsrc := hsrc) (hdst := hdst) (hsem := hsem)
      (k := k) (q := fullShare) (Q := Q) (Es := Set.univ)
      (κ₁ := K (c, 2)) (κ₂ := K (nxt c, 5))
      (r₁ := 0) (r₂ := 0) (d₁ := false) (d₂ := false) (fs := fs) (fd := fd)
      (by rw [duties_used m ρ c snd1 used_snd1]; exact Finset.mem_singleton_self _)
      (by rw [duties_used m ρ (nxt c) rcv2 used_rcv2]; exact Finset.mem_singleton_self _)
      () () N credit2 (amount_dma m ρ c snd1 false) (amount_dma m ρ (nxt c) rcv2 false) O rfl (W := W)
      (src_pay1 m ρ c fs hfs) (dst_pay1 m ρ c fs fd hfs)
  rw [dM1_set, dM2_set] at key
  iapply key
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-- The source slot of step 2, as a transfer reads it, is the send cell's payload. -/
theorem src_pay2 (c : Dev nD) (fs : Buf (Elt F) (cLoc c)) (hfs : (sv2).read (Elt F) fs = cm m ρ (prv (prv c))) :
    ((dM2 : Memref sig .tc .vmem S512x512 .bf16).view.loc (c : Thread nD τ) ↦[(dM2 : Memref sig .tc .vmem S512x512 .bf16).view.set]{fullShare} fs : sProp 𝕄)
      ⊢ (ringRd m ρ).payload (dCell c snd2) 0 false := by
  rw [payload_dma, xferPay_snd2, dM2_set]; unfold slot2
  iintro H; iexists fs
  isplitr; · ipureintro; exact hfs
  iexact H

/-- What step 2's transfer lands in the right neighbour's slot 3 is that neighbour's receive cell's payload. -/
theorem dst_pay2 (c : Dev nD) (fs : Buf (Elt F) (cLoc c)) (fd : Buf (Elt F) (cLoc (nxt c))) (hfs : (sv2).read (Elt F) fs = cm m ρ (prv (prv c))) :
    ((dM3 : Memref sig .tc .vmem S512x512 .bf16).view.loc (nxt c : Thread nD τ) ↦[(dM3 : Memref sig .tc .vmem S512x512 .bf16).view.set]{fullShare}
        ((dM3 : Memref sig .tc .vmem S512x512 .bf16).view.write (Elt F) fd ((dM2 : Memref sig .tc .vmem S512x512 .bf16).view.read (Elt F) fs) Finset.univ) : sProp 𝕄)
      ⊢ (ringRd m ρ).payload (dCell (nxt c) rcv3) 0 false := by
  rw [payload_dma, xferPay_rcv3, prv_nxt, dM3_set]; unfold slot3
  iintro H; iexists _
  isplitr; · ipureintro; exact (landed_read sv2 sv3 squeezes_S1x512x512_S512x512.numel_eq fs fd).trans hfs
  iexact H

/-- The transfer of step 2: slot 2 of `c`, holding the block of the device 2 places to its left, into slot 3 of its right neighbour. -/
theorem wp_xfer2 (c n : Dev nD) (hn : n = nxt c)
    {hsc : (dM3 : Memref sig (Dev.tc n : Thread nD τ).2.kind .vmem S512x512 .bf16).view.ref.isScScratch = false}
    {hsrc : (dM2 : Memref sig .tc .vmem S512x512 .bf16).view.WordExact} {hdst : (dM3 : Memref sig .tc .vmem S512x512 .bf16).view.WordExact}
    {hsem : DmaTarget.Typed .vmem (.dma rcv3) (.remote (Dev.tc n : Thread nD τ) (dM3 : Memref sig .tc .vmem S512x512 .bf16) (.dma snd2) hsc)}
    {α : Type} {Q : α → sProp 𝕄} {k : PUnit → Prog (TpuEff nD τ sig (Elt F) Λ₀ .tc) α}
    (O : CellTallies nD τ sig Unit) (W : Waits sig Unit) :
    iprop(cellInv ER (ringRd m ρ) (K (c, 3)) (dCell c snd2) ∗ cellInv ER (ringRd m ρ) (K (nxt c, 6)) (dCell (nxt c) rcv3)
        ∗ slot2 c (cm m ρ (prv (prv c))) ∗ any3 (nxt c)
        ∗ owes (c : Thread nD τ) (O + tallyAt (dCell (nxt c) rcv3) () N) W
        ∗ dutyTok ER (dCell c snd2) 0 false ∗ reached ER (dCell c snd2) 0
        ∗ dutyTok ER (dCell (nxt c) rcv3) 0 false ∗ reached ER (dCell (nxt c) rcv3) 0)
      ⊢ iprop(((cred (tallyAt (dCell c snd2) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma dM2 (.remote (Dev.tc n : Thread nD τ) dM3 (.dma snd2) hsc) (.dma rcv3) hsrc hdst hsem) k) Q) := by
  subst hn
  unfold slot2 any3
  iintro ⟨#HI1, #HI2, ⟨%fs, %hfs, Hs⟩, ⟨%fd, Hd⟩, HO, Ht1, #Hr1, Ht2, #Hr2⟩
  have key := Rounds.wp_send_pointsTo (Ix := Unit) (Name := ℕ) (U := UU) (Lvl := ℕ) (defs := defs₀ (F := F)) 𝒱₀ ER (ringRd m ρ) (c : Thread nD τ) none
      (Γ := PendingWaitsCtx.empty)
      (c' := (nxt c : Thread nD τ)) (src := dM2) (dst := dM3) (hsc := hsc) (sS := .dma snd2) (sem := .dma rcv3) (hsrc := hsrc) (hdst := hdst) (hsem := hsem)
      (k := k) (q := fullShare) (Q := Q) (Es := Set.univ)
      (κ₁ := K (c, 3)) (κ₂ := K (nxt c, 6))
      (r₁ := 0) (r₂ := 0) (d₁ := false) (d₂ := false) (fs := fs) (fd := fd)
      (by rw [duties_used m ρ c snd2 used_snd2]; exact Finset.mem_singleton_self _)
      (by rw [duties_used m ρ (nxt c) rcv3 used_rcv3]; exact Finset.mem_singleton_self _)
      () () N credit3 (amount_dma m ρ c snd2 false) (amount_dma m ρ (nxt c) rcv3 false) O rfl (W := W)
      (src_pay2 m ρ c fs hfs) (dst_pay2 m ρ c fs fd hfs)
  rw [dM2_set, dM3_set] at key
  iapply key
  isplitr; · iexact HI1
  isplitr; · iexact HI2
  isplitl [Hs]; · iexact Hs
  isplitl [Hd]; · iexact Hd
  isplitl [HO]; · iexact HO
  isplitl [Ht1]; · iexact Ht1
  isplitr; · iexact Hr1
  isplitl [Ht2]; · iexact Ht2
  iexact Hr2

/-! ## The waits -/

/-- The wait on a used transfer cell of `c`, from round 0, for the slot's credit: the cell's payload comes with it. -/
theorem wp_wait_xfer (c : Dev nD) (q : DmaSem sig) (hq : used q) (κ : ℕ)
    {sp sp' : Space} {s s' : Shape} {e e' : EltTy} {src : Memref sig .tc sp' s' e'} {κ' : Kind} {dst : Memref sig κ' sp s e}
    {hsrc : src.view.WordExact} {hdst : dst.view.WordExact} (hN : dst.view.dmaCredit = N)
    {α : Type} {Q : α → sProp 𝕄} {k : PUnit → Prog (TpuEff nD τ sig (Elt F) Λ₀ .tc) α}
    (O : CellTallies nD τ sig Unit) (W : Waits sig Unit) {P : sProp 𝕄} (hP : xferPay m ρ c q = P) :
    iprop(cellInv ER (ringRd m ρ) κ (dCell c q) ∗ cred (tallyAt (dCell c q) () N) ∗ owes (c : Thread nD τ) O W
        ∗ MayWait (c : Thread nD τ) (.dma q) () O ∗ atPos ER (dCell c q) 0 ∅ 0)
      ⊢ iprop(((owes (c : Thread nD τ) O (insert (SemLoc.dma q, ()) W) ∗ atPos ER (dCell c q) 1 ∅ 0 ∗ P)
              -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 q src dst hsrc hdst) k) Q) := by
  iintro ⟨#HI, Hc, HO, HM, Hat⟩ Hk
  iapply (Rounds.wp_wait_rest_token 𝒱₀ ER (ringRd m ρ) (c : Thread nD τ) none (κ := κ)
      (wpE_waitDma2_eq 𝒱₀ (c : Thread nD τ) none Set.univ) (Set.mem_univ _) () (O := O) (W := W) (R := 0) (m := 0) (T := ∅)
      (by rw [Nat.zero_add, expect_used m ρ c q hq]; exact hN)) $$ [Hc HO HM Hat]
  · isplitr; · iexact HI
    isplitl [Hc]; · rw [hN]; iexact Hc
    isplitl [HO]; · iexact HO
    isplitl [HM]; · iexact HM
    iexact Hat
  iintro ⟨HO, Hat, -, Hpay⟩
  ihave Hp := (Entails.of_eq ((rest_used m ρ c q hq).trans hP)) $$ Hpay
  iapply Hk
  isplitl [HO]; · iexact HO
  isplitl [Hat]; · iexact Hat
  iexact Hp

/-! ## The loads and the stores -/

abbrev r0 : Rect S512x512 := Rect.unit (s := S512x512) ![0, 0] S512x512.size inb_S512x512_S512x512_0_0

omit [FloatOps F] in
theorem hz2 : (![0, 0] : Fin 2 → Nat) = fun _ => 0 := funext fun a => by fin_cases a <;> rfl
omit [FloatOps F] in
theorem read_x (f : (cc0_stg0_0 : Ref sig .tc).ty.Contents (Elt F)) : (xM : Memref sig .tc .vmem S512x512 .f32).view.readAt (Elt F) r0.toLoadRect f = f :=
  Memref.readAt_unit_zero (Elt F) cc0_stg0_0 hz2 _ f
omit [FloatOps F] in
theorem read_o (f : (cc0_stg1_0 : Ref sig .tc).ty.Contents (Elt F)) : (oM : Memref sig .tc .vmem S512x512 .f32).view.readAt (Elt F) r0.toLoadRect f = f :=
  Memref.readAt_unit_zero (Elt F) cc0_stg1_0 hz2 _ f
omit [FloatOps F] in
theorem write_o (f w : (cc0_stg1_0 : Ref sig .tc).ty.Contents (Elt F)) :
    ((oM : Memref sig .tc .vmem S512x512 .f32).access r0 : View sig .tc _ _ _).write (Elt F) f w Finset.univ = w :=
  Memref.write_access_unit_zero_univ (Elt F) cc0_stg1_0 hz2 _ f w

/-- A load of the whole argument staging buffer reads its contents. -/
theorem wp_load_x (c : Dev nD) (X : (cc0_stg0_0 : Ref sig .tc).ty.Contents (Elt F)) {hl : (xM : Memref sig .tc .vmem S512x512 .f32).view.LoadsAt r0.toLoadRect}
    {α : Type} {Q : α → sProp 𝕄} {k : (S512x512.Idx → Elt F .f32) → Prog (TpuEff nD τ sig (Elt F) Λ₀ .tc) α} :
    (stg c cc0_stg0_0 X : sProp 𝕄)
      ⊢ iprop((stg c cc0_stg0_0 X -∗ wp frame (wpE (defs₀ (F := F)) 𝒱₀ (c : Thread nD τ) none) Set.univ (k X) Q)
          -∗ wp frame (wpE (defs₀ (F := F)) 𝒱₀ (c : Thread nD τ) none) Set.univ (.op (.load xM r0.toLoadRect hl) k) Q) := by
  iintro ⟨%f, %hf, H⟩ Hk
  subst hf
  iapply (wp_load 𝒱₀ (c : Thread nD τ) none Set.univ (m := xM) (Finset.subset_univ _)) $$ H
  iintro H
  rw [read_x]
  iapply Hk
  iexists f
  isplitr; · ipureintro; rfl
  iexact H

/-- A load of the whole result staging buffer reads its contents. -/
theorem wp_load_o (c : Dev nD) (X : (cc0_stg1_0 : Ref sig .tc).ty.Contents (Elt F)) {hl : (oM : Memref sig .tc .vmem S512x512 .f32).view.LoadsAt r0.toLoadRect}
    {α : Type} {Q : α → sProp 𝕄} {k : (S512x512.Idx → Elt F .f32) → Prog (TpuEff nD τ sig (Elt F) Λ₀ .tc) α} :
    (stg c cc0_stg1_0 X : sProp 𝕄)
      ⊢ iprop((stg c cc0_stg1_0 X -∗ wp frame (wpE (defs₀ (F := F)) 𝒱₀ (c : Thread nD τ) none) Set.univ (k X) Q)
          -∗ wp frame (wpE (defs₀ (F := F)) 𝒱₀ (c : Thread nD τ) none) Set.univ (.op (.load oM r0.toLoadRect hl) k) Q) := by
  iintro ⟨%f, %hf, H⟩ Hk
  subst hf
  iapply (wp_load 𝒱₀ (c : Thread nD τ) none Set.univ (m := oM) (Finset.subset_univ _)) $$ H
  iintro H
  rw [read_o]
  iapply Hk
  iexists f
  isplitr; · ipureintro; rfl
  iexact H

/-- An unmasked store of the whole result staging buffer leaves the payload. -/
theorem wp_store_o (c : Dev nD) (X w : (cc0_stg1_0 : Ref sig .tc).ty.Contents (Elt F))
    {hx : ((oM : Memref sig .tc .vmem S512x512 .f32).access r0).Stores Finset.univ} {hm : (Finset.univ : Finset r0.shape.Idx) = Finset.univ ∨ ∀ a, r0.stride a = 1}
    {α : Type} {Q : α → sProp 𝕄} {k : PUnit → Prog (TpuEff nD τ sig (Elt F) Λ₀ .tc) α} :
    (stg c cc0_stg1_0 X : sProp 𝕄)
      ⊢ iprop((stg c cc0_stg1_0 w -∗ wp frame (wpE (defs₀ (F := F)) 𝒱₀ (c : Thread nD τ) none) Set.univ (k ⟨⟩) Q)
          -∗ wp frame (wpE (defs₀ (F := F)) 𝒱₀ (c : Thread nD τ) none) Set.univ (.op (.store oM r0 w Finset.univ hx hm) k) Q) := by
  iintro ⟨%f, %hf, H⟩ Hk
  iapply (wp_store 𝒱₀ (c : Thread nD τ) none Set.univ (m := oM) (r := r0) (Mk := Finset.univ) (Finset.subset_univ _)) $$ H
  iintro H
  rw [write_o]
  iapply Hk
  iexists w
  isplitr; · ipureintro; rfl
  iexact H

omit [FloatOps F] in
theorem load_sub0 : (cM : Memref sig .tc .vmem S4x512x512 .bf16).view.setOn (rk0.toLoadRect).set ⊆ (sv0).set := by
  rw [View.set_slice]; exact subset_rfl

/-- A load of slot 0 reads its contents. -/
theorem wp_load_slot0 (c : Dev nD) (w : S1x512x512.Idx → Elt F .bf16) {hl : (cM : Memref sig .tc .vmem S4x512x512 .bf16).view.LoadsAt rk0.toLoadRect}
    {α : Type} {Q : α → sProp 𝕄} {k : (S1x512x512.Idx → Elt F .bf16) → Prog (TpuEff nD τ sig (Elt F) Λ₀ .tc) α} :
    (slot0 c w : sProp 𝕄)
      ⊢ iprop((slot0 c w -∗ wp frame (wpE (defs₀ (F := F)) 𝒱₀ (c : Thread nD τ) none) Set.univ (k w) Q)
          -∗ wp frame (wpE (defs₀ (F := F)) 𝒱₀ (c : Thread nD τ) none) Set.univ (.op (.load cM rk0.toLoadRect hl) k) Q) := by
  unfold slot0
  iintro ⟨%f, %hf, H⟩ Hk
  subst hf
  iapply (wp_load 𝒱₀ (c : Thread nD τ) none Set.univ (m := cM) load_sub0) $$ H
  iintro H
  iapply Hk
  iexists f
  isplitr; · ipureintro; rfl
  iexact H

omit [FloatOps F] in
theorem load_sub1 : (cM : Memref sig .tc .vmem S4x512x512 .bf16).view.setOn (rk1.toLoadRect).set ⊆ (sv1).set := by
  rw [View.set_slice]; exact subset_rfl

/-- A load of slot 1 reads its contents. -/
theorem wp_load_slot1 (c : Dev nD) (w : S1x512x512.Idx → Elt F .bf16) {hl : (cM : Memref sig .tc .vmem S4x512x512 .bf16).view.LoadsAt rk1.toLoadRect}
    {α : Type} {Q : α → sProp 𝕄} {k : (S1x512x512.Idx → Elt F .bf16) → Prog (TpuEff nD τ sig (Elt F) Λ₀ .tc) α} :
    (slot1 c w : sProp 𝕄)
      ⊢ iprop((slot1 c w -∗ wp frame (wpE (defs₀ (F := F)) 𝒱₀ (c : Thread nD τ) none) Set.univ (k w) Q)
          -∗ wp frame (wpE (defs₀ (F := F)) 𝒱₀ (c : Thread nD τ) none) Set.univ (.op (.load cM rk1.toLoadRect hl) k) Q) := by
  unfold slot1
  iintro ⟨%f, %hf, H⟩ Hk
  subst hf
  iapply (wp_load 𝒱₀ (c : Thread nD τ) none Set.univ (m := cM) load_sub1) $$ H
  iintro H
  iapply Hk
  iexists f
  isplitr; · ipureintro; rfl
  iexact H

omit [FloatOps F] in
theorem load_sub2 : (cM : Memref sig .tc .vmem S4x512x512 .bf16).view.setOn (rk2.toLoadRect).set ⊆ (sv2).set := by
  rw [View.set_slice]; exact subset_rfl

/-- A load of slot 2 reads its contents. -/
theorem wp_load_slot2 (c : Dev nD) (w : S1x512x512.Idx → Elt F .bf16) {hl : (cM : Memref sig .tc .vmem S4x512x512 .bf16).view.LoadsAt rk2.toLoadRect}
    {α : Type} {Q : α → sProp 𝕄} {k : (S1x512x512.Idx → Elt F .bf16) → Prog (TpuEff nD τ sig (Elt F) Λ₀ .tc) α} :
    (slot2 c w : sProp 𝕄)
      ⊢ iprop((slot2 c w -∗ wp frame (wpE (defs₀ (F := F)) 𝒱₀ (c : Thread nD τ) none) Set.univ (k w) Q)
          -∗ wp frame (wpE (defs₀ (F := F)) 𝒱₀ (c : Thread nD τ) none) Set.univ (.op (.load cM rk2.toLoadRect hl) k) Q) := by
  unfold slot2
  iintro ⟨%f, %hf, H⟩ Hk
  subst hf
  iapply (wp_load 𝒱₀ (c : Thread nD τ) none Set.univ (m := cM) load_sub2) $$ H
  iintro H
  iapply Hk
  iexists f
  isplitr; · ipureintro; rfl
  iexact H

omit [FloatOps F] in
theorem load_sub3 : (cM : Memref sig .tc .vmem S4x512x512 .bf16).view.setOn (rk3.toLoadRect).set ⊆ (sv3).set := by
  rw [View.set_slice]; exact subset_rfl

/-- A load of slot 3 reads its contents. -/
theorem wp_load_slot3 (c : Dev nD) (w : S1x512x512.Idx → Elt F .bf16) {hl : (cM : Memref sig .tc .vmem S4x512x512 .bf16).view.LoadsAt rk3.toLoadRect}
    {α : Type} {Q : α → sProp 𝕄} {k : (S1x512x512.Idx → Elt F .bf16) → Prog (TpuEff nD τ sig (Elt F) Λ₀ .tc) α} :
    (slot3 c w : sProp 𝕄)
      ⊢ iprop((slot3 c w -∗ wp frame (wpE (defs₀ (F := F)) 𝒱₀ (c : Thread nD τ) none) Set.univ (k w) Q)
          -∗ wp frame (wpE (defs₀ (F := F)) 𝒱₀ (c : Thread nD τ) none) Set.univ (.op (.load cM rk3.toLoadRect hl) k) Q) := by
  unfold slot3
  iintro ⟨%f, %hf, H⟩ Hk
  subst hf
  iapply (wp_load 𝒱₀ (c : Thread nD τ) none Set.univ (m := cM) load_sub3) $$ H
  iintro H
  iapply Hk
  iexists f
  isplitr; · ipureintro; rfl
  iexact H

/-- An unmasked store of slot 0 leaves the payload there. -/
theorem wp_store_slot0 (c : Dev nD) (w : S1x512x512.Idx → Elt F .bf16)
    {hx : ((cM : Memref sig .tc .vmem S4x512x512 .bf16).access rk0).Stores Finset.univ} {hm : (Finset.univ : Finset rk0.shape.Idx) = Finset.univ ∨ ∀ a, rk0.stride a = 1}
    {α : Type} {Q : α → sProp 𝕄} {k : PUnit → Prog (TpuEff nD τ sig (Elt F) Λ₀ .tc) α} :
    (any0 c : sProp 𝕄)
      ⊢ iprop((slot0 c w -∗ wp frame (wpE (defs₀ (F := F)) 𝒱₀ (c : Thread nD τ) none) Set.univ (k ⟨⟩) Q)
          -∗ wp frame (wpE (defs₀ (F := F)) 𝒱₀ (c : Thread nD τ) none) Set.univ (.op (.store cM rk0 w Finset.univ hx hm) k) Q) := by
  unfold any0 slot0
  iintro ⟨%f, H⟩ Hk
  iapply (wp_store 𝒱₀ (c : Thread nD τ) none Set.univ (m := cM) (r := rk0) (Mk := Finset.univ) (S := (sv0).set) (by rw [View.setOn_univ])) $$ H
  iintro H
  iapply Hk
  iexists ((sv0).write (Elt F) f w Finset.univ)
  isplitr; · ipureintro; exact View.read_write_univ (v := sv0) f w
  iexact H

end Cert.Kernel.RingProof

end
-- ==== Proof.Bits.BodyDefs.lean ====
/-
  What device `c` holds between the stretches of its body: before the first signal; after the handshake and the first
  store (slot 0 filled, the right neighbour's three landing slots in hand); after each of the three steps (the slots
  received so far, the running sum); and what the body hands back.
-/
import proofs.«900729_g7700000000000730_dist_ar_v7x_xyz2x4x4_y_m512_n512_bf16_1_alg».proof.Proof.Bits.Steps

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

/-- What never changes: the cells' invariants, the reached-marks, the level facts. -/
def ctx (c : Dev nD) : sProp 𝕄 := iprop(invs m ρ K c ∗ marks c ∗ levAts L lv)
instance ctx_persistent (c : Dev nD) : BI.Persistent (ctx m ρ K c) := by unfold ctx; infer_instance

/-- The device's positions on its six transfer cells, by round. -/
def pos6 (c : Dev nD) (s0 s1 s2 r1 r2 r3 : ℕ) : sProp 𝕄 :=
  iprop(atPos ER (dCell c snd0) s0 ∅ 0 ∗ atPos ER (dCell c snd1) s1 ∅ 0 ∗ atPos ER (dCell c snd2) s2 ∅ 0
    ∗ atPos ER (dCell c rcv1) r1 ∅ 0 ∗ atPos ER (dCell c rcv2) r2 ∅ 0 ∗ atPos ER (dCell c rcv3) r3 ∅ 0)

/-- Before the first signal. -/
def A1 (c : Dev nD) (W : Waits sig Unit) : sProp 𝕄 :=
  iprop(ctx m ρ K c ∗ poss c ∗ payToks c ∗ creds0 c ∗ commAny c ∗ owes (c : Thread nD τ) (O₀ c) W
    ∗ stg c cc0_stg0_0 (xstg m ρ c) ∗ (∃ g, stg c cc0_stg1_0 g))

/-- After the handshake, slot 0 filled and the result set to the own block. -/
def A2 (c : Dev nD) : sProp 𝕄 :=
  iprop(ctx m ρ K c ∗ pos6 c 0 0 0 0 0 0
    ∗ (dutyTok ER (dCell (nxt c) rcv1) 0 false ∗ dutyTok ER (dCell (nxt c) rcv2) 0 false ∗ dutyTok ER (dCell (nxt c) rcv3) 0 false
        ∗ dutyTok ER (dCell c snd0) 0 false ∗ dutyTok ER (dCell c snd1) 0 false ∗ dutyTok ER (dCell c snd2) 0 false)
    ∗ (cred (tallyAt (dCell c rcv1) () N) ∗ cred (tallyAt (dCell c rcv2) () N) ∗ cred (tallyAt (dCell c rcv3) () N))
    ∗ slot0 c (cm m ρ c) ∗ any1 (nxt c) ∗ any2 (nxt c) ∗ any3 (nxt c)
    ∗ (∃ W, owes (c : Thread nD τ) (O₁ c) W)
    ∗ stg c cc0_stg0_0 (xstg m ρ c) ∗ stg c cc0_stg1_0 (acc0 m ρ c))

/-- After step 0's transfer and both its waits: slot 1 holds the left neighbour's block. -/
def A3 (c : Dev nD) : sProp 𝕄 :=
  iprop(ctx m ρ K c ∗ pos6 c 1 0 0 1 0 0
    ∗ (dutyTok ER (dCell (nxt c) rcv2) 0 false ∗ dutyTok ER (dCell (nxt c) rcv3) 0 false
        ∗ dutyTok ER (dCell c snd1) 0 false ∗ dutyTok ER (dCell c snd2) 0 false)
    ∗ (cred (tallyAt (dCell c rcv2) () N) ∗ cred (tallyAt (dCell c rcv3) () N))
    ∗ slot0 c (cm m ρ c) ∗ slot1 c (cm m ρ (prv c)) ∗ any2 (nxt c) ∗ any3 (nxt c)
    ∗ (∃ W, owes (c : Thread nD τ) (O₂ c) W)
    ∗ stg c cc0_stg0_0 (xstg m ρ c) ∗ stg c cc0_stg1_0 (acc0 m ρ c))

/-- After the first addition is stored, step 1's transfer sent and its send cell waited. -/
def A4 (c : Dev nD) : sProp 𝕄 :=
  iprop(ctx m ρ K c ∗ pos6 c 1 1 0 1 0 0
    ∗ (dutyTok ER (dCell (nxt c) rcv3) 0 false ∗ dutyTok ER (dCell c snd2) 0 false)
    ∗ (cred (tallyAt (dCell c rcv2) () N) ∗ cred (tallyAt (dCell c rcv3) () N))
    ∗ slot0 c (cm m ρ c) ∗ slot1 c (cm m ρ (prv c)) ∗ any3 (nxt c)
    ∗ (∃ W, owes (c : Thread nD τ) (O₃ c) W)
    ∗ stg c cc0_stg0_0 (xstg m ρ c) ∗ stg c cc0_stg1_0 (acc1 m ρ c))

/-- After step 1's landing is added and step 2's transfer is on its way (slot 2 is with it). -/
def A5 (c : Dev nD) : sProp 𝕄 :=
  iprop(ctx m ρ K c ∗ pos6 c 1 1 0 1 1 0
    ∗ (cred (tallyAt (dCell c rcv3) () N) ∗ cred (tallyAt (dCell c snd2) () N))
    ∗ slot0 c (cm m ρ c) ∗ slot1 c (cm m ρ (prv c))
    ∗ (∃ W, owes (c : Thread nD τ) 0 W)
    ∗ stg c cc0_stg0_0 (xstg m ρ c) ∗ stg c cc0_stg1_0 (acc2 m ρ c))

/-- What the body hands back. -/
def bodyPost (c : Dev nD) : sProp 𝕄 :=
  iprop(Φ₁ c ∗ (dats m ρ 0 c).owesAt () t₀.succ ∗ stg c cc0_stg0_0 (xstg m ρ c) ∗ stg c cc0_stg1_0 (outAt m ρ c))

end Cert.Kernel.RingProof

end
-- ==== Proof.Bits.Body2.lean ====
/-
  The first stretch of the body: the two entry signals, the wait for the neighbours' two, slot 0 filled with the own
  block in the narrow format, the result set to the own block.
-/
import proofs.«900729_g7700000000000730_dist_ar_v7x_xyz2x4x4_y_m512_n512_bf16_1_alg».proof.Proof.Bits.BodyDefs

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
/-- From before the first signal to after the first stores. -/
theorem part2_spec (c : Dev nD) (W : Waits sig Unit) (v2 v8 v30 v33 v34 : BitVec 32) (Kt : PUnit → sProp 𝕄) :
    iprop(A1 m ρ K c W ∗ (A2 m ρ K c -∗ Kt ⟨⟩))
      ⊢ wp frame (wpE (defs₀ (F := F)) 𝒱₀ (c : Thread nD τ) none) Set.univ
          (k0_part2 xM (Memref.isWhole_whole _) oM (Memref.isWhole_whole _) cM (Memref.isWhole_whole _) cc0_scratch1 cc0_scratch2 c v2 v8 v30 (SemArray.scalar (sig.barrier 0 rfl)) v33 v34) Kt := by
  rw [k0_part2_eq_skeleton]; unfold k0_part2_skel
  simp only [semSignalWord, semWaitWord, Prog.lift, Prog.bind_op, Prog.bind_ret, Prog.pure_eq_ret]
  unfold A1 ctx invs marks poss payToks creds0 commAny
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaB, HaS0, HaS1, HaS2, HaR1, HaR2, HaR3⟩, ⟨HtBN, HtBP, HtR1N, HtR2N, HtR3N, HtS0, HtS1, HtS2⟩,
      ⟨HcB, HcR1, HcR2, HcR3⟩, ⟨%f0, Hcomm⟩, HO, Hx, ⟨%g1, Hout⟩⟩, Hk⟩
  simp only [dev1_eq c, dev2_eq c]
  -- the communication buffer cut into its four slots
  ihave Hcut := (Entails.of_eq (comm_split c f0)) $$ Hcomm
  icases Hcut with ⟨Hs0, Hs1, Hs2, Hs3⟩
  -- the first signal, to the left neighbour's barrier: its duty `true`, with this device's three landing slots
  iapply (Rounds.wp_signal 𝒱₀ ER (ringRd m ρ) (c : Thread nD τ) none (dst := (prv c : Thread nD τ)) (κ := K (prv c, 0))
      (d := true) (by rw [duties_bar]; exact Finset.mem_univ _) ((amount_bar m ρ (prv c) true).trans (by decide)) () (Ob c) rfl)
    $$ [HO HtBP Hs1 Hs2 Hs3]
  · isplitr; · iexact HIbarP
    isplitl [HO]; · iexact HO
    isplitl [HtBP]; · iexact HtBP
    isplitl [Hs1 Hs2 Hs3]
    · rw [payload_bar_true]; unfold barPay any1 any2 any3; rw [nxt_prv]
      isplitl [Hs1]; · iexists f0; iexact Hs1
      isplitl [Hs2]; · iexists f0; iexact Hs2
      iexists f0; iexact Hs3
    · iexact HrBP
  iintro HO
  -- the second, to the right neighbour's barrier: its duty `false`, nothing to hand over
  iapply (Rounds.wp_signal 𝒱₀ ER (ringRd m ρ) (c : Thread nD τ) none (dst := (nxt c : Thread nD τ)) (κ := K (nxt c, 0))
      (d := false) (by rw [duties_bar]; exact Finset.mem_univ _) ((amount_bar m ρ (nxt c) false).trans (by decide)) () (O₁ c) rfl)
    $$ [HO HtBN]
  · isplitr; · iexact HIbarN
    isplitl [HO]; · iexact HO
    isplitl [HtBN]; · iexact HtBN
    isplitr; · rw [payload_bar_false]; iempintro
    iexact HrBN
  iintro HO
  -- the wait for the two units on its own barrier: the right neighbour's landing slots come with them
  iapply (Rounds.wp_wait_rest_token 𝒱₀ ER (ringRd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [HcB HO HaB]
  · isplitr; · iexact HIbar
    isplitl [HcB]; · iexact HcB
    isplitl [HO]; · iexact HO
    isplitr; · iapply (mayWait_bar c); iexact Hlev
    iexact HaB
  iintro ⟨HO, HaB, -, Hpay⟩
  ihave Hp := (Entails.of_eq (rest_bar m ρ c)) $$ Hpay
  unfold barPay
  icases Hp with ⟨-, Hn1, Hn2, Hn3⟩
  -- the own block read, narrowed, and stored into slot 0
  iapply (wp_load_x c (xstg m ρ c)) $$ Hx; iintro Hx
  iapply (wp_load_slot0 c ((sv0).read (Elt F) f0)) $$ [Hs0]
  · unfold slot0; iexists f0
    isplitr; · ipureintro; rfl
    iexact Hs0
  iintro Hs0
  iapply (wp_store_slot0 c (k0_pay2 (xstg m ρ c))) $$ [Hs0]
  · unfold slot0 any0
    icases Hs0 with ⟨%f, -, H⟩
    iexists f; iexact H
  iintro Hs0
  -- the result set to the own block
  iapply (wp_load_x c (xstg m ρ c)) $$ Hx; iintro Hx
  iapply (wp_load_o c g1) $$ Hout; iintro Hout
  iapply (wp_store_o c g1 (k0_pay3 (xstg m ρ c))) $$ Hout; iintro Hout
  rw [wp_ret]; imodintro
  iapply Hk
  unfold A2 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HtR1N HtR2N HtR3N HtS0 HtS1 HtS2]
  · isplitl [HtR1N]; · iexact HtR1N
    isplitl [HtR2N]; · iexact HtR2N
    isplitl [HtR3N]; · iexact HtR3N
    isplitl [HtS0]; · iexact HtS0
    isplitl [HtS1]; · iexact HtS1
    iexact HtS2
  isplitl [HcR1 HcR2 HcR3]
  · isplitl [HcR1]; · iexact HcR1
    isplitl [HcR2]; · iexact HcR2
    iexact HcR3
  isplitl [Hs0]; · iexact Hs0
  isplitl [Hn1]; · iexact Hn1
  isplitl [Hn2]; · iexact Hn2
  isplitl [Hn3]; · iexact Hn3
  isplitl [HO]; · iexists _; iexact HO
  isplitl [Hx]; · iexact Hx
  iexact Hout

end Cert.Kernel.RingProof

end
-- ==== Proof.Bits.Body3.lean ====
/-
  Step 0 of the ring: slot 0 sent to the right neighbour's slot 1; the send cell waited (slot 0 back); the receive cell
  waited (slot 1 holds the left neighbour's block); the running sum and slot 1 read, their sum returned.
-/
import proofs.«900729_g7700000000000730_dist_ar_v7x_xyz2x4x4_y_m512_n512_bf16_1_alg».proof.Proof.Bits.BodyDefs

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
theorem part3_spec (c : Dev nD) (v2 v8 v30 : BitVec 32) (Kt : FVec F S512x512 .f32 → sProp 𝕄) :
    iprop(A2 m ρ K c ∗ (A3 m ρ K c -∗ Kt (acc1 m ρ c)))
      ⊢ wp frame (wpE (defs₀ (F := F)) 𝒱₀ (c : Thread nD τ) none) Set.univ
          (k0_part3 xM (Memref.isWhole_whole _) oM (Memref.isWhole_whole _) cM (Memref.isWhole_whole _) cc0_scratch1 cc0_scratch2 c v2 v8 v30) Kt := by
  rw [k0_part3_eq_skeleton]; unfold k0_part3_skel
  simp only [Prog.lift, Prog.bind_op, Prog.bind_ret, Prog.pure_eq_ret]
  unfold A2 ctx invs marks pos6
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaS0, HaS1, HaS2, HaR1, HaR2, HaR3⟩, ⟨HtR1N, HtR2N, HtR3N, HtS0, HtS1, HtS2⟩,
      ⟨HcR1, HcR2, HcR3⟩, Hs0, Hn1, Hn2, Hn3, ⟨%W, HO⟩, Hx, Hout⟩, Hk⟩
  unfold O₁
  -- the transfer of slot 0 to the right neighbour's slot 1
  iapply (wp_xfer0 m ρ K c _ (dev3_eq c) (O₂ c) W) $$ [Hs0 Hn1 HO HtS0 HtR1N]
  · isplitr; · iexact HIs0
    isplitr; · iexact HIr1N
    isplitl [Hs0]; · iexact Hs0
    isplitl [Hn1]; · iexact Hn1
    isplitl [HO]; · iexact HO
    isplitl [HtS0]; · iexact HtS0
    isplitr; · iexact HrS0
    isplitl [HtR1N]; · iexact HtR1N
    iexact HrR1N
  iintro ⟨HcS0, HO⟩
  -- the wait on send cell 0: slot 0 back
  iapply (wp_wait_xfer m ρ c snd0 used_snd0 (K (c, 1)) credit0 (O₂ c) W (xferPay_snd0 m ρ c)) $$ [HcS0 HO HaS0]
  · isplitr; · iexact HIs0
    isplitl [HcS0]; · iexact HcS0
    isplitl [HO]; · iexact HO
    isplitr; · iapply (mayWait_snd0 c); iexact Hlev
    iexact HaS0
  iintro ⟨HO, HaS0, Hs0⟩
  -- the wait on receive cell 1: slot 1, holding the left neighbour's block
  iapply (wp_wait_xfer m ρ c rcv1 used_rcv1 (K (c, 4)) credit1 (O₂ c) (insert (SemLoc.dma snd0, ()) W) (xferPay_rcv1 m ρ c)) $$ [HcR1 HO HaR1]
  · isplitr; · iexact HIr1
    isplitl [HcR1]; · iexact HcR1
    isplitl [HO]; · iexact HO
    isplitr; · iapply (mayWait_rcv1 c); iexact Hlev
    iexact HaR1
  iintro ⟨HO, HaR1, Hs1⟩
  -- the running sum and slot 1 read
  iapply (wp_load_o c (acc0 m ρ c)) $$ Hout; iintro Hout
  iapply (wp_load_slot1 c (cm m ρ (prv c))) $$ Hs1; iintro Hs1
  rw [wp_ret]; imodintro
  unfold acc1
  iapply Hk
  unfold A3 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HtR2N HtR3N HtS1 HtS2]
  · isplitl [HtR2N]; · iexact HtR2N
    isplitl [HtR3N]; · iexact HtR3N
    isplitl [HtS1]; · iexact HtS1
    iexact HtS2
  isplitl [HcR2 HcR3]
  · isplitl [HcR2]; · iexact HcR2
    iexact HcR3
  isplitl [Hs0]; · iexact Hs0
  isplitl [Hs1]; · iexact Hs1
  isplitl [Hn2]; · iexact Hn2
  isplitl [Hn3]; · iexact Hn3
  isplitl [HO]; · iexists _; iexact HO
  isplitl [Hx]; · iexact Hx
  iexact Hout

end Cert.Kernel.RingProof

end
-- ==== Proof.Bits.Body4.lean ====
/-
  The first addition stored; step 1 of the ring begun: slot 1 sent to the right neighbour's slot 2 and the send cell
  waited (slot 1 back).
-/
import proofs.«900729_g7700000000000730_dist_ar_v7x_xyz2x4x4_y_m512_n512_bf16_1_alg».proof.Proof.Bits.BodyDefs

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
theorem part4_spec (c : Dev nD) (v2 v8 v30 : BitVec 32) (Kt : PUnit → sProp 𝕄) :
    iprop(A3 m ρ K c ∗ (A4 m ρ K c -∗ Kt ⟨⟩))
      ⊢ wp frame (wpE (defs₀ (F := F)) 𝒱₀ (c : Thread nD τ) none) Set.univ
          (k0_part4 xM (Memref.isWhole_whole _) oM (Memref.isWhole_whole _) cM (Memref.isWhole_whole _) cc0_scratch1 cc0_scratch2 c v2 v8 v30 (acc1 m ρ c)) Kt := by
  rw [k0_part4_eq_skeleton]; unfold k0_part4_skel
  simp only [Prog.lift, Prog.bind_op, Prog.bind_ret, Prog.pure_eq_ret]
  unfold A3 ctx invs marks pos6
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaS0, HaS1, HaS2, HaR1, HaR2, HaR3⟩, ⟨HtR2N, HtR3N, HtS1, HtS2⟩,
      ⟨HcR2, HcR3⟩, Hs0, Hs1, Hn2, Hn3, ⟨%W, HO⟩, Hx, Hout⟩, Hk⟩
  unfold O₂
  -- the first addition stored
  iapply (wp_load_o c (acc0 m ρ c)) $$ Hout; iintro Hout
  iapply (wp_store_o c (acc0 m ρ c) (acc1 m ρ c)) $$ Hout; iintro Hout
  -- the transfer of slot 1 to the right neighbour's slot 2
  iapply (wp_xfer1 m ρ K c _ (dev4_eq c) (O₃ c) W) $$ [Hs1 Hn2 HO HtS1 HtR2N]
  · isplitr; · iexact HIs1
    isplitr; · iexact HIr2N
    isplitl [Hs1]; · iexact Hs1
    isplitl [Hn2]; · iexact Hn2
    isplitl [HO]; · iexact HO
    isplitl [HtS1]; · iexact HtS1
    isplitr; · iexact HrS1
    isplitl [HtR2N]; · iexact HtR2N
    iexact HrR2N
  iintro ⟨HcS1, HO⟩
  -- the wait on send cell 1: slot 1 back
  iapply (wp_wait_xfer m ρ c snd1 used_snd1 (K (c, 2)) credit1 (O₃ c) W (xferPay_snd1 m ρ c)) $$ [HcS1 HO HaS1]
  · isplitr; · iexact HIs1
    isplitl [HcS1]; · iexact HcS1
    isplitl [HO]; · iexact HO
    isplitr; · iapply (mayWait_snd1 c); iexact Hlev
    iexact HaS1
  iintro ⟨HO, HaS1, Hs1⟩
  rw [wp_ret]; imodintro
  iapply Hk
  unfold A4 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HtR3N HtS2]
  · isplitl [HtR3N]; · iexact HtR3N
    iexact HtS2
  isplitl [HcR2 HcR3]
  · isplitl [HcR2]; · iexact HcR2
    iexact HcR3
  isplitl [Hs0]; · iexact Hs0
  isplitl [Hs1]; · iexact Hs1
  isplitl [Hn3]; · iexact Hn3
  isplitl [HO]; · iexists _; iexact HO
  isplitl [Hx]; · iexact Hx
  iexact Hout

end Cert.Kernel.RingProof

end
-- ==== Proof.Bits.Body5.lean ====
/-
  Step 1 of the ring finished and step 2 begun: the receive cell 2 waited (slot 2 holds the block of the device two
  places to the left), the second addition stored, slot 2 sent to the right neighbour's slot 3.
-/
import proofs.«900729_g7700000000000730_dist_ar_v7x_xyz2x4x4_y_m512_n512_bf16_1_alg».proof.Proof.Bits.BodyDefs

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

set_option maxHeartbeats 1600000 in
theorem part5_spec (c : Dev nD) (v2 v8 v30 : BitVec 32) (Kt : PUnit → sProp 𝕄) :
    iprop(A4 m ρ K c ∗ (A5 m ρ K c -∗ Kt ⟨⟩))
      ⊢ wp frame (wpE (defs₀ (F := F)) 𝒱₀ (c : Thread nD τ) none) Set.univ
          (k0_part5 xM (Memref.isWhole_whole _) oM (Memref.isWhole_whole _) cM (Memref.isWhole_whole _) cc0_scratch1 cc0_scratch2 c v2 v8 v30) Kt := by
  rw [k0_part5_eq_skeleton]; unfold k0_part5_skel
  simp only [Prog.lift, Prog.bind_op, Prog.bind_ret, Prog.pure_eq_ret]
  unfold A4 ctx invs marks pos6
  iintro ⟨⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, #Hlev⟩, ⟨HaS0, HaS1, HaS2, HaR1, HaR2, HaR3⟩, ⟨HtR3N, HtS2⟩,
      ⟨HcR2, HcR3⟩, Hs0, Hs1, Hn3, ⟨%W, HO⟩, Hx, Hout⟩, Hk⟩
  -- the wait on receive cell 2: slot 2, holding the block of the device two places to the left
  iapply (wp_wait_xfer m ρ c rcv2 used_rcv2 (K (c, 5)) credit2 (O₃ c) W (xferPay_rcv2 m ρ c)) $$ [HcR2 HO HaR2]
  · isplitr; · iexact HIr2
    isplitl [HcR2]; · iexact HcR2
    isplitl [HO]; · iexact HO
    isplitr; · iapply (mayWait_rcv2 c); iexact Hlev
    iexact HaR2
  iintro ⟨HO, HaR2, Hs2⟩
  -- the second addition
  iapply (wp_load_o c (acc1 m ρ c)) $$ Hout; iintro Hout
  iapply (wp_load_slot2 c (cm m ρ (prv (prv c)))) $$ Hs2; iintro Hs2
  iapply (wp_load_o c (acc1 m ρ c)) $$ Hout; iintro Hout
  iapply (wp_store_o c (acc1 m ρ c) (acc2 m ρ c)) $$ Hout; iintro Hout
  -- the transfer of slot 2 to the right neighbour's slot 3
  unfold O₃
  iapply (wp_xfer2 m ρ K c _ (dev5_eq c) 0 (insert (SemLoc.dma rcv2, ()) W)) $$ [Hs2 Hn3 HO HtS2 HtR3N]
  · isplitr; · iexact HIs2
    isplitr; · iexact HIr3N
    isplitl [Hs2]; · iexact Hs2
    isplitl [Hn3]; · iexact Hn3
    isplitl [HO]; · rw [zero_add]; iexact HO
    isplitl [HtS2]; · iexact HtS2
    isplitr; · iexact HrS2
    isplitl [HtR3N]; · iexact HtR3N
    iexact HrR3N
  iintro ⟨HcS2, HO⟩
  rw [wp_ret]; imodintro
  iapply Hk
  unfold A5 pos6
  isplitr
  · unfold ctx invs marks
    isplitr
    · isplitr; · iexact HIbar
      isplitr; · iexact HIs0
      isplitr; · iexact HIs1
      isplitr; · iexact HIs2
      isplitr; · iexact HIr1
      isplitr; · iexact HIr2
      isplitr; · iexact HIr3
      isplitr; · iexact HIbarN
      isplitr; · iexact HIbarP
      isplitr; · iexact HIr1N
      isplitr; · iexact HIr2N
      iexact HIr3N
    isplitr
    · isplitr; · iexact HrBN
      isplitr; · iexact HrBP
      isplitr; · iexact HrR1N
      isplitr; · iexact HrR2N
      isplitr; · iexact HrR3N
      isplitr; · iexact HrS0
      isplitr; · iexact HrS1
      iexact HrS2
    iexact Hlev
  isplitl [HaS0 HaS1 HaS2 HaR1 HaR2 HaR3]
  · isplitl [HaS0]; · iexact HaS0
    isplitl [HaS1]; · iexact HaS1
    isplitl [HaS2]; · iexact HaS2
    isplitl [HaR1]; · iexact HaR1
    isplitl [HaR2]; · iexact HaR2
    iexact HaR3
  isplitl [HcR3 HcS2]
  · isplitl [HcR3]; · iexact HcR3
    iexact HcS2
  isplitl [Hs0]; · iexact Hs0
  isplitl [Hs1]; · iexact Hs1
  isplitl [HO]; · iexists _; iexact HO
  isplitl [Hx]; · iexact Hx
  iexact Hout

end Cert.Kernel.RingProof

end
-- ==== Proof.Bits.Body.lean ====
/-
  The whole body of one device: the five stretches in turn, then the end of step 2 (its send cell waited: slot 2 back;
  its receive cell waited: slot 3 holds the block of the device three places to the left; the third addition stored),
  the six own cells closed at zero, the four slots put together into the communication buffer. And the body obligation
  of the pipeline's one point from it.
-/
import proofs.«900729_g7700000000000730_dist_ar_v7x_xyz2x4x4_y_m512_n512_bf16_1_alg».proof.Proof.Bits.Body2
import proofs.«900729_g7700000000000730_dist_ar_v7x_xyz2x4x4_y_m512_n512_bf16_1_alg».proof.Proof.Bits.Body3
import proofs.«900729_g7700000000000730_dist_ar_v7x_xyz2x4x4_y_m512_n512_bf16_1_alg».proof.Proof.Bits.Body4
import proofs.«900729_g7700000000000730_dist_ar_v7x_xyz2x4x4_y_m512_n512_bf16_1_alg».proof.Proof.Bits.Body5

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 7 → ℕ)

omit [FloatOps F] in
/-- The four slots, at whatever contents, are the communication buffer whole. -/
theorem slots_join (c : Dev nD) (w0 w1 w2 w3 : S1x512x512.Idx → Elt F .bf16) :
    iprop(slot0 c w0 ∗ slot1 c w1 ∗ slot2 c w2 ∗ slot3 c w3) ⊢ (commAny c : sProp 𝕄) := by
  unfold slot0 slot1 slot2 slot3
  iintro ⟨⟨%f0, -, H0⟩, ⟨%f1, -, H1⟩, ⟨%f2, -, H2⟩, ⟨%f3, -, H3⟩⟩
  iapply (comm_join c f0 f1 f2 f3)
  isplitl [H0]; · iexact H0
  isplitl [H1]; · iexact H1
  isplitl [H2]; · iexact H2
  iexact H3

def bodyPre (c : Dev nD) : sProp 𝕄 :=
  iprop((ghost m ρ K c ∗ creds0 c ∗ levAts L lv ∗ commAny c)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxHeartbeats 3200000 in
set_option maxRecDepth 65536 in
/-- The body, from what the pipeline hands it to what it hands back. -/
theorem sound_body (c : Dev nD) (Kt : PUnit → sProp 𝕄) :
    iprop(bodyPre m ρ K c ∗ (bodyPost m ρ c -∗ Kt ⟨⟩))
      ⊢ wp frame (wpE (defs₀ (F := F)) 𝒱₀ (c : Thread nD τ) none) Set.univ
          (cc0_body xM (Memref.isWhole_whole _) oM (Memref.isWhole_whole _) cM (Memref.isWhole_whole _) cc0_scratch1 cc0_scratch2) Kt := by
  rw [cc0_body_eq_skeleton]; unfold cc0_body_skel
  rw [k0_part1_eq_skeleton]; unfold k0_part1_skel
  simp only [Prog.lift, Prog.bind_op, Prog.bind_ret, Prog.pure_eq_ret, wp_deviceId, wp_bind]
  unfold bodyPre ghost
  iintro ⟨⟨⟨⟨#Hinv, Hpos, #Hmk, Htok⟩, Hcr, #Hlev, Hcomm⟩, Ho, ⟨%d0, %g0, %hg0, Hx⟩, ⟨%d1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = O₀ c from rfl]
  -- the handshake and the first stores
  iapply (part2_spec m ρ K c W _ _ _ _ _ _)
  isplitl [Hpos Htok Hcr Hcomm HO Hx Hout]
  · unfold A1 ctx
    isplitr
    · isplitr; · iexact Hinv
      isplitr; · iexact Hmk
      iexact Hlev
    isplitl [Hpos]; · iexact Hpos
    isplitl [Htok]; · iexact Htok
    isplitl [Hcr]; · iexact Hcr
    isplitl [Hcomm]; · iexact Hcomm
    isplitl [HO]; · iexact HO
    isplitl [Hx]
    · iexists _; isplitr; · (ipureintro; rfl)
      iexact Hx
    iexists _; iexact Hout
  iintro H2
  -- step 0
  iapply (part3_spec m ρ K c _ _ _ _)
  isplitl [H2]; · iexact H2
  iintro H3
  -- the first addition stored, step 1 begun
  iapply (part4_spec m ρ K c _ _ _ _)
  isplitl [H3]; · iexact H3
  iintro H4
  -- step 1 finished, step 2 begun
  iapply (part5_spec m ρ K c _ _ _ _)
  isplitl [H4]; · iexact H4
  iintro H5
  unfold A5 ctx invs marks pos6
  icases H5 with ⟨⟨⟨#HIbar, #HIs0, #HIs1, #HIs2, #HIr1, #HIr2, #HIr3, #HIbarN, #HIbarP, #HIr1N, #HIr2N, #HIr3N⟩, ⟨#HrBN, #HrBP, #HrR1N, #HrR2N, #HrR3N, #HrS0, #HrS1, #HrS2⟩, -⟩, ⟨HaS0, HaS1, HaS2, HaR1, HaR2, HaR3⟩, ⟨HcR3, HcS2⟩, Hs0, Hs1, ⟨%W5, HO⟩, Hx, Hout⟩
  -- the wait on send cell 2: slot 2 back
  iapply (wp_wait_xfer m ρ c snd2 used_snd2 (K (c, 3)) credit2 0 W5 (xferPay_snd2 m ρ c)) $$ [HcS2 HO HaS2]
  · isplitr; · iexact HIs2
    isplitl [HcS2]; · iexact HcS2
    isplitl [HO]; · iexact HO
    isplitr; · rw [MayWait_zero]; iempintro
    iexact HaS2
  iintro ⟨HO, HaS2, Hs2⟩
  -- the wait on receive cell 3: slot 3, holding the block of the device three places to the left
  iapply (wp_wait_xfer m ρ c rcv3 used_rcv3 (K (c, 6)) credit3 0 (insert (SemLoc.dma snd2, ()) W5) (xferPay_rcv3 m ρ c)) $$ [HcR3 HO HaR3]
  · isplitr; · iexact HIr3
    isplitl [HcR3]; · iexact HcR3
    isplitl [HO]; · iexact HO
    isplitr; · rw [MayWait_zero]; iempintro
    iexact HaR3
  iintro ⟨HO, HaR3, Hs3⟩
  -- the third addition
  iapply (wp_load_o c (acc2 m ρ c)) $$ Hout; iintro Hout
  iapply (wp_load_slot3 c (cm m ρ (prv (prv (prv c))))) $$ Hs3; iintro Hs3
  iapply (wp_load_o c (acc2 m ρ c)) $$ Hout; iintro Hout
  iapply (wp_store_o c (acc2 m ρ c) (acc3 m ρ c)) $$ Hout; iintro Hout
  -- the six own cells close: their counters at zero are the core's again
  imod (Rounds.cell_close ER (ringRd m ρ) (Set.mem_univ (K (c, 1))) (fun h => h) (R := 0 + 1) (duties_later m ρ (dCell c snd0))) $$ [HaS0] with HzS0
  · isplitr; · iexact HIs0
    iexact HaS0
  imod (Rounds.cell_close ER (ringRd m ρ) (Set.mem_univ (K (c, 2))) (fun h => h) (R := 0 + 1) (duties_later m ρ (dCell c snd1))) $$ [HaS1] with HzS1
  · isplitr; · iexact HIs1
    iexact HaS1
  imod (Rounds.cell_close ER (ringRd m ρ) (Set.mem_univ (K (c, 3))) (fun h => h) (R := 0 + 1) (duties_later m ρ (dCell c snd2))) $$ [HaS2] with HzS2
  · isplitr; · iexact HIs2
    iexact HaS2
  imod (Rounds.cell_close ER (ringRd m ρ) (Set.mem_univ (K (c, 4))) (fun h => h) (R := 0 + 1) (duties_later m ρ (dCell c rcv1))) $$ [HaR1] with HzR1
  · isplitr; · iexact HIr1
    iexact HaR1
  imod (Rounds.cell_close ER (ringRd m ρ) (Set.mem_univ (K (c, 5))) (fun h => h) (R := 0 + 1) (duties_later m ρ (dCell c rcv2))) $$ [HaR2] with HzR2
  · isplitr; · iexact HIr2
    iexact HaR2
  imod (Rounds.cell_close ER (ringRd m ρ) (Set.mem_univ (K (c, 6))) (fun h => h) (R := 0 + 1) (duties_later m ρ (dCell c rcv3))) $$ [HaR3] with HzR3
  · isplitr; · iexact HIr3
    iexact HaR3
  -- the four slots put together
  ihave Hcomm := (slots_join c _ _ _ _) $$ [Hs0 Hs1 Hs2 Hs3]
  · isplitl [Hs0]; · iexact Hs0
    isplitl [Hs1]; · iexact Hs1
    isplitl [Hs2]; · iexact Hs2
    iexact Hs3
  rw [wp_ret]; imodintro
  iapply Hk
  unfold bodyPost Φ₁ ownZero Dat.owesAt Pipeline.owesWithin outAt
  rw [show (dats m ρ 0 c).owed t₀.succ = 0 from rfl]
  isplitl [Hcomm HzS0 HzS1 HzS2 HzR1 HzR2 HzR3]
  · isplitl [Hcomm]; · iexact Hcomm
    isplitl [HzS0]; · iexact HzS0
    isplitl [HzS1]; · iexact HzS1
    isplitl [HzS2]; · iexact HzS2
    isplitl [HzR1]; · iexact HzR1
    isplitl [HzR2]; · iexact HzR2
    iexact HzR3
  isplitl [HO]
  · iexists (insert (SemLoc.dma rcv3, ()) (insert (SemLoc.dma snd2, ()) W5))
    isplitr; · ipureintro; exact fun _ _ => Or.inl trivial
    iexact HO
  isplitl [Hx]; · iexact Hx
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 4000 in
/-- The library's body obligation on core `c`. -/
theorem body_obligation (c : Dev nD) : BodyObligation (dats (F := F) m ρ 0 c) (defs₀ (F := F)) 𝒱₀ () Set.univ := fun t => by
  rw [fin_N t]
  rw [bigSep_W, bigSep_W]
  simp only [owns_whole_eq]
  show bodyPre' m ρ c ⊢ wp frame (wpE (defs₀ (F := F)) 𝒱₀ (c : Thread nD τ) none) Set.univ
    (cc0_body xM (Memref.isWhole_whole _) oM (Memref.isWhole_whole _) cM (Memref.isWhole_whole _) cc0_scratch1 cc0_scratch2) (fun _ => bodyPost m ρ c)
  unfold bodyPre' Φ₀ start
  iintro ⟨⟨⟨⟨%K, Hg⟩, Hcr, Hlev⟩, Hcomm⟩, Ho, Hx, Hout⟩
  iapply (sound_body m ρ K c fun _ => bodyPost m ρ c)
  unfold bodyPre
  isplitr []
  · isplitl [Hg Hcr Hlev Hcomm]
    · isplitl [Hg]; · iexact Hg
      isplitl [Hcr]; · iexact Hcr
      isplitl [Hlev]; · iexact Hlev
      iexact Hcomm
    isplitl [Ho]; · iexact Ho
    isplitl [Hx] <;> iassumption
  · iintro H; iexact H

/-- info: 'Cert.Kernel.RingProof.body_obligation' depends on axioms: [propext, Classical.choice, Quot.sound] -/
#guard_msgs in #print axioms body_obligation

end Cert.Kernel.RingProof

end
-- ==== Proof.Bits.Launch.lean ====
/-
  The launch of the ring all-reduce: from the body of one device, proved at a symbolic device, to the run of the
  whole mesh.

  The launch element is the pipeline's own and the ring's: every cell of the ring (seven per device: the barrier
  cell, three send cells, three receive cells) in its launch state at round 0, and the eight duty tokens of each
  device's own cells. One global step puts every cell's counter at zero under its invariant and deals the tokens
  around the ring: a barrier cell's two tokens to the two neighbours that signal it, a receive cell's token to the
  left neighbour whose transfer lands there, a send cell's token stays. What the devices owe one another at launch
  comes back as credit: two units on each barrier cell, a slot's credit on each receive cell.
-/
import proofs.«900729_g7700000000000730_dist_ar_v7x_xyz2x4x4_y_m512_n512_bf16_1_alg».proof.Proof.Bits.Proto

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m ρ 0 c).share w = fullShare := by unfold Dat.share; split <;> rfl

theorem kcell_injective : Function.Injective (kcell : Dev nD × Fin 7 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := by fin_cases k <;> fin_cases k' <;> first | rfl | exact absurd h2 (by decide)
  subst this; rfl
def ringCells : Finset (GSem nD τ sig) := Finset.univ.map ⟨kcell, kcell_injective⟩

/-- A device's own cells' duty tokens as minted: (device, which duty) — its barrier's `false` and `true`, its three
    send cells' and its three receive cells' `false`. -/
abbrev tokOf (cj : Dev nD × Fin 8) : GSem nD τ sig × ℕ × Bool := match cj.2 with
  | 0 => (barCell cj.1, 0, false) | 1 => (barCell cj.1, 0, true)
  | 2 => (dCell cj.1 snd0, 0, false) | 3 => (dCell cj.1 snd1, 0, false) | 4 => (dCell cj.1 snd2, 0, false)
  | 5 => (dCell cj.1 rcv1, 0, false) | 6 => (dCell cj.1 rcv2, 0, false) | 7 => (dCell cj.1 rcv3, 0, false)
theorem tokOf_injective : Function.Injective (tokOf : Dev nD × Fin 8 → GSem nD τ sig × ℕ × Bool) := by
  rintro ⟨c, j⟩ ⟨c', j'⟩ h
  have h1 : c = c' := by
    have := congrArg (fun x : GSem nD τ sig × ℕ × Bool => x.1.1.1) h
    fin_cases j <;> fin_cases j' <;> exact this
  subst h1
  have : j = j' := by
    fin_cases j <;> fin_cases j' <;> first | rfl | exact absurd (congrArg (fun x : GSem nD τ sig × ℕ × Bool => (x.1.2, x.2.2)) h) (fun h' => by cases h')
  subst this; rfl
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop(dutyTok ER (barCell c) 0 false ∗ dutyTok ER (barCell c) 0 true
    ∗ dutyTok ER (dCell c snd0) 0 false ∗ dutyTok ER (dCell c snd1) 0 false ∗ dutyTok ER (dCell c snd2) 0 false
    ∗ dutyTok ER (dCell c rcv1) 0 false ∗ dutyTok ER (dCell c rcv2) 0 false ∗ dutyTok ER (dCell c rcv3) 0 false)

/-- What the launch element deals device `c`. -/
def G (c : Dev nD) : sProp 𝕄 :=
  iprop((bigSep Finset.univ fun k : Fin 7 => roundState ER (ringRd m ρ) (kcell (c, k)) 0)
    ∗ (bigSep Finset.univ fun k : Fin 7 => iprop(atPos ER (kcell (c, k)) 0 ∅ 0 ∗ reached ER (kcell (c, k)) 0)) ∗ toks c)

/-- What the global step makes of it. -/
def G' (c : Dev nD) : sProp 𝕄 := iprop(∃ K, ghost m ρ K c)

theorem bigSep_fin7 (Φ : Fin 7 → sProp 𝕄) : bigSep Finset.univ Φ = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 7 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_fin8]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The six semaphores the protocol uses are the kernel's own; -/
theorem ownSems0_eq (c : Dev nD) : (Pipeline.ownSems0 (Ix := Unit) (Name := ℕ) (U := UU) (Lvl := ℕ) (Val := Elt F) (τ := τ) osem c : sProp 𝕄)
    = ownZero c := by
  rw [Pipeline.ownSems0_eq_of_list c osem [0, 1, 2, 3, 4, 5] (by decide) (by decide)]; rfl
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 7 => semVal (kcell (c, k)) 0 : sProp 𝕄) := by
  rw [ownSems0_eq, unscopedSems0_eq, bigSep_fin7]
  unfold ownZero
  iintro ⟨⟨H1, H2, H3, H4, H5, H6⟩, HB⟩
  isplitl [HB]; · iexact HB
  isplitl [H1]; · iexact H1
  isplitl [H2]; · iexact H2
  isplitl [H3]; · iexact H3
  isplitl [H4]; · iexact H4
  isplitl [H5]; · iexact H5
  iexact H6

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 7 => semVal (kcell (c, k)) 0) ∗ bigSep Finset.univ fun k : Fin 7 => roundState ER (ringRd m ρ) (kcell (c, k)) 0)
      ⊢ (|={Set.univ}=> bigSep Finset.univ fun k => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 7 → ℕ) : sProp 𝕄 :=
  iprop((bigSep Finset.univ fun ck : Dev nD × Fin 7 => cellInv ER (ringRd m ρ) (K ck) (kcell ck))
    ∗ bigSep Finset.univ fun ck : Dev nD × Fin 7 => reached ER (kcell ck) 0)

instance records_persistent (K : Dev nD × Fin 7 → ℕ) : BI.Persistent (records m ρ K) := by unfold records; infer_instance

theorem inv_at (K : Dev nD × Fin 7 → ℕ) (ck : Dev nD × Fin 7) :
    (bigSep Finset.univ fun ck : Dev nD × Fin 7 => (cellInv ER (ringRd m ρ) (K ck) (kcell ck) : sProp 𝕄)) ⊢ cellInv ER (ringRd m ρ) (K ck) (kcell ck) :=
  bigSep_elim (Finset.mem_univ ck)
theorem reached_at (ck : Dev nD × Fin 7) :
    (bigSep Finset.univ fun ck : Dev nD × Fin 7 => (reached ER (kcell ck) 0 : sProp 𝕄)) ⊢ reached ER (kcell ck) 0 :=
  bigSep_elim (Finset.mem_univ ck)

/-- What stays with device `c`: its positions, and the tokens of the duties it pays. -/
def linear (c : Dev nD) : sProp 𝕄 := iprop(poss c ∗ payToks c)

theorem ghost_intro (K : Dev nD × Fin 7 → ℕ) (c : Dev nD) : iprop(records m ρ K ∗ linear c) ⊢ G' m ρ c := by
  unfold records linear G' ghost
  iintro ⟨⟨#HI, #HR⟩, Hpos, Htok⟩
  iexists K
  isplitr
  · unfold invs
    isplitr; · iapply (inv_at m ρ K (c, 0)); iexact HI
    isplitr; · iapply (inv_at m ρ K (c, 1)); iexact HI
    isplitr; · iapply (inv_at m ρ K (c, 2)); iexact HI
    isplitr; · iapply (inv_at m ρ K (c, 3)); iexact HI
    isplitr; · iapply (inv_at m ρ K (c, 4)); iexact HI
    isplitr; · iapply (inv_at m ρ K (c, 5)); iexact HI
    isplitr; · iapply (inv_at m ρ K (c, 6)); iexact HI
    isplitr; · iapply (inv_at m ρ K (nxt c, 0)); iexact HI
    isplitr; · iapply (inv_at m ρ K (prv c, 0)); iexact HI
    isplitr; · iapply (inv_at m ρ K (nxt c, 4)); iexact HI
    isplitr; · iapply (inv_at m ρ K (nxt c, 5)); iexact HI
    iapply (inv_at m ρ K (nxt c, 6)); iexact HI
  isplitl [Hpos]; · iexact Hpos
  isplitr
  · unfold marks
    isplitr; · iapply (reached_at (F := F) (nxt c, 0)); iexact HR
    isplitr; · iapply (reached_at (F := F) (prv c, 0)); iexact HR
    isplitr; · iapply (reached_at (F := F) (nxt c, 4)); iexact HR
    isplitr; · iapply (reached_at (F := F) (nxt c, 5)); iexact HR
    isplitr; · iapply (reached_at (F := F) (nxt c, 6)); iexact HR
    isplitr; · iapply (reached_at (F := F) (c, 1)); iexact HR
    isplitr; · iapply (reached_at (F := F) (c, 2)); iexact HR
    iapply (reached_at (F := F) (c, 3)); iexact HR
  iexact Htok

/-- The tokens dealt around the ring: a barrier's `false` token and the three receive tokens one device down (to the
    left neighbour), a barrier's `true` token one device up (to the right neighbour); the send tokens stay. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok ER (barCell c) 0 false : sProp 𝕄)),
    bigSep_univ_equiv ring.symm (fun c : Dev nD => (dutyTok ER (barCell c) 0 true : sProp 𝕄)),
    bigSep_univ_equiv ring (fun c : Dev nD => (dutyTok ER (dCell c rcv1) 0 false : sProp 𝕄)),
    bigSep_univ_equiv ring (fun c : Dev nD => (dutyTok ER (dCell c rcv2) 0 false : sProp 𝕄)),
    bigSep_univ_equiv ring (fun c : Dev nD => (dutyTok ER (dCell c rcv3) 0 false : sProp 𝕄))]
  iintro ⟨H1, H2, H3, H4, H5, H6, H7, H8⟩
  isplitl [H1]; · iexact H1
  isplitl [H2]; · iexact H2
  isplitl [H6]; · iexact H6
  isplitl [H7]; · iexact H7
  isplitl [H8]; · iexact H8
  isplitl [H3]; · iexact H3
  isplitl [H4]; · iexact H4
  iexact H5

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (ringRd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 7 => iprop(∃ κ : ℕ, cellInv ER (ringRd m ρ) κ (kcell ck))),
    bigSep_congr (s := Finset.univ) (fun (c : Dev nD) _ => bigSep_sep' Finset.univ (fun k : Fin 7 => (atPos ER (kcell (c, k)) 0 ∅ 0 : sProp 𝕄)) (fun k => reached ER (kcell (c, k)) 0)),
    bigSep_sep', ← bigSep_univ_prod (fun ck : Dev nD × Fin 7 => (reached ER (kcell ck) 0 : sProp 𝕄))]
  iintro ⟨HI, ⟨Hat, #HR⟩, Htok⟩
  ihave HK := (BI.bigSep_exists_pi Finset.univ (fun (ck : Dev nD × Fin 7) (κ : ℕ) => (cellInv ER (ringRd m ρ) κ (kcell ck) : sProp 𝕄))) $$ HI
  icases HK with ⟨%K, #HI⟩
  ihave Htk := (toks_around (F := F)) $$ Htok
  iapply (bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 7 => (atPos ER (kcell (c, k)) 0 ∅ 0 : sProp 𝕄)) payToks).symm).trans
      (bigSep_mono fun c _ => show _ ⊢ linear c from Entails.of_eq (by unfold linear poss; rw [bigSep_fin7])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ### The launch credit -/

/-- The two units owed a barrier cell, by its two neighbours, are its credit of two. -/
theorem bar_two (c : Dev nD) :
    iprop(cred (tallyAt (barCell c) () 1) ∗ cred (tallyAt (barCell c) () 1)) ⊢ (cred (tallyAt (barCell c) () 2) : sProp 𝕄) := by
  have e : (tallyAt (barCell c) () 2 : CellTallies nD τ sig Unit) = tallyAt (barCell c) () 1 + tallyAt (barCell c) () 1 :=
    (tallyAt_add (barCell c) () 1 1).symm
  rw [e]
  exact (cred_add _ _).2

/-- What the devices owe at launch, summed over the devices, is each device's credit on its own barrier and receive cells. -/
theorem creds (c : Dev nD) : (Pipeline.launchCred O₀ c : sProp 𝕄) ⊢ creds0 c := by
  rw [show (O₀ : Dev nD → CellTallies nD τ sig Unit) = fun d =>
      (((tallyAt (dCell (nxt d) rcv3) () N + tallyAt (dCell (nxt d) rcv2) () N) + tallyAt (dCell (nxt d) rcv1) () N)
        + tallyAt (barCell (nxt d)) () 1) + tallyAt (barCell (prv d)) () 1 from rfl,
    Pipeline.launchCred_add, Pipeline.launchCred_add, Pipeline.launchCred_add, Pipeline.launchCred_add]
  unfold creds0
  iintro ⟨⟨⟨⟨H3, H2⟩, H1⟩, HbN⟩, HbP⟩
  ihave C3 := (Pipeline.launchCred_tallyAt (.dma rcv3) nxt prv nxt_prv prv_nxt () N c) $$ H3
  ihave C2 := (Pipeline.launchCred_tallyAt (.dma rcv2) nxt prv nxt_prv prv_nxt () N c) $$ H2
  ihave C1 := (Pipeline.launchCred_tallyAt (.dma rcv1) nxt prv nxt_prv prv_nxt () N c) $$ H1
  ihave CbN := (Pipeline.launchCred_tallyAt (.reg barS) nxt prv nxt_prv prv_nxt () 1 c) $$ HbN
  ihave CbP := (Pipeline.launchCred_tallyAt (.reg barS) prv nxt prv_nxt nxt_prv () 1 c) $$ HbP
  isplitl [CbN CbP]
  · iapply (bar_two (F := F) c)
    isplitl [CbN] <;> iassumption
  isplitl [C1]; · iexact C1
  isplitl [C2]; · iexact C2
  iexact C3

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ commAny
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ c from rfl, scopedRest0_eq, ownSems0_eq]
  unfold Φ₁ commAny
  iintro ⟨⟨%f, Hr⟩, Hz⟩
  isplitr; · iempintro
  isplitl [Hz]; · iexact Hz
  iexists f; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh, for any float values, from any memory with zero counters: if the body of one device meets its
    obligation at every device, then every weakly fair execution of @main terminates, and every final state has each
    device's arrays at the computed contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.RingProof.run_main' depends on axioms: [propext, Classical.choice, Quot.sound] -/
#guard_msgs in #print axioms run_main

end Cert.Kernel.RingProof

end
-- ==== Proof.Bits.Final.lean ====
/-
  The run of the ring all-reduce with its result named: every device ends with its result array at
  `((x₀ + x₁) + x₂) + x₃` of its own block and the blocks of the three devices to its left, and its argument
  unchanged.

  The argument array is an input window's: no point writes it back. The result array is written back once, whole, at the
  one point of the pipeline, with what the body left in its staging buffer; the argument's staging buffer holds the
  argument array, whole.
-/
import proofs.«900729_g7700000000000730_dist_ar_v7x_xyz2x4x4_y_m512_n512_bf16_1_alg».proof.Proof.Bits.Launch
import proofs.«900729_g7700000000000730_dist_ar_v7x_xyz2x4x4_y_m512_n512_bf16_1_alg».proof.Proof.Bits.Spec

noncomputable section

namespace Cert.Kernel.RingProof

open Cert.Kernel Cert.Kernel.Gen Cert.Kernel.Ring Cert.Kernel.RingValue

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The argument's one block, read off the whole array, is the array. -/
theorem xstg_eq (c : Dev nD) : xstg m ρ c = m ((c : Thread nD τ).loc main_arg0) := by
  unfold xstg
  exact Memref.read_access_unit_zero (Elt F) main_arg0 (funext fun a => Nat.zero_mul _) _ _

/-- The result array after the run holds what the one write-back wrote: the body's result. -/
theorem finalA_out (c : Dev nD) : finalA m ρ c (1 : Fin 2) = outAt m ρ c := by
  have hN : cfg0.N = (t₀ : Fin cfg0.N).val + 1 := cfg0_N
  unfold finalA
  rw [hN, Dat.arrAt_succ, flush0_1 t₀, if_pos rfl]
  exact Memref.write_access_unit_zero_univ (Elt F) main_v1 (funext fun a => Nat.zero_mul _) _ _ _

/-- The body's result is the result term of the four argument blocks. -/
theorem outAt_eq (c : Dev nD) : outAt m ρ c = resultOf m c := by
  unfold outAt resultOf
  rw [acc3_eq, xstg_eq, xstg_eq, xstg_eq, xstg_eq]

/-- The run, with the result named: from any memory with zero counters, if the body of one device meets its
    obligation at every device, every weakly fair execution of @main terminates with each device's result at the
    result term of the initial argument blocks and its argument unchanged. -/
theorem run_val (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = resultOf m c
      ∧ r.2.mem ((c.tc : Thread nD τ).loc main_arg0) = m ((c.tc : Thread nD τ).loc main_arg0)) :=
  (θ_run defs _ _).mono
    (fun r h c => ⟨((h c (1 : Fin 2)).trans (finalA_out m ρ c)).trans (outAt_eq m ρ c), (h c (0 : Fin 2)).trans (finalA_x m ρ c)⟩)
    (run_main m ρ hbody)

/-- info: 'Cert.Kernel.RingProof.run_val' depends on axioms: [propext, Classical.choice, Quot.sound] -/
#guard_msgs in #print axioms run_val

end Cert.Kernel.RingProof

end
-- ==== Proof.lean ====
/-
  The ring all-reduce on the second axis of a 2 × 4 × 4 mesh against the sum of the four blocks.

  Every device keeps its own block of the argument and three times adds what its left neighbour sent it: after the
  three steps it holds the sum of the four blocks of its ring, added in the order own, one, two, three places to the
  left. The reference cuts the whole argument into the same four blocks and adds them from zero. Over the extended reals
  a change of float format is the identity and addition is commutative and associative, so the two are equal whatever
  the inputs hold: the precondition is not used.

  The kernel's run on the 32 devices — the entry handshake on the barrier semaphore, the three transfers around each
  ring, their waits, the result named as a term of the argument blocks — is proved once for any float instance and read
  at both; each program's frame is that run with the value dropped.
-/
import proofs.«900729_g7700000000000730_dist_ar_v7x_xyz2x4x4_y_m512_n512_bf16_1_alg».proof.Defs
import proofs.«900729_g7700000000000730_dist_ar_v7x_xyz2x4x4_y_m512_n512_bf16_1_alg».proof.Proof.Gen.Kernel
import proofs.«900729_g7700000000000730_dist_ar_v7x_xyz2x4x4_y_m512_n512_bf16_1_alg».proof.Proof.Gen.KernelIdeal
import proofs.«900729_g7700000000000730_dist_ar_v7x_xyz2x4x4_y_m512_n512_bf16_1_alg».proof.Proof.Gen.ReferenceIdeal
import proofs.«900729_g7700000000000730_dist_ar_v7x_xyz2x4x4_y_m512_n512_bf16_1_alg».proof.Proof.Gen.Pre_finite_inputs_Kernel
import proofs.«900729_g7700000000000730_dist_ar_v7x_xyz2x4x4_y_m512_n512_bf16_1_alg».proof.Proof.Gen.Pre_finite_inputs_ReferenceIdeal
import proofs.«900729_g7700000000000730_dist_ar_v7x_xyz2x4x4_y_m512_n512_bf16_1_alg».proof.Proof.Body
import proofs.«900729_g7700000000000730_dist_ar_v7x_xyz2x4x4_y_m512_n512_bf16_1_alg».proof.Proof.Final
import proofs.«900729_g7700000000000730_dist_ar_v7x_xyz2x4x4_y_m512_n512_bf16_1_alg».proof.Proof.RefValue
import proofs.«900729_g7700000000000730_dist_ar_v7x_xyz2x4x4_y_m512_n512_bf16_1_alg».proof.Proof.Bits.Body
import proofs.«900729_g7700000000000730_dist_ar_v7x_xyz2x4x4_y_m512_n512_bf16_1_alg».proof.Proof.Bits.Final
import Idealize.ShloMosaic.Adequacy
import Idealize.ShloMosaic.Init

noncomputable section

namespace Cert.Proof

open Idealize.ShloMosaic Idealize.SL.Sem

/-- The word-level program runs and leaves its argument blocks unchanged: its run with the value dropped. -/
theorem frame_k : Cert.frame_Kernel (hKernel := Cert.Kernel.Gen.facts) (hPre_finite_inputs_Kernel := Cert.Pre_finite_inputs_Kernel.Gen.facts) :=
  fun m ρ _ => (θ_run (Cert.Kernel.defs (F := Bits)) _ _).mono (fun _ h c => (h c).2)
    (Cert.Kernel.RingProof.run_val (F := Bits) m ρ (Cert.Kernel.RingProof.body_obligation m ρ))

/-- The idealized program likewise. -/
theorem frame_ki : Cert.frame_KernelIdeal (hKernelIdeal := Cert.KernelIdeal.Gen.facts) (hPre_finite_inputs_Kernel := Cert.Pre_finite_inputs_Kernel.Gen.facts) :=
  fun m ρ _ => (θ_run (Cert.KernelIdeal.defs (F := Ideal)) _ _).mono (fun _ h c => (h c).2)
    (Cert.KernelIdeal.RingProof.run_val (F := Ideal) m ρ (Cert.KernelIdeal.RingProof.body_obligation m ρ))

/-- Every device's result is the reference's: the sum of the ring's four blocks in either order. -/
theorem algebraic : Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) :=
  Cert.KernelIdeal.RingValue.algebraic_of_run fun m g =>
    Cert.KernelIdeal.RingProof.run_val (F := Ideal) m g (Cert.KernelIdeal.RingProof.body_obligation m g)

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.KernelIdeal.RingValue.frame_ri, trivial, algebraic⟩

end Cert.Proof

end
